-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S256 : Shape := ⟨1, ![256]⟩
abbrev S100000x256 : Shape := ⟨2, ![100000, 256]⟩
abbrev S100000 : Shape := ⟨1, ![100000]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x256 .f32) (main_arg1 : IVec S256 32) (main_arg2 : FVec F S100000x256 .f32) (main_arg3 : IVec S100000 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_c_2 : IVec S_ 32 := constantI S_ 32 0#32
  let main_v9 : IVec S100000 32 := broadcastInDim S100000 ![] bcast_S_S100000 main_c_2
  let main_v10 : IVec S100000 1 := cmpi .sge main_arg3 main_v9
  let main_c_3 : IVec S_ 1 := constantI S_ 1 1#1
  let main_v11 : IVec S_ 1 := (fun x v => Host.reduce IntOp.andi x v reducesTo_S100000_S_d0 h_S_) main_v10 main_c_3
  let main_v12 : IVec S_ 1 := andi main_v8 main_v11
  let main_c_4 : IVec S_ 32 := constantI S_ 32 5000#32
  let main_v13 : IVec S100000 32 := broadcastInDim S100000 ![] bcast_S_S100000 main_c_4
  let main_v14 : IVec S100000 1 := cmpi .slt main_arg3 main_v13
  let main_c_5 : IVec S_ 1 := constantI S_ 1 1#1
  let main_v15 : IVec S_ 1 := (fun x v => Host.reduce IntOp.andi x v reducesTo_S100000_S_d0 h_S_) main_v14 main_c_5
  fn_part1 (F := F) main_v12 main_v15
-- ==== Kernel.lean ====
abbrev S256x256 : Shape := ⟨2, ![256, 256]⟩
abbrev S256 : Shape := ⟨1, ![256]⟩
abbrev S100000x256 : Shape := ⟨2, ![100000, 256]⟩
abbrev S100000 : Shape := ⟨1, ![100000]⟩
abbrev S100000x1 : Shape := ⟨2, ![100000, 1]⟩
abbrev S256x5120 : Shape := ⟨2, ![256, 5120]⟩
abbrev S128x256 : Shape := ⟨2, ![128, 256]⟩
abbrev S1000x256 : Shape := ⟨2, ![1000, 256]⟩
abbrev S1000x1 : Shape := ⟨2, ![1000, 1]⟩
abbrev S128x5120 : Shape := ⟨2, ![128, 5120]⟩
abbrev S256x1000 : Shape := ⟨2, ![256, 1000]⟩
abbrev S128x1000 : Shape := ⟨2, ![128, 1000]⟩
abbrev S1000x5120 : Shape := ⟨2, ![1000, 5120]⟩
abbrev S_ : Shape := ⟨0, ![]⟩
abbrev S5120 : Shape := ⟨1, ![5120]⟩
abbrev S1x5120 : Shape := ⟨2, ![1, 5120]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 76
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256, .i32⟩
  | .hbm, ⟨2, _⟩ => ⟨S100000x256, .f32⟩
  | .hbm, ⟨3, _⟩ => ⟨S100000, .i32⟩
  | .hbm, ⟨4, _⟩ => ⟨S100000x1, .i32⟩
  | .hbm, ⟨5, _⟩ => ⟨S256x5120, .f32⟩
  | .hbm, ⟨6, _⟩ => ⟨S_, .f32⟩
  | .hbm, ⟨7, _⟩ => ⟨S100000, .f32⟩
  | .hbm, ⟨8, _⟩ => ⟨S_, .f32⟩
  | .hbm, ⟨9, _⟩ => ⟨S5120, .f32⟩
  | .hbm, ⟨10, _⟩ => ⟨S100000x1, .i32⟩
  | .hbm, ⟨11, _⟩ => ⟨S5120, .f32⟩
  | .hbm, ⟨12, _⟩ => ⟨S_, .f32⟩
  | .hbm, ⟨13, _⟩ => ⟨S5120, .f32⟩
  | .hbm, ⟨14, _⟩ => ⟨S5120, .i1⟩
  | .hbm, ⟨15, _⟩ => ⟨S_, .f32⟩
  | .hbm, ⟨16, _⟩ => ⟨S_, .f32⟩
  | .hbm, ⟨17, _⟩ => ⟨S5120, .f32⟩
  | .hbm, ⟨18, _⟩ => ⟨S5120, .f32⟩
  | .hbm, ⟨19, _⟩ => ⟨S1x5120, .f32⟩
  | .hbm, ⟨20, _⟩ => ⟨S256x5120, .f32⟩
  | .hbm, ⟨21, _⟩ => ⟨S256x5120, .f32⟩
  | .hbm, ⟨22, _⟩ => ⟨S256x5120, .f32⟩
  | .hbm, ⟨23, _⟩ => ⟨S1x5120, .i1⟩
  | .hbm, ⟨24, _⟩ => ⟨S1x5120, .f32⟩
  | .hbm, ⟨25, _⟩ => ⟨S256x5120, .f32⟩
  | .hbm, ⟨26, _⟩ => ⟨S256x5120, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S256x5120, .f32⟩
  | .hbm, ⟨34, _⟩ => ⟨S256x5120, .f32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S256, .i32⟩
  | .hbm, ⟨44, _⟩ => ⟨S_, .f32⟩
  | .hbm, ⟨45, _⟩ => ⟨S256x5120, .f32⟩
  | .hbm, ⟨46, _⟩ => ⟨S256x5120, .f32⟩
  | .hbm, ⟨47, _⟩ => ⟨S256x5120, .f32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S_, .i32⟩
  | .hbm, ⟨53, _⟩ => ⟨S256x1, .i32⟩
  | .hbm, ⟨54, _⟩ => ⟨S256x1, .i32⟩
  | .hbm, ⟨55, _⟩ => ⟨S256x1, .i32⟩
  | .hbm, ⟨56, _⟩ => ⟨S256x1x1, .i32⟩
  | .hbm, ⟨57, _⟩ => ⟨S1, .i32⟩
  | .hbm, ⟨58, _⟩ => ⟨S_, .i32⟩
  | .hbm, ⟨59, _⟩ => ⟨S256x1x1, .i32⟩
  | .hbm, ⟨60, _⟩ => ⟨S256x1x1, .i1⟩
  | .hbm, ⟨61, _⟩ => ⟨S1x1x1, .i32⟩
  | .hbm, ⟨62, _⟩ => ⟨S256x1x1, .i32⟩
  | .hbm, ⟨63, _⟩ => ⟨S256x1x1, .i1⟩
  | .hbm, ⟨64, _⟩ => ⟨S256x1x1, .i1⟩
  | .hbm, ⟨65, _⟩ => ⟨S_, .i1⟩
  | .hbm, ⟨66, _⟩ => ⟨S256x1, .i1⟩
  | .hbm, ⟨67, _⟩ => ⟨S256x1, .f32⟩
  | .hbm, ⟨68, _⟩ => ⟨S_, .f32⟩
  | .hbm, ⟨69, _⟩ => ⟨S256x1, .f32⟩
  | .hbm, ⟨70, _⟩ => ⟨S256x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S1000x256, .f32⟩
  | .local _ .vmem, ⟨3, _⟩ => ⟨S1000x256, .f32⟩
  | .local _ .vmem, ⟨4, _⟩ => ⟨S1000x1, .i32⟩
  | .local _ .vmem, ⟨5, _⟩ => ⟨S1000x1, .i32⟩
  | .local _ .vmem, ⟨6, _⟩ => ⟨S128x5120, .f32⟩
  | .local _ .vmem, ⟨7, _⟩ => ⟨S128x5120, .f32⟩
  | .local _ .vmem, ⟨8, _⟩ => ⟨S128x5120, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v22 : BitVec 1 := Scalar.cmpi .eq arg1 c99_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S100000_S100000x1 : S100000.ShapeCasts S100000x1
  inb_S128x5120_S128x5120_0_0 : ∀ a, (![0, 0] : Fin 2 → Nat) a + S128x5120.size a ≤ S128x5120.size a
  h_S128x5120 : 0 < S128x5120.numel
  shapeCasts_S128x5120_S128x5120 : S128x5120.ShapeCasts S128x5120
  inb_S128x256_S128x256_0_0 : ∀ a, (![0, 0] : Fin 2 → Nat) a + S128x256.size a ≤ S128x256.size a
  h_S128x256 : 0 < S128x256.numel
  inb_S1000x256_S1000x256_0_0 : ∀ a, (![0, 0] : Fin 2 → Nat) a + S1000x256.size a ≤ S1000x256.size a
  h_S1000x256 : 0 < S1000x256.numel
  transposes_S1000x256_p1_0_S256x1000 : S1000x256.Transposes [1, 0] S256x1000
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x5120_d1_w32 : S1000x5120.Iotas .tc 32 [1]
  broadcasts_S1000x1_S1000x5120 : S1000x1.Broadcasts S1000x5120
  natLt_1_32 : 1 < 32
  bcast_S_S100000 : S_.BroadcastsInDim S100000 (![] : Fin 0 → Fin S100000.rank)
  bcast_S_S5120 : S_.BroadcastsInDim S5120 (![] : Fin 0 → Fin S5120.rank)
  bcast_S100000_S100000x1_0 : S100000.BroadcastsInDim S100000x1 (![0] : Fin 1 → Fin S100000x1.rank)
  bcast_S5120_S1x5120_1 : S5120.BroadcastsInDim S1x5120 (![1] : Fin 1 → Fin S1x5120.rank)
  bcast_S1x5120_S256x5120_0_1 : S1x5120.BroadcastsInDim S256x5120 (![0, 1] : Fin 2 → Fin S256x5120.rank)
  reducesTo_S256x5120_S256_d1 : S256x5120.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x5120_0_1 : S256x1.BroadcastsInDim S256x5120 (![0, 1] : Fin 2 → Fin S256x5120.rank)
  bcast_S_S256 : S_.BroadcastsInDim S256 (![] : Fin 0 → Fin S256.rank)
  bcast_S_S256x5120 : S_.BroadcastsInDim S256x5120 (![] : Fin 0 → Fin S256x5120.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  dot_S128x256_S256x1000_S128x1000_1_0_0_1_n_n_wf : DotDims.WF S128x256 S256x1000 S128x1000 [1] [0] [0] [1] [] []
  dot_S128x1000_S1000x5120_S128x5120_1_0_0_1_n_n_wf : DotDims.WF S128x1000 S1000x5120 S128x5120 [1] [0] [0] [1] [] []
  scatter_S5120_S100000x1_S100000_n_0_0_1_wf : ScatterDims.WF S5120 S100000x1 S100000 [] [0] [0] 1
  gather_S100000_S256x1_S256_n_0_n_n_0_1_1_wf : GatherDims.WF S100000 S256x1 S256 [] [0] [] [0] [] 1 ![1]
  gather_S256x5120_S256x1x1_S256x1_n_1_0_0_1_2_11_wf : GatherDims.WF S256x5120 S256x1x1 S256x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S256x256.size a
  hwx0_0 : ∀ i : grid0.Coords, EltTy.bits .f32 = 32 ∨ (Rect.block (s := S256x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S100000x256.size a
  hwx0_1 : ∀ i : grid0.Coords, EltTy.bits .f32 = 32 ∨ (Rect.block (s := S100000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S100000x1.size a
  hwx0_2 : ∀ i : grid0.Coords, EltTy.bits .i32 = 32 ∨ (Rect.block (s := S100000x1) S1000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x5120.size a ≤ S256x5120.size a
  hwx0_3 : ∀ i : grid0.Coords, EltTy.bits .f32 = 32 ∨ (Rect.block (s := S256x5120) S128x5120.size (cc0_transform_3 i) (hinb0_3 i)).WholeWords (EltTy.packing .f32)

variable [Facts₀]

def dot_S128x256_S256x1000_S128x1000_1_0_0_1_n_n : DotDims S128x256 S256x1000 S128x1000 where
  lhsContracting := [1]
  rhsContracting := [0]
  lhsNonContracting := [0]
  rhsNonContracting := [1]
  lhsBatch := []
  rhsBatch := []
  wf := dot_S128x256_S256x1000_S128x1000_1_0_0_1_n_n_wf
def dot_S128x1000_S1000x5120_S128x5120_1_0_0_1_n_n : DotDims S128x1000 S1000x5120 S128x5120 where
  lhsContracting := [1]
  rhsContracting := [0]
  lhsNonContracting := [0]
  rhsNonContracting := [1]
  lhsBatch := []
  rhsBatch := []
  wf := dot_S128x1000_S1000x5120_S128x5120_1_0_0_1_n_n_wf
def scatter_S5120_S100000x1_S100000_n_0_0_1 : ScatterDims S5120 S100000x1 S100000 where
  updateWindowDims := []
  insertedWindowDims := [0]
  scatterDimsToOperandDims := [0]
  indexVectorDim := 1
  wf := scatter_S5120_S100000x1_S100000_n_0_0_1_wf
def gather_S100000_S256x1_S256_n_0_n_n_0_1_1 : GatherDims S100000 S256x1 S256 where
  offsetDims := []
  collapsedSliceDims := [0]
  operandBatchingDims := []
  startIndicesBatchingDims := []
  startIndexMap := [0]
  indexVectorDim := 1
  sliceSizes := ![1]
  wf := gather_S100000_S256x1_S256_n_0_n_n_0_1_1_wf
def gather_S256x5120_S256x1x1_S256x1_n_1_0_0_1_2_11 : GatherDims S256x5120 S256x1x1 S256x1 where
  offsetDims := []
  collapsedSliceDims := [1]
  operandBatchingDims := [0]
  startIndicesBatchingDims := [0]
  startIndexMap := [1]
  indexVectorDim := 2
  sliceSizes := ![1, 1]
  wf := gather_S256x5120_S256x1x1_S256x1_n_1_0_0_1_2_11_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x5120.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x256 : Shape := ⟨2, ![256, 256]⟩
abbrev S256 : Shape := ⟨1, ![256]⟩
abbrev S100000x256 : Shape := ⟨2, ![100000, 256]⟩
abbrev S100000 : Shape := ⟨1, ![100000]⟩
abbrev S256x100000 : Shape := ⟨2, ![256, 100000]⟩
abbrev S_ : Shape := ⟨0, ![]⟩
abbrev S5000x256 : Shape := ⟨2, ![5000, 256]⟩
abbrev S100000x1 : Shape := ⟨2, ![100000, 1]⟩
abbrev S5000 : Shape := ⟨1, ![5000]⟩
abbrev S5000x1 : Shape := ⟨2, ![5000, 1]⟩
abbrev S256x5000 : Shape := ⟨2, ![256, 5000]⟩
abbrev S1x5000 : Shape := ⟨2, ![1, 5000]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256, .i32⟩
  | .hbm, ⟨2, _⟩ => ⟨S100000x256, .f32⟩
  | .hbm, ⟨3, _⟩ => ⟨S100000, .i32⟩
  | .hbm, ⟨4, _⟩ => ⟨S256x100000, .f32⟩
  | .hbm, ⟨5, _⟩ => ⟨S256x100000, .f32⟩
  | .hbm, ⟨6, _⟩ => ⟨S_, .f32⟩
  | .hbm, ⟨7, _⟩ => ⟨S256x100000, .f32⟩
  | .hbm, ⟨8, _⟩ => ⟨S256x100000, .f32⟩
  | .hbm, ⟨9, _⟩ => ⟨S100000x256, .f32⟩
  | .hbm, ⟨10, _⟩ => ⟨S_, .f32⟩
  | .hbm, ⟨11, _⟩ => ⟨S5000x256, .f32⟩
  | .hbm, ⟨12, _⟩ => ⟨S100000x1, .i32⟩
  | .hbm, ⟨13, _⟩ => ⟨S5000x256, .f32⟩
  | .hbm, ⟨14, _⟩ => ⟨S_, .f32⟩
  | .hbm, ⟨15, _⟩ => ⟨S100000, .f32⟩
  | .hbm, ⟨16, _⟩ => ⟨S_, .f32⟩
  | .hbm, ⟨17, _⟩ => ⟨S5000, .f32⟩
  | .hbm, ⟨18, _⟩ => ⟨S100000x1, .i32⟩
  | .hbm, ⟨19, _⟩ => ⟨S5000, .f32⟩
  | .hbm, ⟨20, _⟩ => ⟨S_, .f32⟩
  | .hbm, ⟨21, _⟩ => ⟨S5000, .f32⟩
  | .hbm, ⟨22, _⟩ => ⟨S5000, .i1⟩
  | .hbm, ⟨23, _⟩ => ⟨S_, .f32⟩
  | .hbm, ⟨24, _⟩ => ⟨S_, .f32⟩
  | .hbm, ⟨25, _⟩ => ⟨S5000, .f32⟩
  | .hbm, ⟨26, _⟩ => ⟨S5000, .f32⟩
  | .hbm, ⟨27, _⟩ => ⟨S5000x1, .f32⟩
  | .hbm, ⟨28, _⟩ => ⟨S5000x256, .f32⟩
  | .hbm, ⟨29, _⟩ => ⟨S5000x256, .f32⟩
  | .hbm, ⟨30, _⟩ => ⟨S256x5000, .f32⟩
  | .hbm, ⟨31, _⟩ => ⟨S256x5000, .f32⟩
  | .hbm, ⟨32, _⟩ => ⟨S1x5000, .i1⟩
  | .hbm, ⟨33, _⟩ => ⟨S1x5000, .f32⟩
  | .hbm, ⟨34, _⟩ => ⟨S256x5000, .f32⟩
  | .hbm, ⟨35, _⟩ => ⟨S256x5000, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x5000, .f32⟩
  | .hbm, ⟨43, _⟩ => ⟨S256x5000, .f32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256x1, .i32⟩
  | .hbm, ⟨52, _⟩ => ⟨S256, .i32⟩
  | .hbm, ⟨53, _⟩ => ⟨S_, .f32⟩
  | .hbm, ⟨54, _⟩ => ⟨S256x5000, .f32⟩
  | .hbm, ⟨55, _⟩ => ⟨S256x5000, .f32⟩
  | .hbm, ⟨56, _⟩ => ⟨S256x5000, .f32⟩
  | .hbm, ⟨57, _⟩ => ⟨S256x1, .i32⟩
  | .hbm, ⟨58, _⟩ => ⟨S_, .i32⟩
  | .hbm, ⟨59, _⟩ => ⟨S256x1, .i32⟩
  | .hbm, ⟨60, _⟩ => ⟨S256x1, .i1⟩
  | .hbm, ⟨61, _⟩ => ⟨S_, .i32⟩
  | .hbm, ⟨62, _⟩ => ⟨S256x1, .i32⟩
  | .hbm, ⟨63, _⟩ => ⟨S256x1, .i32⟩
  | .hbm, ⟨64, _⟩ => ⟨S256x1, .i32⟩
  | .hbm, ⟨65, _⟩ => ⟨S256x1x1, .i32⟩
  | .hbm, ⟨66, _⟩ => ⟨S1, .i32⟩
  | .hbm, ⟨67, _⟩ => ⟨S_, .i32⟩
  | .hbm, ⟨68, _⟩ => ⟨S256x1x1, .i32⟩
  | .hbm, ⟨69, _⟩ => ⟨S256x1x1, .i1⟩
  | .hbm, ⟨70, _⟩ => ⟨S1x1x1, .i32⟩
  | .hbm, ⟨71, _⟩ => ⟨S256x1x1, .i32⟩
  | .hbm, ⟨72, _⟩ => ⟨S256x1x1, .i1⟩
  | .hbm, ⟨73, _⟩ => ⟨S256x1x1, .i1⟩
  | .hbm, ⟨74, _⟩ => ⟨S_, .i1⟩
  | .hbm, ⟨75, _⟩ => ⟨S256x1, .i1⟩
  | .hbm, ⟨76, _⟩ => ⟨S256x1, .f32⟩
  | .hbm, ⟨77, _⟩ => ⟨S_, .f32⟩
  | .hbm, ⟨78, _⟩ => ⟨S256x1, .f32⟩
  | .hbm, ⟨79, _⟩ => ⟨S256x1, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_cst : Ref sig .tc := ⟨.hbm, 77, rfl⟩
abbrev main_call1_v14 : Ref sig .tc := ⟨.hbm, 78, rfl⟩
abbrev main_v41 : Ref sig .tc := ⟨.hbm, 79, rfl⟩
abbrev main_cst_9 : Ref sig .tc := ⟨.hbm, 80, rfl⟩
abbrev main_v42 : Ref sig .tc := ⟨.hbm, 81, rfl⟩
abbrev main_cst_10 : Ref sig .tc := ⟨.hbm, 82, rfl⟩
abbrev main_v43 : Ref sig .tc := ⟨.hbm, 83, rfl⟩
abbrev main_v44 : Ref sig .tc := ⟨.hbm, 84, rfl⟩

abbrev nD : Nat := 1
abbrev τ : Topo := Topo.v7x

variable {F : FTy → Type} [FloatOps F]

class Facts₀ : Prop where
  transposes_S100000x256_S256x100000_1_0 : S100000x256.Transposes [1, 0] S256x100000
  bcast_S_S256x100000 : S_.BroadcastsInDim S256x100000 (![] : Fin 0 → Fin S256x100000.rank)
  transposes_S256x100000_S100000x256_1_0 : S256x100000.Transposes [1, 0] S100000x256
  bcast_S_S5000x256 : S_.BroadcastsInDim S5000x256 (![] : Fin 0 → Fin S5000x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x256_0_1 : S5000x1.BroadcastsInDim S5000x256 (![0, 1] : Fin 2 → Fin S5000x256.rank)
  transposes_S5000x256_S256x5000_1_0 : S5000x256.Transposes [1, 0] S256x5000
  bcast_S5000_S1x5000_1 : S5000.BroadcastsInDim S1x5000 (![1] : Fin 1 → Fin S1x5000.rank)
  bcast_S1x5000_S256x5000_0_1 : S1x5000.BroadcastsInDim S256x5000 (![0, 1] : Fin 2 → Fin S256x5000.rank)
  reducesTo_S256x5000_S256_d1 : S256x5000.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x5000_0_1 : S256x1.BroadcastsInDim S256x5000 (![0, 1] : Fin 2 → Fin S256x5000.rank)
  bcast_S_S256 : S_.BroadcastsInDim S256 (![] : Fin 0 → Fin S256.rank)
  bcast_S_S256x5000 : S_.BroadcastsInDim S256x5000 (![] : Fin 0 → Fin S256x5000.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  reducesTo_S256x1_S_d0_1 : S256x1.ReducesTo [0, 1] S_
  dot_S256x256_S256x100000_S256x100000_1_0_0_1_n_n_wf : DotDims.WF S256x256 S256x100000 S256x100000 [1] [0] [0] [1] [] []
  scatter_S5000x256_S100000x1_S100000x256_1_0_0_1_wf : ScatterDims.WF S5000x256 S100000x1 S100000x256 [1] [0] [0] 1
  scatter_S5000_S100000x1_S100000_n_0_0_1_wf : ScatterDims.WF S5000 S100000x1 S100000 [] [0] [0] 1
  gather_S100000_S256x1_S256_n_0_n_n_0_1_1_wf : GatherDims.WF S100000 S256x1 S256 [] [0] [] [0] [] 1 ![1]
  gather_S256x5000_S256x1x1_S256x1_n_1_0_0_1_2_11_wf : GatherDims.WF S256x5000 S256x1x1 S256x1 [] [1] [0] [1] [0] 2 ![1, 1]

variable [Facts₀]

def dot_S256x256_S256x100000_S256x100000_1_0_0_1_n_n : DotDims S256x256 S256x100000 S256x100000 where
  lhsContracting := [1]
  rhsContracting := [0]
  lhsNonContracting := [0]
  rhsNonContracting := [1]
  lhsBatch := []
  rhsBatch := []
  wf := dot_S256x256_S256x100000_S256x100000_1_0_0_1_n_n_wf
def scatter_S5000x256_S100000x1_S100000x256_1_0_0_1 : ScatterDims S5000x256 S100000x1 S100000x256 where
  updateWindowDims := [1]
  insertedWindowDims := [0]
  scatterDimsToOperandDims := [0]
  indexVectorDim := 1
  wf := scatter_S5000x256_S100000x1_S100000x256_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def gather_S100000_S256x1_S256_n_0_n_n_0_1_1 : GatherDims S100000 S256x1 S256 where
  offsetDims := []
  collapsedSliceDims := [0]
  operandBatchingDims := []
  startIndicesBatchingDims := []
  startIndexMap := [0]
  indexVectorDim := 1
  sliceSizes := ![1]
  wf := gather_S100000_S256x1_S256_n_0_n_n_0_1_1_wf
def gather_S256x5000_S256x1x1_S256x1_n_1_0_0_1_2_11 : GatherDims S256x5000 S256x1x1 S256x1 where
  offsetDims := []
  collapsedSliceDims := [1]
  operandBatchingDims := [0]
  startIndicesBatchingDims := [0]
  startIndexMap := [1]
  indexVectorDim := 2
  sliceSizes := ![1, 1]
  wf := gather_S256x5000_S256x1x1_S256x1_n_1_0_0_1_2_11_wf

class Facts : Prop extends Facts₀ where

variable [Facts]
-- ==== Proof.KDefs.lean ====
/-
  The accumulation the kernel carries across its grid, named.

  The grid is 2 × 100, walked row-major: point t = 100·b + n works on the b-th half (128 rows) of the
  queries and on the n-th tile (1000 rows) of the memory bank. A scratch buffer of 128 × 5120 words is
  reset at n = 0, receives at every point the tile's contribution
  (queries · tileᵀ · scale) · onehot(labels of the tile), and is copied to the output block at n = 99.
  Here: the arrays as the region finds them (after the one reshape of the labels), each window's block at
  a point, what the scratch holds after each point (`accAt`, by recursion on the point), the region
  invariant that carries it, and the pipeline's proof data.
-/
import proofs.«424461_j62062277427227_1_alg».proof.Proof.Gen.Kernel.Launch
import proofs.«424461_j62062277427227_1_alg».proof.Proof.Gen.Kernel.Skeleton
import proofs.«424461_j62062277427227_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the one host
    operation before it (the labels reshaped to a column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3, hostOps1_4]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch accumulator, a whole scoped buffer of the kernel's own. -/
abbrev scM : Memref sig .tc .vmem S128x5120 .f32 := Memref.whole cc0_scratch0

/-! ## The body's two branch conditions and the staging memrefs at a point -/

/-- The condition of the body's first `scf.if` (the reset): the tile coordinate is 0. -/
abbrev cond1 (i : grid0.Coords) : Prop := (Scalar.cmpi .ne (Scalar.extui (Scalar.cmpi .eq (BitVec.ofNat 32 (i 1).val) 0#32)) 0#32) = 1#1
/-- The condition of the body's second `scf.if` (the copy to the output block): the tile coordinate is 99. -/
abbrev cond2 (i : grid0.Coords) : Prop := k0_cond2 i = 1#1

/-- Each window's current staging memref at point `t`, as the pipeline passes it to the body, and its wholeness. -/
abbrev ms0_0 (t : Fin cfg0.N) : Memref sig .tc .vmem S128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x5120 .f32 := win0_3.stage (cfg0.slots t 3)
abbrev hs0_3 (t : Fin cfg0.N) : (ms0_3 t).IsWhole := hstage0_3 ((cfg0.slots t 3).cast nbuf0_3)

/-! ## What the accumulator holds after each point -/

/-- What the scratch accumulator holds after the body at position `n` of the row-major walk: at the first
    tile of a half (n ≡ 0 mod 100) the tile's contribution added to the zero fill, elsewhere added to
    what the point before left. -/
def accAt (c : Dev nD) : (n : ℕ) → n < cfg0.N → Vec F S128x5120 .f32
  | 0, hn => k0_pay2 (iblk m c 0 ⟨0, hn⟩) (iblk m c 1 ⟨0, hn⟩) (iblk m c 2 ⟨0, hn⟩) (k0_pay1 (F := F))
  | n + 1, hn =>
    if (n + 1) % 100 = 0 then
      k0_pay2 (iblk m c 0 ⟨n + 1, hn⟩) (iblk m c 1 ⟨n + 1, hn⟩) (iblk m c 2 ⟨n + 1, hn⟩) (k0_pay1 (F := F))
    else
      k0_pay2 (iblk m c 0 ⟨n + 1, hn⟩) (iblk m c 1 ⟨n + 1, hn⟩) (iblk m c 2 ⟨n + 1, hn⟩) (accAt c n (Nat.lt_of_succ_lt hn))

/-- At the first tile of a half the accumulator restarts from the zero fill. -/
theorem accAt_reset (c : Dev nD) (t : Fin cfg0.N) (h : t.val % 100 = 0) :
    accAt m c t.val t.isLt = k0_pay2 (iblk m c 0 t) (iblk m c 1 t) (iblk m c 2 t) (k0_pay1 (F := F)) := by
  obtain ⟨n, hn⟩ := t
  cases n with
  | zero => rfl
  | succ n => exact if_pos h

/-- At every other tile it adds to what the point before left. -/
theorem accAt_step (c : Dev nD) (t : Fin cfg0.N) (h : ¬t.val % 100 = 0) :
    accAt m c t.val t.isLt = k0_pay2 (iblk m c 0 t) (iblk m c 1 t) (iblk m c 2 t)
      (accAt m c (t.val - 1) (Nat.lt_of_le_of_lt (Nat.sub_le _ _) t.isLt)) := by
  obtain ⟨n, hn⟩ := t
  cases n with
  | zero => exact absurd (Nat.zero_mod _) h
  | succ n => exact if_neg h

/-! ## The region invariant and the proof data -/

/-- The region invariant before position `n`: before the first point the scratch holds anything; afterwards
    it holds what the point before left, and the generator register is at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the one pipeline on core `c`: the arrays as the region finds them; after the body at
    point `t` each input's staging buffer at its block and the output's at the accumulator (which the body
    copies there at the last tile of a half, the only points that write the block back); the invariant
    above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

end Cert.Kernel.Fr

end
-- ==== Proof.KRuns.lean ====
/-
  The kernel body run once per control case, on any whole staging memrefs.

  The body has two conditionals on the tile coordinate n: a reset of the accumulator at n = 0 and a copy of
  the accumulator to the output block at n = 99. Over the grid three cases occur — first tile (reset, no
  copy), middle tile (neither), last tile (copy, no reset) — and in each the accumulator ends at the tile's
  contribution `k0_pay2` added to what it started from (the zero fill `k0_pay1` after a reset).
-/
import proofs.«424461_j62062277427227_1_alg».proof.Proof.KDefs
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## A store through the whole buffer, and a load through it

Every load and store of the body goes through the rectangle at offsets (0, 0) of the buffer's own extents. A load
through it of a whole buffer reads the buffer's contents; a store through it, the last of the writes, leaves the
stored value whatever was written or held before; and a load of what one such store left reads the stored value. -/

/-- Offsets (0, 0) as the constant function. -/
private theorem off00 : (![0, 0] : Fin 2 → ℕ) = fun _ => 0 := by
  funext a; fin_cases a <;> rfl

/-- A load through the whole-shape rectangle of a whole memref held at contents `X` reads `X`. -/
private theorem readAt_whole {S : Shape} {e : EltTy} {m : Memref sig .tc .vmem S e} (h : m.IsWhole)
    {off : Fin S.rank → ℕ} (hz : off = fun _ => 0) (inb : ∀ a, off a + S.size a ≤ S.size a) (X : Vec F S e) :
    m.view.readAt (Elt F) (Rect.unit off S.size inb).toLoadRect (h.unread X) = X := by
  rw [View.readAt_eq_ld, h.read_unread, View.ld_unit_zero hz]

/-- After writes of which the last went through the whole-shape rectangle, the buffer reads as that write's value. -/
private theorem read_writes_whole_last {S : Shape} {e : EltTy} (m : Memref sig .tc .vmem S e) (f : m.view.ty.Contents (Elt F))
    {off : Fin S.rank → ℕ} (hz : off = fun _ => 0) (inb : ∀ a, off a + S.size a ≤ S.size a) (w : Vec F S e)
    (L : List (View.Piece (Elt F) S e)) :
    m.view.read (Elt F) (m.view.writes (Elt F) f (⟨Rect.unit off S.size inb, w⟩ :: L)) = w := by
  rw [View.read_writes_eq_canon _ _ _ (fun y => ⟨_, List.mem_cons_self .., View.mem_set_unit_zero hz inb y⟩),
    View.canon_cons_unit_zero hz]

set_option maxHeartbeats 1000000 in
/-- First tile of a half: the accumulator, found at anything, is reset and ends at the tile's contribution over
    the zero fill; the output block's buffer is handed back untouched. -/
theorem run_first (c : Dev nD) (i : grid0.Coords)
    (arg2 : Memref sig .tc .vmem S128x256 .f32) (harg2 : arg2.IsWhole) (arg3 : Memref sig .tc .vmem S1000x256 .f32) (harg3 : arg3.IsWhole)
    (arg4 : Memref sig .tc .vmem S1000x1 .i32) (harg4 : arg4.IsWhole) (arg5 : Memref sig .tc .vmem S128x5120 .f32) (harg5 : arg5.IsWhole)
    (arg6 : Memref sig .tc .vmem S128x5120 .f32) (harg6 : arg6.IsWhole) (hc1 : cond1 i) (hc2 : ¬cond2 i)
    (x0 : Vec F S128x256 .f32) (x1 : Vec F S1000x256 .f32) (x2 : Vec F S1000x1 .i32) (xo : Vec F S128x5120 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (k0_pay2 x0 x1 x2 (k0_pay1 (F := F)))) -∗ K ⟨⟩))
      ⊢ wp frame (wpE (defs₀ (F := F)) Variants.none c none) E (cc0__seg_kernel i arg2 harg2 arg3 harg3 arg4 harg4 arg5 harg5 arg6 harg6) K := by
  -- the printed body is its skeleton of loads and stores over the named payloads
  simp only [cc0__seg_kernel_eq_skeleton]; unfold cc0__seg_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  -- a whole buffer's raw contents are determined by what it reads
  obtain rfl := harg2.eq_unread hf0; obtain rfl := harg3.eq_unread hf1; obtain rfl := harg4.eq_unread hf2
  -- the reset is taken, the copy is not
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists fo; isplitr; · ipureintro; exact hfo
    iexact HO
  -- the accumulator: the zero fill, then the update stored over it whole; the update read the zero fill back
  iexists _; isplitr
  rotate_left
  · iexact HS
  · ipureintro
    rw [read_writes_whole_last arg6 _ off00]
    sl_unfold_run_names
    rw [View.readCov_unit_zero (S := S128x5120) _ off00, readAt_whole harg2 off00, readAt_whole harg3 off00,
      readAt_whole harg4 off00]

set_option maxHeartbeats 1000000 in
/-- A middle tile: the accumulator, found at `xs`, ends at the tile's contribution added to `xs`; the output
    block's buffer is handed back untouched. -/
theorem run_mid (c : Dev nD) (i : grid0.Coords)
    (arg2 : Memref sig .tc .vmem S128x256 .f32) (harg2 : arg2.IsWhole) (arg3 : Memref sig .tc .vmem S1000x256 .f32) (harg3 : arg3.IsWhole)
    (arg4 : Memref sig .tc .vmem S1000x1 .i32) (harg4 : arg4.IsWhole) (arg5 : Memref sig .tc .vmem S128x5120 .f32) (harg5 : arg5.IsWhole)
    (arg6 : Memref sig .tc .vmem S128x5120 .f32) (harg6 : arg6.IsWhole) (hc1 : ¬cond1 i) (hc2 : ¬cond2 i)
    (x0 : Vec F S128x256 .f32) (x1 : Vec F S1000x256 .f32) (x2 : Vec F S1000x1 .i32) (xo : Vec F S128x5120 .f32) (xs : Vec F S128x5120 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (k0_pay2 x0 x1 x2 xs)) -∗ K ⟨⟩))
      ⊢ wp frame (wpE (defs₀ (F := F)) Variants.none c none) E (cc0__seg_kernel i arg2 harg2 arg3 harg3 arg4 harg4 arg5 harg5 arg6 harg6) K := by
  -- the printed body is its skeleton of loads and stores over the named payloads
  simp only [cc0__seg_kernel_eq_skeleton]; unfold cc0__seg_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  -- a whole buffer's raw contents are determined by what it reads
  obtain rfl := harg2.eq_unread hf0; obtain rfl := harg3.eq_unread hf1; obtain rfl := harg4.eq_unread hf2
  obtain rfl := harg6.eq_unread hfs
  -- neither the reset nor the copy is taken
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists fo; isplitr; · ipureintro; exact hfo
    iexact HO
  -- the accumulator: one update stored over it whole, computed from the four buffers as they were found
  iexists _; isplitr
  rotate_left
  · iexact HS
  · ipureintro
    rw [read_writes_whole_last arg6 _ off00, readAt_whole harg2 off00, readAt_whole harg3 off00, readAt_whole harg4 off00,
      readAt_whole harg6 off00]

set_option maxHeartbeats 1000000 in
/-- Last tile of a half: as a middle tile, and the accumulator's final contents are copied to the output
    block's buffer, found at anything. -/
theorem run_last (c : Dev nD) (i : grid0.Coords)
    (arg2 : Memref sig .tc .vmem S128x256 .f32) (harg2 : arg2.IsWhole) (arg3 : Memref sig .tc .vmem S1000x256 .f32) (harg3 : arg3.IsWhole)
    (arg4 : Memref sig .tc .vmem S1000x1 .i32) (harg4 : arg4.IsWhole) (arg5 : Memref sig .tc .vmem S128x5120 .f32) (harg5 : arg5.IsWhole)
    (arg6 : Memref sig .tc .vmem S128x5120 .f32) (harg6 : arg6.IsWhole) (hc1 : ¬cond1 i) (hc2 : cond2 i)
    (x0 : Vec F S128x256 .f32) (x1 : Vec F S1000x256 .f32) (x2 : Vec F S1000x1 .i32) (xs : Vec F S128x5120 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 x2 xs)
            ∗ owns (c : Thread nD τ) arg6 fullShare (k0_pay2 x0 x1 x2 xs)) -∗ K ⟨⟩))
      ⊢ wp frame (wpE (defs₀ (F := F)) Variants.none c none) E (cc0__seg_kernel i arg2 harg2 arg3 harg3 arg4 harg4 arg5 harg5 arg6 harg6) K := by
  -- the printed body is its skeleton of loads and stores over the named payloads
  simp only [cc0__seg_kernel_eq_skeleton]; unfold cc0__seg_kernel_skel
  unfold owns
  iintro ⟨⟨%f0, %hf0, H0⟩, ⟨%f1, %hf1, H1⟩, ⟨%f2, %hf2, H2⟩, ⟨%dO, %fo, -, HO⟩, ⟨%fs, %hfs, HS⟩, Hk⟩
  -- a whole buffer's raw contents are determined by what it reads
  obtain rfl := harg2.eq_unread hf0; obtain rfl := harg3.eq_unread hf1; obtain rfl := harg4.eq_unread hf2
  obtain rfl := harg6.eq_unread hfs
  -- the reset is not taken, the copy is
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  -- the output block's buffer: the accumulator, read back after its update, stored over it whole
  isplitl [HO]
  · iexists _; isplitr
    rotate_left
    · iexact HO
    · ipureintro
      rw [read_writes_whole_last arg5 _ off00]
      sl_unfold_run_names
      rw [View.readCov_unit_zero (S := S128x5120) _ off00, readAt_whole harg2 off00, readAt_whole harg3 off00,
        readAt_whole harg4 off00, readAt_whole harg6 off00]
  -- the accumulator: one update stored over it whole
  iexists _; isplitr
  rotate_left
  · iexact HS
  · ipureintro
    -- (these are the writes the copy read back)
    sl_unfold_run_names
    rw [read_writes_whole_last arg6 _ off00, readAt_whole harg2 off00, readAt_whole harg3 off00, readAt_whole harg4 off00,
      readAt_whole harg6 off00]

end Cert.Kernel.Fr

end
-- ==== Proof.KKit.lean ====
/-
  The frame's kit for the idealized kernel's program: what @main is around its one region, what the seventy
  lines after the region may touch and never write, the two branch conditions of the body in closed form over
  the 2 × 100 grid, where the output window is idle, and what the body finds in and leaves in each window.
-/
import proofs.«424461_j62062277427227_1_alg».proof.Proof.KDefs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The one line before the region allocates nothing. -/
theorem hostOps0_fresh : (hostOps0 : List (HloOp τ sig (Elt F))).Forall fun op => op.fresh = ∅ := by
  simp only [List.Forall]; repeat' constructor

/-- @main is the reshape of the labels, the region, then the five stretches of lines: it reduces to the region
    continued by those lines, at the contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The reshape before the region writes the column of labels only: each argument is still the launch's. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The body's branch conditions over the grid, and where the output window is idle -/

/-- The reset condition holds at the points ≡ 0 (mod 100): the first tile of each half. -/
theorem hcond1 : ∀ t : Fin cfg0.N, cond1 (grid0.coords t) ↔ t.val % 100 = 0 :=
  (by decide +kernel : ∀ t : Fin grid0.N, cond1 (grid0.coords t) ↔ t.val % 100 = 0)
/-- The copy condition holds at the points ≡ 99 (mod 100): the last tile of each half. -/
theorem hcond2 : ∀ t : Fin cfg0.N, cond2 (grid0.coords t) ↔ t.val % 100 = 99 :=
  (by decide +kernel : ∀ t : Fin grid0.N, cond2 (grid0.coords t) ↔ t.val % 100 = 99)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile of a half the output window is idle and its block is not written back; -/
theorem idleAt0_3 : ∀ t : Fin cfg0.N, ¬cond2 (grid0.coords t) → cfg0.idle 3 (grid0.coords t) = true := by decide +kernel
theorem noFlush0_3 : ∀ t : Fin cfg0.N, ¬cond2 (grid0.coords t) → (cfg0.win 3).flush t = false := by decide +kernel
/-- at the last tile of a half it is live. -/
theorem liveAt0_3 : ∀ t : Fin cfg0.N, cond2 (grid0.coords t) → cfg0.idle 3 (grid0.coords t) = false := by decide +kernel

/-- The class's region invariant with the scratch accumulator as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The lines after the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- A stretch after the region is one of the five. -/
theorem mem_tailOps {ops : List (HloOp τ sig (Elt F))} (h : ops ∈ (tailOps (F := F))) :
    ops = hostOps1 ∨ ops = hostOps1_1 ∨ ops = hostOps1_2 ∨ ops = hostOps1_3 ∨ ops = hostOps1_4 := by
  simpa only [tailOps, List.mem_cons, List.mem_nil_iff, or_false] using h

/-- The lines after the region touch unscoped TensorCore references only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps (F := F)), ∀ op ∈ ops, op.fresh = ∅ := by
  intro ops hops op hop
  rcases mem_tailOps hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The references no line after the region writes and the frame reads: the four arguments, the reshaped
    labels and the kernel's output. -/
abbrev keepL : List (Ref sig .tc) := [main_arg0, main_arg1, main_arg2, main_arg3, main_v0, main_v1]

/-- Each line writes only its own result, which is none of them: stretch by stretch. -/
theorem hostOps1_keeps : ∀ op ∈ (hostOps1 : List (HloOp τ sig (Elt F))), ∀ r ∈ keepL, Proc.devRef (τ := τ) .tc r ∉ op.writes := by
  intro op hop r hr
  simp only [keepL, List.mem_cons, List.mem_nil_iff, or_false] at hr
  simp only [hostOps1, List.mem_cons, List.mem_nil_iff, or_false] at hop
  rcases hop with rfl | rfl | rfl | rfl | rfl | rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_1_keeps : ∀ op ∈ (hostOps1_1 : List (HloOp τ sig (Elt F))), ∀ r ∈ keepL, Proc.devRef (τ := τ) .tc r ∉ op.writes := by
  intro op hop r hr
  simp only [keepL, List.mem_cons, List.mem_nil_iff, or_false] at hr
  simp only [hostOps1_1, List.mem_cons, List.mem_nil_iff, or_false] at hop
  rcases hop with rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_2_keeps : ∀ op ∈ (hostOps1_2 : List (HloOp τ sig (Elt F))), ∀ r ∈ keepL, Proc.devRef (τ := τ) .tc r ∉ op.writes := by
  intro op hop r hr
  simp only [keepL, List.mem_cons, List.mem_nil_iff, or_false] at hr
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_3_keeps : ∀ op ∈ (hostOps1_3 : List (HloOp τ sig (Elt F))), ∀ r ∈ keepL, Proc.devRef (τ := τ) .tc r ∉ op.writes := by
  intro op hop r hr
  simp only [keepL, List.mem_cons, List.mem_nil_iff, or_false] at hr
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_4_keeps : ∀ op ∈ (hostOps1_4 : List (HloOp τ sig (Elt F))), ∀ r ∈ keepL, Proc.devRef (τ := τ) .tc r ∉ op.writes := by
  intro op hop r hr
  simp only [keepL, List.mem_cons, List.mem_nil_iff, or_false] at hr
  simp only [hostOps1_4, List.mem_cons, List.mem_nil_iff, or_false] at hop
  rcases hop with rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

/-- So no line after the region writes any of them. -/
theorem tail_keeps : ∀ r ∈ keepL, ∀ op ∈ (tailOps (F := F)).flatten, Proc.devRef (τ := τ) .tc r ∉ op.writes := by
  intro r hr op hop
  obtain ⟨ops, hops, hop⟩ := List.mem_flatten.mp hop
  rcases mem_tailOps hops with rfl | rfl | rfl | rfl | rfl
  · exact hostOps1_keeps op hop r hr
  · exact hostOps1_1_keeps op hop r hr
  · exact hostOps1_2_keeps op hop r hr
  · exact hostOps1_3_keeps op hop r hr
  · exact hostOps1_4_keeps op hop r hr

/-- Every array of the pipeline is among them. -/
theorem arrRef_mem_keepL (w : Fin cfg0.W) : Pipeline.arrRef spec0 w ∈ keepL := by
  fin_cases w <;> decide

/-- No line after the region writes an array of the pipeline. -/
theorem sfx_keeps : ∀ ops ∈ (tailOps (F := F)), ∀ op ∈ ops,
    ∀ w, Proc.devRef .tc (Pipeline.arrRef spec0 w) ∉ op.writes := fun ops hops op hop w =>
  tail_keeps _ (arrRef_mem_keepL w) op (List.mem_flatten.mpr ⟨ops, hops, hop⟩)

/-! ## What the body finds in the input windows -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## What the body leaves in each window -/

theorem leaves0_0 (c : Dev nD) (t : Fin cfg0.N) :
    (dats m 0 c).leavesExact 0 t = owns (c : Thread nD τ) (ms0_0 t) fullShare (iblk m c 0 t) :=
  (show (dats m 0 c).leavesExact 0 t = owns (c : Thread nD τ) (ms0_0 t) fullShare ((dats m 0 c).after 0 t) from by
    unfold Dat.leavesExact; rw [liveAt0_0 t]).trans (by rw [after0_0])
theorem leaves0_1 (c : Dev nD) (t : Fin cfg0.N) :
    (dats m 0 c).leavesExact 1 t = owns (c : Thread nD τ) (ms0_1 t) fullShare (iblk m c 1 t) :=
  (show (dats m 0 c).leavesExact 1 t = owns (c : Thread nD τ) (ms0_1 t) fullShare ((dats m 0 c).after 1 t) from by
    unfold Dat.leavesExact; rw [liveAt0_1 t]).trans (by rw [after0_1])
theorem leaves0_2 (c : Dev nD) (t : Fin cfg0.N) :
    (dats m 0 c).leavesExact 2 t = owns (c : Thread nD τ) (ms0_2 t) fullShare (iblk m c 2 t) :=
  (show (dats m 0 c).leavesExact 2 t = owns (c : Thread nD τ) (ms0_2 t) fullShare ((dats m 0 c).after 2 t) from by
    unfold Dat.leavesExact; rw [liveAt0_2 t]).trans (by rw [after0_2])
theorem leaves0_3_live (c : Dev nD) (t : Fin cfg0.N) (h : cond2 (grid0.coords t)) :
    (dats m 0 c).leavesExact 3 t = owns (c : Thread nD τ) (ms0_3 t) fullShare (accAt m c t.val t.isLt) :=
  (show (dats m 0 c).leavesExact 3 t = owns (c : Thread nD τ) (ms0_3 t) fullShare ((dats m 0 c).after 3 t) from by
    unfold Dat.leavesExact; rw [liveAt0_3 t h]).trans (by rw [after0_3])
theorem leaves0_3_idle (c : Dev nD) (t : Fin cfg0.N) (h : ¬cond2 (grid0.coords t)) :
    (dats m 0 c).leavesExact 3 t = iprop(∃ d, owns (c : Thread nD τ) (ms0_3 t) fullShare ((dats m 0 c).before 3 t d)) :=
  Dat.leavesExact_idle (dats m 0 c) 3 t (idleAt0_3 t h) (noFlush0_3 t h)

/-! ## The region invariant at the ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 200 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS, Hg⟩
  isplitl [HS]
  · iexists _; iexact HS
  iexact Hg

end Cert.Kernel.Fr

end
-- ==== Proof.KFrame.lean ====
/-
  The frame of the idealized kernel's program: the run, and what its final state says.

  The body obligation at a point is one of three cases of the tile coordinate n = t mod 100: the first tile
  of a half (the accumulator, found at anything, is reset), a middle tile (it adds to what the point before
  left), the last tile (it adds, and the output block receives the accumulator). In each the scratch ends
  at the accumulation named point by point, and the output window, idle off the last tile, is handed back
  as found.
-/
import proofs.«424461_j62062277427227_1_alg».proof.Proof.KRuns
import proofs.«424461_j62062277427227_1_alg».proof.Proof.KKit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns: the invariant at the next point, and each window's buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the tile coordinate selects the case; the
    invariant hands the body the accumulator at what the point before left (at anything before the very first
    point) and takes it back at this point's accumulation; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 200 := lt_of_lt_of_eq t.isLt (show cfg0.N = 200 from N_0)
  by_cases h0 : t.val % 100 = 0
  · have hc1 : cond1 (grid0.coords t) := (hcond1 t).mpr h0
    have hc2 : ¬cond2 (grid0.coords t) := fun h => by have := (hcond2 t).mp h; omega
    rw [leaves0_3_idle m c t hc2, accAt_reset m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩⟩
      iapply (run_first c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_first c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hc1 : ¬cond1 (grid0.coords t) := fun h => h0 ((hcond1 t).mp h)
    have hz : t.val ≠ 0 := fun e => h0 (by rw [e])
    by_cases h1 : t.val % 100 = 99
    · have hc2 : cond2 (grid0.coords t) := (hcond2 t).mpr h1
      rw [leaves0_3_live m c t hc2, accAt_step m c t h0]
      rw [PhiS_castSucc m c t, PhiS_pos m c _ _ hz]
      iintro ⟨⟨HS, Hg⟩, Ho, ⟨%d0, H0⟩, ⟨%d1, H1⟩, ⟨%d2, H2⟩, ⟨%d3, H3⟩⟩
      iapply (run_last c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have hc2 : ¬cond2 (grid0.coords t) := fun h => h1 ((hcond2 t).mp h)
      rw [leaves0_3_idle m c t hc2, accAt_step m c t h0]
      rw [PhiS_castSucc m c t, PhiS_pos m c _ _ hz]
      iintro ⟨⟨HS, Hg⟩, Ho, ⟨%d0, H0⟩, ⟨%d1, H1⟩, ⟨%d2, H2⟩, ⟨%d3, H3⟩⟩
      iapply (run_mid c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; in every final state each array of the pipeline is what the
    proof data computes and every other unscoped buffer is as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- An argument that is no array of the pipeline is, after the lines that follow the region, what the launch gave:
    no line writes it, the region's exit contents have it at the region-entry contents, and the one line before
    the region writes the reshaped labels only. -/
theorem afterTail_arg (c : Dev nD) (b : Ref sig .tc) (hk : b ∈ keepL) (hb : ∀ w, Pipeline.arrRef spec0 w ≠ b)
    (hV : V m c b = m ((c : Thread nD τ).loc b)) :
    Pipeline.afterTail₀ cfgs (dats m) 0 (V0 m) tailOps c b = m ((c.tc : Thread nD τ).loc b) := by
  unfold Pipeline.afterTail₀
  rw [StableHlo.after_of_forall_not_mem _ _ (tail_keeps b hk)]
  exact (Pipeline.withArrays_of_ne _ c _ _ b hb).trans hV

/-- What such a final state says of the four argument arrays: unchanged. -/
theorem post_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine ⟨?_, ?_, ?_, ?_⟩
  · exact ((h c).1 0).trans (((dats m 0 c).arrAt_in 0 rfl _).trans ((A_eq m c 0).trans (V_main_arg0 m c)))
  · exact ((h c).2 main_arg1 (Pipeline.mem_restRefs_of main_arg1 rfl (by decide))).trans
      (afterTail_arg m c main_arg1 (by decide) (by decide) (V_main_arg1 m c))
  · exact ((h c).1 1).trans (((dats m 0 c).arrAt_in 1 rfl _).trans ((A_eq m c 1).trans (V_main_arg2 m c)))
  · exact ((h c).2 main_arg3 (Pipeline.mem_restRefs_of main_arg3 rfl (by decide))).trans
      (afterTail_arg m c main_arg3 (by decide) (by decide) (V_main_arg3 m c))

/-- And of the result: the lines after the region applied to the region's exit contents, in which the kernel's
    output array is what the proof data computes and the label and index arguments are the launch's. -/
theorem post_result (r : PUnit × MemSt nD τ sig (Elt F))
    (h : Pipeline.FramePost cfgs (dats m) 0 (Pipeline.afterTail₀ cfgs (dats m) 0 (V0 m) tailOps) r) (c : Dev nD) :
    ∃ W : Valuation τ sig (Elt F),
      r.2.mem ((c.tc : Thread nD τ).loc main_v37) = StableHlo.after (tailOps (F := F)).flatten W (Proc.devRef .tc main_v37)
      ∧ W (Proc.devRef .tc main_v1) = (dats m 0 c).arrAt 3 cfg0.N
      ∧ W (Proc.devRef .tc main_arg1) = m ((c.tc : Thread nD τ).loc main_arg1)
      ∧ W (Proc.devRef .tc main_arg3) = m ((c.tc : Thread nD τ).loc main_arg3) := by
  refine ⟨Pipeline.withArrays spec0 c (V0 m c) (fun w => (dats m 0 c).arrAt w cfg0.N), ?_, ?_, ?_, ?_⟩
  · exact (h c).2 main_v37 (Pipeline.mem_restRefs_of main_v37 rfl (by decide))
  · exact Pipeline.withArrays_arr spec0 launch0.win.arr_inj c _ _ 3
  · exact (Pipeline.withArrays_of_ne spec0 c _ _ main_arg1 (by decide)).trans (V_main_arg1 m c)
  · exact (Pipeline.withArrays_of_ne spec0 c _ _ main_arg3 (by decide)).trans (V_main_arg3 m c)

/-- THE FRAME, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => post_args m r h c) (run_main m ρ)

end Cert.Kernel.Fr

end
-- ==== Proof.KiDefs.lean ====
/-
  The accumulation the kernel carries across its grid, named.

  The grid is 2 × 100, walked row-major: point t = 100·b + n works on the b-th half (128 rows) of the
  queries and on the n-th tile (1000 rows) of the memory bank. A scratch buffer of 128 × 5120 words is
  reset at n = 0, receives at every point the tile's contribution
  (queries · tileᵀ · scale) · onehot(labels of the tile), and is copied to the output block at n = 99.
  Here: the arrays as the region finds them (after the one reshape of the labels), each window's block at
  a point, what the scratch holds after each point (`accAt`, by recursion on the point), the region
  invariant that carries it, and the pipeline's proof data.
-/
import proofs.«424461_j62062277427227_1_alg».proof.Proof.Gen.KernelIdeal.Launch
import proofs.«424461_j62062277427227_1_alg».proof.Proof.Gen.KernelIdeal.Skeleton
import proofs.«424461_j62062277427227_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the one host
    operation before it (the labels reshaped to a column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3, hostOps1_4]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scratch accumulator, a whole scoped buffer of the kernel's own. -/
abbrev scM : Memref sig .tc .vmem S128x5120 .f32 := Memref.whole cc0_scratch0

/-! ## The body's two branch conditions and the staging memrefs at a point -/

/-- The condition of the body's first `scf.if` (the reset): the tile coordinate is 0. -/
abbrev cond1 (i : grid0.Coords) : Prop := (Scalar.cmpi .ne (Scalar.extui (Scalar.cmpi .eq (BitVec.ofNat 32 (i 1).val) 0#32)) 0#32) = 1#1
/-- The condition of the body's second `scf.if` (the copy to the output block): the tile coordinate is 99. -/
abbrev cond2 (i : grid0.Coords) : Prop := k0_cond2 i = 1#1

/-- Each window's current staging memref at point `t`, as the pipeline passes it to the body, and its wholeness. -/
abbrev ms0_0 (t : Fin cfg0.N) : Memref sig .tc .vmem S128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x5120 .f32 := win0_3.stage (cfg0.slots t 3)
abbrev hs0_3 (t : Fin cfg0.N) : (ms0_3 t).IsWhole := hstage0_3 ((cfg0.slots t 3).cast nbuf0_3)

/-! ## What the accumulator holds after each point -/

/-- What the scratch accumulator holds after the body at position `n` of the row-major walk: at the first
    tile of a half (n ≡ 0 mod 100) the tile's contribution added to the zero fill, elsewhere added to
    what the point before left. -/
def accAt (c : Dev nD) : (n : ℕ) → n < cfg0.N → Vec F S128x5120 .f32
  | 0, hn => k0_pay2 (iblk m c 0 ⟨0, hn⟩) (iblk m c 1 ⟨0, hn⟩) (iblk m c 2 ⟨0, hn⟩) (k0_pay1 (F := F))
  | n + 1, hn =>
    if (n + 1) % 100 = 0 then
      k0_pay2 (iblk m c 0 ⟨n + 1, hn⟩) (iblk m c 1 ⟨n + 1, hn⟩) (iblk m c 2 ⟨n + 1, hn⟩) (k0_pay1 (F := F))
    else
      k0_pay2 (iblk m c 0 ⟨n + 1, hn⟩) (iblk m c 1 ⟨n + 1, hn⟩) (iblk m c 2 ⟨n + 1, hn⟩) (accAt c n (Nat.lt_of_succ_lt hn))

/-- At the first tile of a half the accumulator restarts from the zero fill. -/
theorem accAt_reset (c : Dev nD) (t : Fin cfg0.N) (h : t.val % 100 = 0) :
    accAt m c t.val t.isLt = k0_pay2 (iblk m c 0 t) (iblk m c 1 t) (iblk m c 2 t) (k0_pay1 (F := F)) := by
  obtain ⟨n, hn⟩ := t
  cases n with
  | zero => rfl
  | succ n => exact if_pos h

/-- At every other tile it adds to what the point before left. -/
theorem accAt_step (c : Dev nD) (t : Fin cfg0.N) (h : ¬t.val % 100 = 0) :
    accAt m c t.val t.isLt = k0_pay2 (iblk m c 0 t) (iblk m c 1 t) (iblk m c 2 t)
      (accAt m c (t.val - 1) (Nat.lt_of_le_of_lt (Nat.sub_le _ _) t.isLt)) := by
  obtain ⟨n, hn⟩ := t
  cases n with
  | zero => exact absurd (Nat.zero_mod _) h
  | succ n => exact if_neg h

/-! ## The region invariant and the proof data -/

/-- The region invariant before position `n`: before the first point the scratch holds anything; afterwards
    it holds what the point before left, and the generator register is at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the one pipeline on core `c`: the arrays as the region finds them; after the body at
    point `t` each input's staging buffer at its block and the output's at the accumulator (which the body
    copies there at the last tile of a half, the only points that write the block back); the invariant
    above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = accAt m c t.val t.isLt := by dsimp only [dats]

end Cert.KernelIdeal.Fr

end
-- ==== Proof.KiRuns.lean ====
/-
  The kernel body run once per control case, on any whole staging memrefs.

  The body has two conditionals on the tile coordinate n: a reset of the accumulator at n = 0 and a copy of
  the accumulator to the output block at n = 99. Over the grid three cases occur — first tile (reset, no
  copy), middle tile (neither), last tile (copy, no reset) — and in each the accumulator ends at the tile's
  contribution `k0_pay2` added to what it started from (the zero fill `k0_pay1` after a reset).
-/
import proofs.«424461_j62062277427227_1_alg».proof.Proof.KiDefs
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-! ## A store through the whole buffer, and a load through it

Every load and store of the body goes through the rectangle at offsets (0, 0) of the buffer's own extents. A load
through it of a whole buffer reads the buffer's contents; a store through it, the last of the writes, leaves the
stored value whatever was written or held before; and a load of what one such store left reads the stored value. -/

/-- Offsets (0, 0) as the constant function. -/
private theorem off00 : (![0, 0] : Fin 2 → ℕ) = fun _ => 0 := by
  funext a; fin_cases a <;> rfl

/-- A load through the whole-shape rectangle of a whole memref held at contents `X` reads `X`. -/
private theorem readAt_whole {S : Shape} {e : EltTy} {m : Memref sig .tc .vmem S e} (h : m.IsWhole)
    {off : Fin S.rank → ℕ} (hz : off = fun _ => 0) (inb : ∀ a, off a + S.size a ≤ S.size a) (X : Vec F S e) :
    m.view.readAt (Elt F) (Rect.unit off S.size inb).toLoadRect (h.unread X) = X := by
  rw [View.readAt_eq_ld, h.read_unread, View.ld_unit_zero hz]

/-- After writes of which the last went through the whole-shape rectangle, the buffer reads as that write's value. -/
private theorem read_writes_whole_last {S : Shape} {e : EltTy} (m : Memref sig .tc .vmem S e) (f : m.view.ty.Contents (Elt F))
    {off : Fin S.rank → ℕ} (hz : off = fun _ => 0) (inb : ∀ a, off a + S.size a ≤ S.size a) (w : Vec F S e)
    (L : List (View.Piece (Elt F) S e)) :
    m.view.read (Elt F) (m.view.writes (Elt F) f (⟨Rect.unit off S.size inb, w⟩ :: L)) = w := by
  rw [View.read_writes_eq_canon _ _ _ (fun y => ⟨_, List.mem_cons_self .., View.mem_set_unit_zero hz inb y⟩),
    View.canon_cons_unit_zero hz]

set_option maxHeartbeats 1000000 in
/-- First tile of a half: the accumulator, found at anything, is reset and ends at the tile's contribution over
    the zero fill; the output block's buffer is handed back untouched. -/
theorem run_first (c : Dev nD) (i : grid0.Coords)
    (arg2 : Memref sig .tc .vmem S128x256 .f32) (harg2 : arg2.IsWhole) (arg3 : Memref sig .tc .vmem S1000x256 .f32) (harg3 : arg3.IsWhole)
    (arg4 : Memref sig .tc .vmem S1000x1 .i32) (harg4 : arg4.IsWhole) (arg5 : Memref sig .tc .vmem S128x5120 .f32) (harg5 : arg5.IsWhole)
    (arg6 : Memref sig .tc .vmem S128x5120 .f32) (harg6 : arg6.IsWhole) (hc1 : cond1 i) (hc2 : ¬cond2 i)
    (x0 : Vec F S128x256 .f32) (x1 : Vec F S1000x256 .f32) (x2 : Vec F S1000x1 .i32) (xo : Vec F S128x5120 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (k0_pay2 x0 x1 x2 (k0_pay1 (F := F)))) -∗ K ⟨⟩))
      ⊢ wp frame (wpE (defs₀ (F := F)) Variants.none c none) E (cc0__seg_kernel i arg2 harg2 arg3 harg3 arg4 harg4 arg5 harg5 arg6 harg6) K := by
  -- the printed body is its skeleton of loads and stores over the named payloads
  simp only [cc0__seg_kernel_eq_skeleton]; unfold cc0__seg_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  -- a whole buffer's raw contents are determined by what it reads
  obtain rfl := harg2.eq_unread hf0; obtain rfl := harg3.eq_unread hf1; obtain rfl := harg4.eq_unread hf2
  -- the reset is taken, the copy is not
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists fo; isplitr; · ipureintro; exact hfo
    iexact HO
  -- the accumulator: the zero fill, then the update stored over it whole; the update read the zero fill back
  iexists _; isplitr
  rotate_left
  · iexact HS
  · ipureintro
    rw [read_writes_whole_last arg6 _ off00]
    sl_unfold_run_names
    rw [View.readCov_unit_zero (S := S128x5120) _ off00, readAt_whole harg2 off00, readAt_whole harg3 off00,
      readAt_whole harg4 off00]

set_option maxHeartbeats 1000000 in
/-- A middle tile: the accumulator, found at `xs`, ends at the tile's contribution added to `xs`; the output
    block's buffer is handed back untouched. -/
theorem run_mid (c : Dev nD) (i : grid0.Coords)
    (arg2 : Memref sig .tc .vmem S128x256 .f32) (harg2 : arg2.IsWhole) (arg3 : Memref sig .tc .vmem S1000x256 .f32) (harg3 : arg3.IsWhole)
    (arg4 : Memref sig .tc .vmem S1000x1 .i32) (harg4 : arg4.IsWhole) (arg5 : Memref sig .tc .vmem S128x5120 .f32) (harg5 : arg5.IsWhole)
    (arg6 : Memref sig .tc .vmem S128x5120 .f32) (harg6 : arg6.IsWhole) (hc1 : ¬cond1 i) (hc2 : ¬cond2 i)
    (x0 : Vec F S128x256 .f32) (x1 : Vec F S1000x256 .f32) (x2 : Vec F S1000x1 .i32) (xo : Vec F S128x5120 .f32) (xs : Vec F S128x5120 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (k0_pay2 x0 x1 x2 xs)) -∗ K ⟨⟩))
      ⊢ wp frame (wpE (defs₀ (F := F)) Variants.none c none) E (cc0__seg_kernel i arg2 harg2 arg3 harg3 arg4 harg4 arg5 harg5 arg6 harg6) K := by
  -- the printed body is its skeleton of loads and stores over the named payloads
  simp only [cc0__seg_kernel_eq_skeleton]; unfold cc0__seg_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  -- a whole buffer's raw contents are determined by what it reads
  obtain rfl := harg2.eq_unread hf0; obtain rfl := harg3.eq_unread hf1; obtain rfl := harg4.eq_unread hf2
  obtain rfl := harg6.eq_unread hfs
  -- neither the reset nor the copy is taken
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HO]
  · iexists fo; isplitr; · ipureintro; exact hfo
    iexact HO
  -- the accumulator: one update stored over it whole, computed from the four buffers as they were found
  iexists _; isplitr
  rotate_left
  · iexact HS
  · ipureintro
    rw [read_writes_whole_last arg6 _ off00, readAt_whole harg2 off00, readAt_whole harg3 off00, readAt_whole harg4 off00,
      readAt_whole harg6 off00]

set_option maxHeartbeats 1000000 in
/-- Last tile of a half: as a middle tile, and the accumulator's final contents are copied to the output
    block's buffer, found at anything. -/
theorem run_last (c : Dev nD) (i : grid0.Coords)
    (arg2 : Memref sig .tc .vmem S128x256 .f32) (harg2 : arg2.IsWhole) (arg3 : Memref sig .tc .vmem S1000x256 .f32) (harg3 : arg3.IsWhole)
    (arg4 : Memref sig .tc .vmem S1000x1 .i32) (harg4 : arg4.IsWhole) (arg5 : Memref sig .tc .vmem S128x5120 .f32) (harg5 : arg5.IsWhole)
    (arg6 : Memref sig .tc .vmem S128x5120 .f32) (harg6 : arg6.IsWhole) (hc1 : ¬cond1 i) (hc2 : cond2 i)
    (x0 : Vec F S128x256 .f32) (x1 : Vec F S1000x256 .f32) (x2 : Vec F S1000x1 .i32) (xs : Vec F S128x5120 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 x2 xs)
            ∗ owns (c : Thread nD τ) arg6 fullShare (k0_pay2 x0 x1 x2 xs)) -∗ K ⟨⟩))
      ⊢ wp frame (wpE (defs₀ (F := F)) Variants.none c none) E (cc0__seg_kernel i arg2 harg2 arg3 harg3 arg4 harg4 arg5 harg5 arg6 harg6) K := by
  -- the printed body is its skeleton of loads and stores over the named payloads
  simp only [cc0__seg_kernel_eq_skeleton]; unfold cc0__seg_kernel_skel
  unfold owns
  iintro ⟨⟨%f0, %hf0, H0⟩, ⟨%f1, %hf1, H1⟩, ⟨%f2, %hf2, H2⟩, ⟨%dO, %fo, -, HO⟩, ⟨%fs, %hfs, HS⟩, Hk⟩
  -- a whole buffer's raw contents are determined by what it reads
  obtain rfl := harg2.eq_unread hf0; obtain rfl := harg3.eq_unread hf1; obtain rfl := harg4.eq_unread hf2
  obtain rfl := harg6.eq_unread hfs
  -- the reset is not taken, the copy is
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  -- the output block's buffer: the accumulator, read back after its update, stored over it whole
  isplitl [HO]
  · iexists _; isplitr
    rotate_left
    · iexact HO
    · ipureintro
      rw [read_writes_whole_last arg5 _ off00]
      sl_unfold_run_names
      rw [View.readCov_unit_zero (S := S128x5120) _ off00, readAt_whole harg2 off00, readAt_whole harg3 off00,
        readAt_whole harg4 off00, readAt_whole harg6 off00]
  -- the accumulator: one update stored over it whole
  iexists _; isplitr
  rotate_left
  · iexact HS
  · ipureintro
    -- (these are the writes the copy read back)
    sl_unfold_run_names
    rw [read_writes_whole_last arg6 _ off00, readAt_whole harg2 off00, readAt_whole harg3 off00, readAt_whole harg4 off00,
      readAt_whole harg6 off00]

end Cert.KernelIdeal.Fr

end
-- ==== Proof.KiKit.lean ====
/-
  The frame's kit for the idealized kernel's program: what @main is around its one region, what the seventy
  lines after the region may touch and never write, the two branch conditions of the body in closed form over
  the 2 × 100 grid, where the output window is idle, and what the body finds in and leaves in each window.
-/
import proofs.«424461_j62062277427227_1_alg».proof.Proof.KiDefs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- The one line before the region allocates nothing. -/
theorem hostOps0_fresh : (hostOps0 : List (HloOp τ sig (Elt F))).Forall fun op => op.fresh = ∅ := by
  simp only [List.Forall]; repeat' constructor

/-- @main is the reshape of the labels, the region, then the five stretches of lines: it reduces to the region
    continued by those lines, at the contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The reshape before the region writes the column of labels only: each argument is still the launch's. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The body's branch conditions over the grid, and where the output window is idle -/

/-- The reset condition holds at the points ≡ 0 (mod 100): the first tile of each half. -/
theorem hcond1 : ∀ t : Fin cfg0.N, cond1 (grid0.coords t) ↔ t.val % 100 = 0 :=
  (by decide +kernel : ∀ t : Fin grid0.N, cond1 (grid0.coords t) ↔ t.val % 100 = 0)
/-- The copy condition holds at the points ≡ 99 (mod 100): the last tile of each half. -/
theorem hcond2 : ∀ t : Fin cfg0.N, cond2 (grid0.coords t) ↔ t.val % 100 = 99 :=
  (by decide +kernel : ∀ t : Fin grid0.N, cond2 (grid0.coords t) ↔ t.val % 100 = 99)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile of a half the output window is idle and its block is not written back; -/
theorem idleAt0_3 : ∀ t : Fin cfg0.N, ¬cond2 (grid0.coords t) → cfg0.idle 3 (grid0.coords t) = true := by decide +kernel
theorem noFlush0_3 : ∀ t : Fin cfg0.N, ¬cond2 (grid0.coords t) → (cfg0.win 3).flush t = false := by decide +kernel
/-- at the last tile of a half it is live. -/
theorem liveAt0_3 : ∀ t : Fin cfg0.N, cond2 (grid0.coords t) → cfg0.idle 3 (grid0.coords t) = false := by decide +kernel

/-- The class's region invariant with the scratch accumulator as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The lines after the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- A stretch after the region is one of the five. -/
theorem mem_tailOps {ops : List (HloOp τ sig (Elt F))} (h : ops ∈ (tailOps (F := F))) :
    ops = hostOps1 ∨ ops = hostOps1_1 ∨ ops = hostOps1_2 ∨ ops = hostOps1_3 ∨ ops = hostOps1_4 := by
  simpa only [tailOps, List.mem_cons, List.mem_nil_iff, or_false] using h

/-- The lines after the region touch unscoped TensorCore references only. -/
theorem sfx_sub : ∀ ops ∈ (tailOps (F := F)), ∀ op ∈ ops,
    op.bufs ⊆ Pipeline.tailRefs sig Pipeline.Prefetch.none spec0 := by
  rw [Pipeline.tailRefs_none spec0 launch0.win.arr_unscoped]
  intro ops hops op hop
  rcases mem_tailOps hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps (F := F)), ∀ op ∈ ops, op.fresh = ∅ := by
  intro ops hops op hop
  rcases mem_tailOps hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- The references no line after the region writes and the frame reads: the four arguments, the reshaped
    labels and the kernel's output. -/
abbrev keepL : List (Ref sig .tc) := [main_arg0, main_arg1, main_arg2, main_arg3, main_v0, main_v1]

/-- Each line writes only its own result, which is none of them: stretch by stretch. -/
theorem hostOps1_keeps : ∀ op ∈ (hostOps1 : List (HloOp τ sig (Elt F))), ∀ r ∈ keepL, Proc.devRef (τ := τ) .tc r ∉ op.writes := by
  intro op hop r hr
  simp only [keepL, List.mem_cons, List.mem_nil_iff, or_false] at hr
  simp only [hostOps1, List.mem_cons, List.mem_nil_iff, or_false] at hop
  rcases hop with rfl | rfl | rfl | rfl | rfl | rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_1_keeps : ∀ op ∈ (hostOps1_1 : List (HloOp τ sig (Elt F))), ∀ r ∈ keepL, Proc.devRef (τ := τ) .tc r ∉ op.writes := by
  intro op hop r hr
  simp only [keepL, List.mem_cons, List.mem_nil_iff, or_false] at hr
  simp only [hostOps1_1, List.mem_cons, List.mem_nil_iff, or_false] at hop
  rcases hop with rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_2_keeps : ∀ op ∈ (hostOps1_2 : List (HloOp τ sig (Elt F))), ∀ r ∈ keepL, Proc.devRef (τ := τ) .tc r ∉ op.writes := by
  intro op hop r hr
  simp only [keepL, List.mem_cons, List.mem_nil_iff, or_false] at hr
  simp only [hostOps1_2, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_3_keeps : ∀ op ∈ (hostOps1_3 : List (HloOp τ sig (Elt F))), ∀ r ∈ keepL, Proc.devRef (τ := τ) .tc r ∉ op.writes := by
  intro op hop r hr
  simp only [keepL, List.mem_cons, List.mem_nil_iff, or_false] at hr
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_4_keeps : ∀ op ∈ (hostOps1_4 : List (HloOp τ sig (Elt F))), ∀ r ∈ keepL, Proc.devRef (τ := τ) .tc r ∉ op.writes := by
  intro op hop r hr
  simp only [keepL, List.mem_cons, List.mem_nil_iff, or_false] at hr
  simp only [hostOps1_4, List.mem_cons, List.mem_nil_iff, or_false] at hop
  rcases hop with rfl | rfl | rfl | rfl | rfl
  all_goals rcases hr with rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

/-- So no line after the region writes any of them. -/
theorem tail_keeps : ∀ r ∈ keepL, ∀ op ∈ (tailOps (F := F)).flatten, Proc.devRef (τ := τ) .tc r ∉ op.writes := by
  intro r hr op hop
  obtain ⟨ops, hops, hop⟩ := List.mem_flatten.mp hop
  rcases mem_tailOps hops with rfl | rfl | rfl | rfl | rfl
  · exact hostOps1_keeps op hop r hr
  · exact hostOps1_1_keeps op hop r hr
  · exact hostOps1_2_keeps op hop r hr
  · exact hostOps1_3_keeps op hop r hr
  · exact hostOps1_4_keeps op hop r hr

/-- Every array of the pipeline is among them. -/
theorem arrRef_mem_keepL (w : Fin cfg0.W) : Pipeline.arrRef spec0 w ∈ keepL := by
  fin_cases w <;> decide

/-- No line after the region writes an array of the pipeline. -/
theorem sfx_keeps : ∀ ops ∈ (tailOps (F := F)), ∀ op ∈ ops,
    ∀ w, Proc.devRef .tc (Pipeline.arrRef spec0 w) ∉ op.writes := fun ops hops op hop w =>
  tail_keeps _ (arrRef_mem_keepL w) op (List.mem_flatten.mpr ⟨ops, hops, hop⟩)

/-! ## What the body finds in the input windows -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

/-! ## What the body leaves in each window -/

theorem leaves0_0 (c : Dev nD) (t : Fin cfg0.N) :
    (dats m 0 c).leavesExact 0 t = owns (c : Thread nD τ) (ms0_0 t) fullShare (iblk m c 0 t) :=
  (show (dats m 0 c).leavesExact 0 t = owns (c : Thread nD τ) (ms0_0 t) fullShare ((dats m 0 c).after 0 t) from by
    unfold Dat.leavesExact; rw [liveAt0_0 t]).trans (by rw [after0_0])
theorem leaves0_1 (c : Dev nD) (t : Fin cfg0.N) :
    (dats m 0 c).leavesExact 1 t = owns (c : Thread nD τ) (ms0_1 t) fullShare (iblk m c 1 t) :=
  (show (dats m 0 c).leavesExact 1 t = owns (c : Thread nD τ) (ms0_1 t) fullShare ((dats m 0 c).after 1 t) from by
    unfold Dat.leavesExact; rw [liveAt0_1 t]).trans (by rw [after0_1])
theorem leaves0_2 (c : Dev nD) (t : Fin cfg0.N) :
    (dats m 0 c).leavesExact 2 t = owns (c : Thread nD τ) (ms0_2 t) fullShare (iblk m c 2 t) :=
  (show (dats m 0 c).leavesExact 2 t = owns (c : Thread nD τ) (ms0_2 t) fullShare ((dats m 0 c).after 2 t) from by
    unfold Dat.leavesExact; rw [liveAt0_2 t]).trans (by rw [after0_2])
theorem leaves0_3_live (c : Dev nD) (t : Fin cfg0.N) (h : cond2 (grid0.coords t)) :
    (dats m 0 c).leavesExact 3 t = owns (c : Thread nD τ) (ms0_3 t) fullShare (accAt m c t.val t.isLt) :=
  (show (dats m 0 c).leavesExact 3 t = owns (c : Thread nD τ) (ms0_3 t) fullShare ((dats m 0 c).after 3 t) from by
    unfold Dat.leavesExact; rw [liveAt0_3 t h]).trans (by rw [after0_3])
theorem leaves0_3_idle (c : Dev nD) (t : Fin cfg0.N) (h : ¬cond2 (grid0.coords t)) :
    (dats m 0 c).leavesExact 3 t = iprop(∃ d, owns (c : Thread nD τ) (ms0_3 t) fullShare ((dats m 0 c).before 3 t d)) :=
  Dat.leavesExact_idle (dats m 0 c) 3 t (idleAt0_3 t h) (noFlush0_3 t h)

/-! ## The region invariant at the ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 200 := N_0; omega
  rw [show (dats m 0 c).Φ (Fin.last cfg0.N) = PhiS m c (Fin.last cfg0.N).val (Nat.le_of_lt_succ (Fin.last cfg0.N).isLt) from rfl,
    PhiS_pos m c _ _ ht, PhiA0_eq]
  iintro ⟨HS, Hg⟩
  isplitl [HS]
  · iexists _; iexact HS
  iexact Hg

end Cert.KernelIdeal.Fr

end
-- ==== Proof.KiFrame.lean ====
/-
  The frame of the idealized kernel's program: the run, and what its final state says.

  The body obligation at a point is one of three cases of the tile coordinate n = t mod 100: the first tile
  of a half (the accumulator, found at anything, is reset), a middle tile (it adds to what the point before
  left), the last tile (it adds, and the output block receives the accumulator). In each the scratch ends
  at the accumulation named point by point, and the output window, idle off the last tile, is handed back
  as found.
-/
import proofs.«424461_j62062277427227_1_alg».proof.Proof.KiRuns
import proofs.«424461_j62062277427227_1_alg».proof.Proof.KiKit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what the core owes, and each window's current
    staging buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns: the invariant at the next point, and each window's buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the tile coordinate selects the case; the
    invariant hands the body the accumulator at what the point before left (at anything before the very first
    point) and takes it back at this point's accumulation; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 200 := lt_of_lt_of_eq t.isLt (show cfg0.N = 200 from N_0)
  by_cases h0 : t.val % 100 = 0
  · have hc1 : cond1 (grid0.coords t) := (hcond1 t).mpr h0
    have hc2 : ¬cond2 (grid0.coords t) := fun h => by have := (hcond2 t).mp h; omega
    rw [leaves0_3_idle m c t hc2, accAt_reset m c t h0]
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩⟩
      iapply (run_first c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_first c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hc1 : ¬cond1 (grid0.coords t) := fun h => h0 ((hcond1 t).mp h)
    have hz : t.val ≠ 0 := fun e => h0 (by rw [e])
    by_cases h1 : t.val % 100 = 99
    · have hc2 : cond2 (grid0.coords t) := (hcond2 t).mpr h1
      rw [leaves0_3_live m c t hc2, accAt_step m c t h0]
      rw [PhiS_castSucc m c t, PhiS_pos m c _ _ hz]
      iintro ⟨⟨HS, Hg⟩, Ho, ⟨%d0, H0⟩, ⟨%d1, H1⟩, ⟨%d2, H2⟩, ⟨%d3, H3⟩⟩
      iapply (run_last c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have hc2 : ¬cond2 (grid0.coords t) := fun h => h1 ((hcond2 t).mp h)
      rw [leaves0_3_idle m c t hc2, accAt_step m c t h0]
      rw [PhiS_castSucc m c t, PhiS_pos m c _ _ hz]
      iintro ⟨⟨HS, Hg⟩, Ho, ⟨%d0, H0⟩, ⟨%d1, H1⟩, ⟨%d2, H2⟩, ⟨%d3, H3⟩⟩
      iapply (run_mid c (grid0.coords t) (ms0_0 t) (hs0_0 t) (ms0_1 t) (hs0_1 t) (ms0_2 t) (hs0_2 t) (ms0_3 t) (hs0_3 t) scM (Memref.isWhole_whole _) hc1 hc2 (iblk m c 0 t) (iblk m c 1 t) (iblk m c 2 t) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; in every final state each array of the pipeline is what the
    proof data computes and every other unscoped buffer is as the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- An argument that is no array of the pipeline is, after the lines that follow the region, what the launch gave:
    no line writes it, the region's exit contents have it at the region-entry contents, and the one line before
    the region writes the reshaped labels only. -/
theorem afterTail_arg (c : Dev nD) (b : Ref sig .tc) (hk : b ∈ keepL) (hb : ∀ w, Pipeline.arrRef spec0 w ≠ b)
    (hV : V m c b = m ((c : Thread nD τ).loc b)) :
    Pipeline.afterTail₀ cfgs (dats m) 0 (V0 m) tailOps c b = m ((c.tc : Thread nD τ).loc b) := by
  unfold Pipeline.afterTail₀
  rw [StableHlo.after_of_forall_not_mem _ _ (tail_keeps b hk)]
  exact (Pipeline.withArrays_of_ne _ c _ _ b hb).trans hV

/-- What such a final state says of the four argument arrays: unchanged. -/
theorem post_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine ⟨?_, ?_, ?_, ?_⟩
  · exact ((h c).1 0).trans (((dats m 0 c).arrAt_in 0 rfl _).trans ((A_eq m c 0).trans (V_main_arg0 m c)))
  · exact ((h c).2 main_arg1 (Pipeline.mem_restRefs_of main_arg1 rfl (by decide))).trans
      (afterTail_arg m c main_arg1 (by decide) (by decide) (V_main_arg1 m c))
  · exact ((h c).1 1).trans (((dats m 0 c).arrAt_in 1 rfl _).trans ((A_eq m c 1).trans (V_main_arg2 m c)))
  · exact ((h c).2 main_arg3 (Pipeline.mem_restRefs_of main_arg3 rfl (by decide))).trans
      (afterTail_arg m c main_arg3 (by decide) (by decide) (V_main_arg3 m c))

/-- And of the result: the lines after the region applied to the region's exit contents, in which the kernel's
    output array is what the proof data computes and the label and index arguments are the launch's. -/
theorem post_result (r : PUnit × MemSt nD τ sig (Elt F))
    (h : Pipeline.FramePost cfgs (dats m) 0 (Pipeline.afterTail₀ cfgs (dats m) 0 (V0 m) tailOps) r) (c : Dev nD) :
    ∃ W : Valuation τ sig (Elt F),
      r.2.mem ((c.tc : Thread nD τ).loc main_v37) = StableHlo.after (tailOps (F := F)).flatten W (Proc.devRef .tc main_v37)
      ∧ W (Proc.devRef .tc main_v1) = (dats m 0 c).arrAt 3 cfg0.N
      ∧ W (Proc.devRef .tc main_arg1) = m ((c.tc : Thread nD τ).loc main_arg1)
      ∧ W (Proc.devRef .tc main_arg3) = m ((c.tc : Thread nD τ).loc main_arg3) := by
  refine ⟨Pipeline.withArrays spec0 c (V0 m c) (fun w => (dats m 0 c).arrAt w cfg0.N), ?_, ?_, ?_, ?_⟩
  · exact (h c).2 main_v37 (Pipeline.mem_restRefs_of main_v37 rfl (by decide))
  · exact Pipeline.withArrays_arr spec0 launch0.win.arr_inj c _ _ 3
  · exact (Pipeline.withArrays_of_ne spec0 c _ _ main_arg1 (by decide)).trans (V_main_arg1 m c)
  · exact (Pipeline.withArrays_of_ne spec0 c _ _ main_arg3 (by decide)).trans (V_main_arg3 m c)

/-- THE FRAME, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => post_args m r h c) (run_main m ρ)

end Cert.KernelIdeal.Fr

end
-- ==== Proof.Spec.lean ====
/-
  The loss both programs compute, written once over the argument arrays, at the extended reals.

  Queries x : 256 × 256, memory bank f : 100000 × 256, one label word per bank row, one index word per
  query. With dot b n = ∑_d x[b,d]·f[n,d] the similarity of query b and bank row n, and κ the temperature
  scale 1/T (T the f32 word of 0.05, so κ = 268435456/13421773):

    seg b c   = ∑ over the rows n labelled c of dot b n · κ          (similarities summed by label)
    cnt c     = the number of rows labelled c
    sim b c   = seg b c / (cnt c if cnt c > 0 else 1)
    ex b c    = exp (sim b c) · [cnt c > 0]
    logp b c  = log (ex b c / (∑_{c' < C} ex b c' + ε) + ε)
    loss      = −(∑_b logp b (label of the row query b picks)) / 256

  C is the number of label columns a program sums over: the reference keeps 5000, the kernel pads to
  5120 (a multiple of 128). A column no row is labelled with has cnt = 0, hence ex = 0, so the padding
  adds nothing to a row's sum: `loss 5120 = loss 5000` once every label lies in [0, 5000).
-/
import Idealize.ShloMosaic.PureOps.Ideal
import Idealize.ShloMosaic.Lib.ValueIdx

noncomputable section

namespace Cert.Spec

open Idealize.ShloMosaic Idealize.ShloMosaic.ValueIdx

/-- The argument arrays' shapes. -/
abbrev SX : Shape := ⟨2, ![256, 256]⟩
abbrev SF : Shape := ⟨2, ![100000, 256]⟩
abbrev SL : Shape := ⟨1, ![100000]⟩
abbrev SI : Shape := ⟨1, ![256]⟩
abbrev S0 : Shape := ⟨0, ![]⟩

/-- The f32 words the programs carry, unevaluated: 0, 1, ε (the word of 1e-6) and 256. -/
def zero : EReal := Ideal.ofBits .f32 0x00000000#32
def one : EReal := Ideal.ofBits .f32 0x3F800000#32
def eps : EReal := Ideal.ofBits .f32 0x358637BD#32
def n256 : EReal := Ideal.ofBits .f32 0x43800000#32
/-- The temperature scale: the reciprocal of the f32 word of 0.05, which is 13421773 / 268435456. -/
def κ : EReal := ((268435456 / 13421773 : ℝ) : EReal)

section
variable (x : SX.Idx → EReal) (f : SF.Idx → EReal) (lab : SL.Idx → BitVec 32) (ix : SI.Idx → BitVec 32)

/-- The similarity of query `b` and bank row `n`: their inner product. -/
def dot (b : Fin 256) (n : Fin 100000) : EReal := ∑ d : Fin 256, x (ix2 b d) * f (ix2 n d)

/-- Bank row `n`'s label, read signed. -/
def labI (n : Fin 100000) : ℤ := (lab (ix1 n)).toInt

/-- The bank rows labelled `c`. -/
def rows (c : ℕ) : Finset (Fin 100000) := Finset.univ.filter fun n => labI lab n = (c : ℤ)

/-- Scaled similarities of query `b` summed over the rows labelled `c`. -/
def seg (b : Fin 256) (c : ℕ) : EReal := ∑ n ∈ rows lab c, dot x f b n * κ

/-- How many rows are labelled `c`, as a float sum of ones. -/
def cnt (c : ℕ) : EReal := ∑ n ∈ rows lab c, one

/-- Whether label `c` occurs: the float comparison `cnt c > 0`, one bit. -/
def mbit (c : ℕ) : BitVec 1 := FloatOps.cmpf (F := Ideal) (φ := .f32) .ogt (cnt lab c) zero

/-- The divisor of a label's mean: its count where it occurs, else one. -/
def den (c : ℕ) : EReal := Scalar.select (mbit lab c) (cnt lab c) one

/-- The occurrence bit as a float, 1 or 0. -/
def maskf (c : ℕ) : EReal := FloatOps.uitofp (F := Ideal) .f32 (mbit lab c)

/-- The mean scaled similarity of query `b` to the rows labelled `c`. -/
def sim (b : Fin 256) (c : ℕ) : EReal := Ideal.div (seg x f lab b c) (den lab c)

/-- Its exponential, masked to the labels that occur. -/
def ex (b : Fin 256) (c : ℕ) : EReal := Ideal.exp (sim x f lab b c) * maskf lab c

/-- A query's masked exponentials summed over the first `C` label columns. -/
def rowSum (C : ℕ) (b : Fin 256) : EReal := ∑ c : Fin C, ex x f lab b c.val

/-- The log-probability of label `c` for query `b` (both ε's are the programs' own). -/
def logp (C : ℕ) (b : Fin 256) (c : ℕ) : EReal :=
  Ideal.log (Ideal.div (ex x f lab b c) (rowSum x f lab C b + eps) + eps)

/-- Query `b`'s index word with a negative index counted from the bank's end (jnp's indexing). -/
def wrapIx (b : Fin 256) : BitVec 32 :=
  Scalar.select (IntOp.cmpi .slt (ix (ix1 b)) 0#32) (ix (ix1 b) + 100000#32) (ix (ix1 b))

/-- The bank row query `b` picks: its wrapped index read signed and clamped into the bank. -/
def pick (b : Fin 256) : Fin 100000 :=
  ⟨min (wrapIx ix b).toInt.toNat 99999, by omega⟩

/-- The label query `b` is scored against. -/
def tgt (b : Fin 256) : ℕ := (labI lab (pick ix b)).toNat

/-- The loss over `C` label columns. -/
def loss (C : ℕ) : EReal := -(Ideal.div (∑ b : Fin 256, logp x f lab C b (tgt lab ix b)) n256)

/-- Every label lies in the label range [0, 5000). -/
def LabelsInRange : Prop := ∀ n : Fin 100000, 0 ≤ labI lab n ∧ labI lab n < 5000

end

end Cert.Spec

end
-- ==== Proof.KiRegionPay.lean ====
/-
  One grid point's arithmetic, read entry by entry at the extended reals.

  The body's update of the accumulator at row r and label column cc adds, over the 1000 bank rows j of the
  tile, the inner product of query row r with bank row j, times the temperature scale, times 1 when row
  j's label word reads cc and 0 otherwise. The zero fill reads 0 everywhere.
-/
import proofs.«424461_j62062277427227_1_alg».proof.Proof.Gen.KernelIdeal.Skeleton
import proofs.«424461_j62062277427227_1_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Region

open Cert.KernelIdeal Cert.KernelIdeal.Gen
open Idealize.ShloMosaic Idealize.ShloMosaic.ValueIdx

/-- The named scale is the temperature scale of the specification. -/
theorem scale_eq :
    Named.named (F := Ideal) κ "fold_c_268435456_13421773" (φ := .f32) 0x41A00000#32 = Cert.Spec.κ :=
  IdealRules.named_const.ideal_named_scalar _ _ _ _ rfl

/-! ## The first product: queries times the transposed tile -/

theorem lhsA_0 (i : S128x1000.Idx) (q : dot_S128x256_S256x1000_S128x1000_1_0_0_1_n_n.contr.Idx) :
    (dot_S128x256_S256x1000_S128x1000_1_0_0_1_n_n.lhsIdx i q 0).val = (i 0).val := by
  unfold DotDims.lhsIdx
  rw [dif_neg (show ¬(0 : Fin S128x256.rank) ∈ dot_S128x256_S256x1000_S128x1000_1_0_0_1_n_n.lhsBatch by decide), dif_pos (show (0 : Fin S128x256.rank) ∈ dot_S128x256_S256x1000_S128x1000_1_0_0_1_n_n.lhsNonContracting by decide)]
  rfl
theorem lhsA_1 (i : S128x1000.Idx) (q : dot_S128x256_S256x1000_S128x1000_1_0_0_1_n_n.contr.Idx) :
    (dot_S128x256_S256x1000_S128x1000_1_0_0_1_n_n.lhsIdx i q 1).val = (q ⟨0, by decide⟩).val :=
  dot_S128x256_S256x1000_S128x1000_1_0_0_1_n_n.lhsIdx_val_of_single rfl i q
theorem rhsA_0 (i : S128x1000.Idx) (q : dot_S128x256_S256x1000_S128x1000_1_0_0_1_n_n.contr.Idx) :
    (dot_S128x256_S256x1000_S128x1000_1_0_0_1_n_n.rhsIdx i q 0).val = (q ⟨0, by decide⟩).val :=
  dot_S128x256_S256x1000_S128x1000_1_0_0_1_n_n.rhsIdx_val_of_single rfl i q
theorem rhsA_1 (i : S128x1000.Idx) (q : dot_S128x256_S256x1000_S128x1000_1_0_0_1_n_n.contr.Idx) :
    (dot_S128x256_S256x1000_S128x1000_1_0_0_1_n_n.rhsIdx i q 1).val = (i 1).val := by
  unfold DotDims.rhsIdx
  rw [dif_neg (show ¬(1 : Fin S256x1000.rank) ∈ dot_S128x256_S256x1000_S128x1000_1_0_0_1_n_n.rhsBatch by decide), dif_pos (show (1 : Fin S256x1000.rank) ∈ dot_S128x256_S256x1000_S128x1000_1_0_0_1_n_n.rhsNonContracting by decide)]
  rfl

/-- The first product at (r, j): the sum over the 256 features of the operands' products. -/
theorem prodA_apply (l : FVec Ideal S128x256 .f32) (rr : FVec Ideal S256x1000 .f32) (r : Fin 128) (j : Fin 1000) :
    matmul dot_S128x256_S256x1000_S128x1000_1_0_0_1_n_n none l rr (constant S128x1000 .f32 0x00000000#32) (ix2 r j)
      = ∑ k : Fin 256, l (ix2 r k) * rr (ix2 k j) := by
  simp only [matmul]
  rw [Ideal.matmul_constant_zero_apply, ← Equiv.sum_comp (ValueIdx.contrEquiv1 dot_S128x256_S256x1000_S128x1000_1_0_0_1_n_n 256 rfl rfl).symm]
  refine Finset.sum_congr rfl fun k _ => ?_
  have hk := ValueIdx.contrEquiv1_symm_val dot_S128x256_S256x1000_S128x1000_1_0_0_1_n_n 256 rfl rfl k
  have el : dot_S128x256_S256x1000_S128x1000_1_0_0_1_n_n.lhsIdx (ix2 r j) ((ValueIdx.contrEquiv1 dot_S128x256_S256x1000_S128x1000_1_0_0_1_n_n 256 rfl rfl).symm k) = ix2 r k := funext fun a => Fin.ext (by
    match a with
    | ⟨0, _⟩ => exact lhsA_0 _ _
    | ⟨1, _⟩ => exact (lhsA_1 _ _).trans hk)
  have er : dot_S128x256_S256x1000_S128x1000_1_0_0_1_n_n.rhsIdx (ix2 r j) ((ValueIdx.contrEquiv1 dot_S128x256_S256x1000_S128x1000_1_0_0_1_n_n 256 rfl rfl).symm k) = ix2 k j := funext fun a => Fin.ext (by
    match a with
    | ⟨0, _⟩ => exact (rhsA_0 _ _).trans hk
    | ⟨1, _⟩ => exact rhsA_1 _ _)
  rw [el, er]

/-! ## The second product: scaled similarities times the one-hot labels -/

theorem lhsB_0 (i : S128x5120.Idx) (q : dot_S128x1000_S1000x5120_S128x5120_1_0_0_1_n_n.contr.Idx) :
    (dot_S128x1000_S1000x5120_S128x5120_1_0_0_1_n_n.lhsIdx i q 0).val = (i 0).val := by
  unfold DotDims.lhsIdx
  rw [dif_neg (show ¬(0 : Fin S128x1000.rank) ∈ dot_S128x1000_S1000x5120_S128x5120_1_0_0_1_n_n.lhsBatch by decide), dif_pos (show (0 : Fin S128x1000.rank) ∈ dot_S128x1000_S1000x5120_S128x5120_1_0_0_1_n_n.lhsNonContracting by decide)]
  rfl
theorem lhsB_1 (i : S128x5120.Idx) (q : dot_S128x1000_S1000x5120_S128x5120_1_0_0_1_n_n.contr.Idx) :
    (dot_S128x1000_S1000x5120_S128x5120_1_0_0_1_n_n.lhsIdx i q 1).val = (q ⟨0, by decide⟩).val :=
  dot_S128x1000_S1000x5120_S128x5120_1_0_0_1_n_n.lhsIdx_val_of_single rfl i q
theorem rhsB_0 (i : S128x5120.Idx) (q : dot_S128x1000_S1000x5120_S128x5120_1_0_0_1_n_n.contr.Idx) :
    (dot_S128x1000_S1000x5120_S128x5120_1_0_0_1_n_n.rhsIdx i q 0).val = (q ⟨0, by decide⟩).val :=
  dot_S128x1000_S1000x5120_S128x5120_1_0_0_1_n_n.rhsIdx_val_of_single rfl i q
theorem rhsB_1 (i : S128x5120.Idx) (q : dot_S128x1000_S1000x5120_S128x5120_1_0_0_1_n_n.contr.Idx) :
    (dot_S128x1000_S1000x5120_S128x5120_1_0_0_1_n_n.rhsIdx i q 1).val = (i 1).val := by
  unfold DotDims.rhsIdx
  rw [dif_neg (show ¬(1 : Fin S1000x5120.rank) ∈ dot_S128x1000_S1000x5120_S128x5120_1_0_0_1_n_n.rhsBatch by decide), dif_pos (show (1 : Fin S1000x5120.rank) ∈ dot_S128x1000_S1000x5120_S128x5120_1_0_0_1_n_n.rhsNonContracting by decide)]
  rfl

/-- The second product at (r, cc): the sum over the tile's 1000 rows of the operands' products. -/
theorem prodB_apply (l : FVec Ideal S128x1000 .f32) (rr : FVec Ideal S1000x5120 .f32) (r : Fin 128) (cc : Fin 5120) :
    matmul dot_S128x1000_S1000x5120_S128x5120_1_0_0_1_n_n none l rr (constant S128x5120 .f32 0x00000000#32) (ix2 r cc)
      = ∑ j : Fin 1000, l (ix2 r j) * rr (ix2 j cc) := by
  simp only [matmul]
  rw [Ideal.matmul_constant_zero_apply, ← Equiv.sum_comp (ValueIdx.contrEquiv1 dot_S128x1000_S1000x5120_S128x5120_1_0_0_1_n_n 1000 rfl rfl).symm]
  refine Finset.sum_congr rfl fun k _ => ?_
  have hk := ValueIdx.contrEquiv1_symm_val dot_S128x1000_S1000x5120_S128x5120_1_0_0_1_n_n 1000 rfl rfl k
  have el : dot_S128x1000_S1000x5120_S128x5120_1_0_0_1_n_n.lhsIdx (ix2 r cc) ((ValueIdx.contrEquiv1 dot_S128x1000_S1000x5120_S128x5120_1_0_0_1_n_n 1000 rfl rfl).symm k) = ix2 r k := funext fun a => Fin.ext (by
    match a with
    | ⟨0, _⟩ => exact lhsB_0 _ _
    | ⟨1, _⟩ => exact (lhsB_1 _ _).trans hk)
  have er : dot_S128x1000_S1000x5120_S128x5120_1_0_0_1_n_n.rhsIdx (ix2 r cc) ((ValueIdx.contrEquiv1 dot_S128x1000_S1000x5120_S128x5120_1_0_0_1_n_n 1000 rfl rfl).symm k) = ix2 k cc := funext fun a => Fin.ext (by
    match a with
    | ⟨0, _⟩ => exact (rhsB_0 _ _).trans hk
    | ⟨1, _⟩ => exact rhsB_1 _ _)
  rw [el, er]

/-! ## The one-hot of the tile's labels -/

/-- A 32-bit word equals the word of a column number below 5120 exactly when it reads, signed, that number. -/
theorem word_eq_iff (a : BitVec 32) (n : ℕ) (hn : n < 5120) : a = BitVec.ofNat 32 n ↔ a.toInt = (n : ℤ) := by
  constructor
  · rintro rfl
    rw [BitVec.toInt_ofNat']
    first
      | omega
      | (rw [Int.bmod_def]; omega)
  · intro h
    apply BitVec.eq_of_toInt_eq
    rw [h, BitVec.toInt_ofNat']
    first
      | omega
      | (rw [Int.bmod_def]; omega)

/-- The comparison bit, widened and converted: 1 where the words agree, 0 elsewhere. -/
theorem bit_real (a b : BitVec 32) :
    ((((IntOp.cmpi .eq a b).setWidth 32).toInt : ℝ) : EReal) = if a = b then 1 else 0 := by
  by_cases h : a = b
  · subst h
    rw [if_pos rfl]
    have : IntOp.cmpi .eq a a = 1#1 := by simp [IntOp.cmpi]
    rw [this]
    norm_num
  · rw [if_neg h]
    have hb : (a == b) = false := beq_eq_false_iff_ne.mpr h
    have : IntOp.cmpi .eq a b = 0#1 := by simp [IntOp.cmpi, hb]
    rw [this]
    norm_num

/-- The one-hot operand at tile row j and label column cc: 1 when row j's label word reads cc, else 0. -/
theorem onehot_apply (x2 : IVec S1000x1 32) (j : Fin 1000) (cc : Fin 5120) :
    (sitofp (F := Ideal) .f32 (extui 32 (cmpi .eq (broadcastTo S1000x5120 (shapeCast S1000x1 x2 shapeCasts_S1000x1_S1000x1) broadcasts_S1000x1_S1000x5120) (iota .tc S1000x5120 32 [1] iota_S1000x5120_d1_w32)) natLt_1_32) : FVec Ideal S1000x5120 .f32) (ix2 j cc)
      = if (x2 (ix2 j 0)).toInt = (cc.val : ℤ) then 1 else 0 := by
  have e1 : broadcastTo S1000x5120 (shapeCast S1000x1 x2 shapeCasts_S1000x1_S1000x1) broadcasts_S1000x1_S1000x5120 (ix2 j cc) = x2 (ix2 j 0) := by
    rw [shapeCast_self]
    exact broadcastTo_apply x2 broadcasts_S1000x1_S1000x5120 (ix2 j cc) (ix2 j 0) (fun a => match a with
      | ⟨0, _⟩ => rfl
      | ⟨1, _⟩ => rfl)
  have e2 : iota .tc S1000x5120 32 [1] iota_S1000x5120_d1_w32 (ix2 j cc) = BitVec.ofNat 32 cc.val :=
    iota_single_apply .tc S1000x5120 32 1 iota_S1000x5120_d1_w32 (ix2 j cc)
  show ((((IntOp.cmpi .eq (broadcastTo S1000x5120 (shapeCast S1000x1 x2 shapeCasts_S1000x1_S1000x1) broadcasts_S1000x1_S1000x5120 (ix2 j cc)) (iota .tc S1000x5120 32 [1] iota_S1000x5120_d1_w32 (ix2 j cc))).setWidth 32).toInt : ℝ) : EReal) = _
  rw [e1, e2, bit_real]
  exact if_congr (word_eq_iff _ _ cc.isLt) rfl rfl

/-! ## The body's two stores -/

/-- The zero fill reads 0 everywhere. -/
theorem pay1_apply (r : Fin 128) (cc : Fin 5120) : (k0_pay1 (F := Ideal)) (ix2 r cc) = 0 := by
  unfold k0_pay1
  rw [shapeCast_self]
  exact Ideal.ofBits_zero_f32

/-- The update at row r and label column cc: what the accumulator held plus, over the tile's rows j, the inner
    product of query row r with bank row j, scaled, where row j's label reads cc. -/
theorem pay2_apply (x0 : Vec Ideal S128x256 .f32) (x1 : Vec Ideal S1000x256 .f32) (x2 : Vec Ideal S1000x1 .i32)
    (acc : Vec Ideal S128x5120 .f32) (r : Fin 128) (cc : Fin 5120) :
    k0_pay2 x0 x1 x2 acc (ix2 r cc)
      = acc (ix2 r cc) + ∑ j : Fin 1000, ((∑ d : Fin 256, x0 (ix2 r d) * x1 (ix2 j d)) * Cert.Spec.κ)
          * (if (x2 (ix2 j 0)).toInt = (cc.val : ℤ) then 1 else 0) := by
  unfold k0_pay2
  refine (congrFun (shapeCast_self _ shapeCasts_S128x5120_S128x5120) (ix2 r cc)).trans ?_
  refine congrArg (acc (ix2 r cc) + ·) ?_
  refine (prodB_apply _ _ r cc).trans ?_
  refine Finset.sum_congr rfl fun j _ => ?_
  refine congrArg₂ (· * ·) ?_ (onehot_apply x2 j cc)
  refine congrArg₂ (· * ·) ?_ scale_eq
  refine (prodA_apply _ _ r j).trans ?_
  refine Finset.sum_congr rfl fun d _ => ?_
  refine congrArg (x0 (ix2 r d) * ·) ?_
  exact transpose_apply [1, 0] x1 transposes_S1000x256_p1_0_S256x1000 (ix2 d j) (ix2 j d) (fun b => match b with
    | ⟨0, _⟩ => rfl
    | ⟨1, _⟩ => rfl)

end Cert.KernelIdeal.Region

end
-- ==== Proof.KiRegionSum.lean ====
/-
  The label sums of the specification, cut by bank tiles.

  For a query b and a label c, reading the bank rows in order, `part b c K` is the sum over the rows
  N < K labelled c of dot b N · κ. It starts at 0, grows tile by tile by the tile's labelled rows, and at
  K = 100000 it is the specification's `seg b c`. Only that the extended reals are a commutative additive
  monoid is used.
-/
import proofs.«424461_j62062277427227_1_alg».proof.Proof.Spec
import Mathlib.Algebra.BigOperators.Fin
import Mathlib.Algebra.BigOperators.Group.Finset.Basic

noncomputable section

namespace Cert.KernelIdeal.Region

open Cert.Spec
open Idealize.ShloMosaic Idealize.ShloMosaic.ValueIdx

variable (x : SX.Idx → EReal) (f : SF.Idx → EReal) (lab : SL.Idx → BitVec 32)

/-- Bank row N's contribution to query b's sum for label c: its scaled similarity if it is labelled c,
    else nothing (and nothing past the bank's end). -/
def term (b : Fin 256) (c : ℕ) (N : ℕ) : EReal :=
  if h : N < 100000 then (if labI lab ⟨N, h⟩ = (c : ℤ) then dot x f b ⟨N, h⟩ * κ else 0) else 0

/-- The sum of the contributions of the rows below K. -/
def part (b : Fin 256) (c : ℕ) (K : ℕ) : EReal := ∑ N ∈ Finset.range K, term x f lab b c N

theorem part_zero (b : Fin 256) (c : ℕ) : part x f lab b c 0 = 0 := Finset.sum_range_zero _

/-- One more tile of 1000 rows. -/
theorem part_add_tile (b : Fin 256) (c : ℕ) (K : ℕ) :
    part x f lab b c (K + 1000) = part x f lab b c K + ∑ j : Fin 1000, term x f lab b c (K + j.val) := by
  unfold part
  rw [Finset.sum_range_add]
  exact congrArg (_ + ·) (Finset.sum_range fun j => term x f lab b c (K + j))

/-- A row inside the bank contributes its scaled similarity times the indicator of its label. -/
theorem term_eq_mul (b : Fin 256) (c : ℕ) (N : Fin 100000) :
    term x f lab b c N.val = (dot x f b N * κ) * (if labI lab N = (c : ℤ) then 1 else 0) := by
  unfold term
  rw [dif_pos N.isLt]
  by_cases h : labI lab N = (c : ℤ)
  · rw [if_pos h, if_pos h, mul_one]
  · rw [if_neg h, if_neg h, mul_zero]

/-- Over the whole bank the sum is the specification's. -/
theorem part_full (b : Fin 256) (c : ℕ) : part x f lab b c 100000 = seg x f lab b c := by
  unfold part seg rows
  rw [Finset.sum_range, Finset.sum_filter]
  refine Finset.sum_congr rfl fun N _ => ?_
  unfold term
  rw [dif_pos N.isLt]

end Cert.KernelIdeal.Region

end
-- ==== Proof.KiRegionBlk.lean ====
/-
  The blocks the grid's points read, as entries of the argument arrays.

  Point t of the row-major walk works on query half t / 100 and bank tile t % 100: its query block is rows
  128·(t/100) … of the queries, its bank block rows 1000·(t%100) … of the bank, and its label block the same
  rows of the label column (the labels reshaped to a column by the one host operation before the region).
-/
import proofs.«424461_j62062277427227_1_alg».proof.Proof.KiDefs
import proofs.«424461_j62062277427227_1_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Each window's block index at point t: the query half for the queries and the output, the bank tile
    for the bank and the labels; the second coordinate never moves. -/
theorem idx_facts : ∀ t : Fin cfg0.N,
    win0_0.index t 0 = t.val / 100 ∧ win0_0.index t 1 = 0 ∧
    win0_1.index t 0 = t.val % 100 ∧ win0_1.index t 1 = 0 ∧
    win0_2.index t 0 = t.val % 100 ∧ win0_2.index t 1 = 0 ∧
    win0_3.index t 0 = t.val / 100 ∧ win0_3.index t 1 = 0 :=
  (by decide +kernel : ∀ t : Fin grid0.N, _)

/-- The arguments as named arrays of the specification's shapes. -/
abbrev xarr (c : Dev nD) : Cert.Spec.SX.Idx → EReal := m ((c.tc : Thread nD τ).loc main_arg0)
abbrev farr (c : Dev nD) : Cert.Spec.SF.Idx → EReal := m ((c.tc : Thread nD τ).loc main_arg2)
abbrev larr (c : Dev nD) : Cert.Spec.SL.Idx → BitVec 32 := m ((c.tc : Thread nD τ).loc main_arg3)

/-- The input blocks at a point, at their literal shapes. -/
abbrev xblk (c : Dev nD) (t : Fin cfg0.N) : Vec Ideal S128x256 .f32 := iblk m c 0 t
abbrev fblk (c : Dev nD) (t : Fin cfg0.N) : Vec Ideal S1000x256 .f32 := iblk m c 1 t
abbrev lblk (c : Dev nD) (t : Fin cfg0.N) : Vec Ideal S1000x1 .i32 := iblk m c 2 t

/-- The region finds the queries as launched. -/
theorem V_arg0 (c : Dev nD) : (V m c main_arg0 : S256x256.Idx → EReal) = xarr m c := by
  show StableHlo.after hostOps0 (fun b => m (c, b)) (Proc.devRef .tc main_arg0) = _
  after_results
  all_goals rfl

/-- The region finds the bank as launched. -/
theorem V_arg2 (c : Dev nD) : (V m c main_arg2 : S100000x256.Idx → EReal) = farr m c := by
  show StableHlo.after hostOps0 (fun b => m (c, b)) (Proc.devRef .tc main_arg2) = _
  after_results
  all_goals rfl

/-- The region finds the labels as a column: the one host operation before it reshaped them. -/
theorem V_v0 (c : Dev nD) : (V m c main_v0 : S100000x1.Idx → BitVec 32)
    = shapeCast S100000x1 (larr m c) shapeCasts_S100000_S100000x1 := by
  show StableHlo.after hostOps0 (fun b => m (c, b)) (Proc.devRef .tc main_v0) = _
  after_results
  all_goals rfl

/-- Row N of the label column is label N. -/
theorem col_apply (l : Cert.Spec.SL.Idx → BitVec 32) (N : Fin 100000) :
    shapeCast S100000x1 l shapeCasts_S100000_S100000x1 (ix2 N (0 : Fin 1)) = l (ix1 N) := by
  refine shapeCast_apply l shapeCasts_S100000_S100000x1 (ix2 N (0 : Fin 1)) (ix1 N) ?_
  rw [Shape.rowMajor_val_one, Shape.rowMajor_val_two]
  show N.val = N.val * 1 + 0
  omega

/-- The query block at point t, row r, feature d: query row 128·(t/100) + r. -/
theorem xblk_apply (c : Dev nD) (t : Fin cfg0.N) (r : Fin 128) (d : Fin 256) (b : Fin 256)
    (hb : b.val = 128 * (t.val / 100) + r.val) :
    xblk m c t (ix2 r d) = xarr m c (ix2 b d) := by
  obtain ⟨h0, h1, -⟩ := idx_facts t
  show ((cfg0.win 0).blk t).view.read (Elt Ideal) (V m c main_arg0) (ix2 r d) = _
  rw [View.read_apply]
  show V m c main_arg0 _ = _
  rw [V_arg0]
  refine congrArg (xarr m c) (funext fun a => Fin.ext ?_)
  match a with
  | ⟨0, _⟩ => show win0_0.index t 0 * 128 + 1 * r.val = b.val; rw [h0, hb]; omega
  | ⟨1, _⟩ => show win0_0.index t 1 * 256 + 1 * d.val = d.val; rw [h1]; omega

/-- The bank block at point t, row j, feature d: bank row 1000·(t%100) + j. -/
theorem fblk_apply (c : Dev nD) (t : Fin cfg0.N) (j : Fin 1000) (d : Fin 256) (N : Fin 100000)
    (hN : N.val = 1000 * (t.val % 100) + j.val) :
    fblk m c t (ix2 j d) = farr m c (ix2 N d) := by
  obtain ⟨-, -, h0, h1, -⟩ := idx_facts t
  show ((cfg0.win 1).blk t).view.read (Elt Ideal) (V m c main_arg2) (ix2 j d) = _
  rw [View.read_apply]
  show V m c main_arg2 _ = _
  rw [V_arg2]
  refine congrArg (farr m c) (funext fun a => Fin.ext ?_)
  match a with
  | ⟨0, _⟩ => show win0_1.index t 0 * 1000 + 1 * j.val = N.val; rw [h0, hN]; omega
  | ⟨1, _⟩ => show win0_1.index t 1 * 256 + 1 * d.val = d.val; rw [h1]; omega

/-- The label block at point t, row j: the label of bank row 1000·(t%100) + j. -/
theorem lblk_apply (c : Dev nD) (t : Fin cfg0.N) (j : Fin 1000) (N : Fin 100000)
    (hN : N.val = 1000 * (t.val % 100) + j.val) :
    lblk m c t (ix2 j (0 : Fin 1)) = larr m c (ix1 N) := by
  obtain ⟨-, -, -, -, h0, h1, -⟩ := idx_facts t
  show ((cfg0.win 2).blk t).view.read (Elt Ideal) (V m c main_v0) (ix2 j (0 : Fin 1)) = _
  rw [View.read_apply]
  show V m c main_v0 _ = _
  rw [V_v0, ← col_apply (larr m c) N]
  refine congrArg (shapeCast S100000x1 (larr m c) shapeCasts_S100000_S100000x1) (funext fun a => Fin.ext ?_)
  match a with
  | ⟨0, _⟩ => show win0_2.index t 0 * 1000 + 1 * j.val = N.val; rw [h0, hN]; omega
  | ⟨1, _⟩ => show win0_2.index t 1 * 1 + 1 * 0 = 0; rw [h1]

end Cert.KernelIdeal.Region

end
-- ==== Proof.KiRegion.lean ====
/-
  What the kernel's region leaves in its output array, at the extended reals: the scaled similarities
  summed by label.

  The grid is 2 × 100, walked row-major: point t works on query half t / 100 (128 queries) and bank tile
  t % 100 (1000 rows). Within a half the scratch accumulator starts from the zero fill and every point adds,
  at entry (r, cc), the scaled inner products of query row r with the tile's rows labelled cc. So after tile
  n the entry is the label sum over the bank rows below 1000·(n+1) (by induction on n), after tile 99 it is
  the specification's whole label sum, and that is what the point writes back: its 128 rows of the output
  array. The two halves' last points cover the 256 rows.
-/
import proofs.«424461_j62062277427227_1_alg».proof.Proof.KiDefs
import proofs.«424461_j62062277427227_1_alg».proof.Proof.Spec
import proofs.«424461_j62062277427227_1_alg».proof.Proof.KiRegionPay
import proofs.«424461_j62062277427227_1_alg».proof.Proof.KiRegionSum
import proofs.«424461_j62062277427227_1_alg».proof.Proof.KiRegionBlk
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Region

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## What the accumulator holds after each point -/

/-- The accumulator after a position does not depend on how the position is written. -/
theorem accAt_congr (c : Dev nD) (n1 n2 : ℕ) (h1 : n1 < cfg0.N) (h2 : n2 < cfg0.N) (e : n1 = n2) :
    accAt m c n1 h1 = accAt m c n2 h2 := by
  subst e; rfl

/-- One tile row's share of the body's update at point t is bank row 1000·(t%100) + j's contribution to the
    label sum of query row 128·(t/100) + r. -/
theorem point_term (c : Dev nD) (t : Fin cfg0.N) (r : Fin 128) (cc : Fin 5120) (b : Fin 256)
    (hb : b.val = 128 * (t.val / 100) + r.val) (j : Fin 1000) :
    ((∑ d : Fin 256, xblk m c t (ix2 r d) * fblk m c t (ix2 j d)) * Cert.Spec.κ)
        * (if (lblk m c t (ix2 j (0 : Fin 1))).toInt = (cc.val : ℤ) then 1 else 0)
      = term (xarr m c) (farr m c) (larr m c) b cc.val (1000 * (t.val % 100) + j.val) := by
  have hN : 1000 * (t.val % 100) + j.val < 100000 := by have := j.isLt; omega
  refine Eq.trans ?_ (term_eq_mul (xarr m c) (farr m c) (larr m c) b cc.val ⟨1000 * (t.val % 100) + j.val, hN⟩).symm
  rw [lblk_apply m c t j ⟨1000 * (t.val % 100) + j.val, hN⟩ rfl]
  refine congrArg₂ (· * ·) (congrArg (· * Cert.Spec.κ) ?_) rfl
  refine Finset.sum_congr rfl fun d _ => ?_
  rw [xblk_apply m c t r d b hb, fblk_apply m c t j d ⟨1000 * (t.val % 100) + j.val, hN⟩ rfl]

/-- The body's update at point t, entry (r, cc): what the accumulator held plus the tile's contributions. -/
theorem point_update (c : Dev nD) (t : Fin cfg0.N) (acc : Vec Ideal S128x5120 .f32) (r : Fin 128) (cc : Fin 5120)
    (b : Fin 256) (hb : b.val = 128 * (t.val / 100) + r.val) :
    k0_pay2 (F := Ideal) (xblk m c t) (fblk m c t) (lblk m c t) acc (ix2 r cc)
      = acc (ix2 r cc) + ∑ j : Fin 1000, term (xarr m c) (farr m c) (larr m c) b cc.val (1000 * (t.val % 100) + j.val) := by
  refine (pay2_apply (xblk m c t) (fblk m c t) (lblk m c t) acc r cc).trans ?_
  exact congrArg (acc (ix2 r cc) + ·) (Finset.sum_congr rfl fun j _ => point_term m c t r cc b hb j)

/-- After tile n of half h, entry (r, cc) of the accumulator is the label sum of query row 128·h + r over the
    bank rows below 1000·(n+1). -/
theorem acc_inv (c : Dev nD) (h : ℕ) (hh : h < 2) :
    ∀ (n : ℕ) (hn : n < 100) (hlt : 100 * h + n < cfg0.N) (r : Fin 128) (cc : Fin 5120) (b : Fin 256)
      (hb : b.val = 128 * h + r.val),
      accAt m c (100 * h + n) hlt (ix2 r cc) = part (xarr m c) (farr m c) (larr m c) b cc.val (1000 * (n + 1))
  | 0, hn, hlt, r, cc, b, hb => by
    have e := accAt_reset m c ⟨100 * h + 0, hlt⟩ (by show (100 * h + 0) % 100 = 0; omega)
    refine (congrFun e (ix2 r cc)).trans ?_
    refine (point_update m c ⟨100 * h + 0, hlt⟩ (k0_pay1 (F := Ideal)) r cc b (by show b.val = 128 * ((100 * h + 0) / 100) + r.val; omega)).trans ?_
    rw [pay1_apply]
    refine Eq.trans ?_ (part_add_tile (xarr m c) (farr m c) (larr m c) b cc.val 0).symm
    rw [part_zero]
    refine congrArg (0 + ·) (Finset.sum_congr rfl fun j _ => ?_)
    refine congrArg (term (xarr m c) (farr m c) (larr m c) b cc.val) ?_
    show 1000 * ((100 * h + 0) % 100) + j.val = 0 + j.val
    omega
  | n + 1, hn, hlt, r, cc, b, hb => by
    have hlt' : 100 * h + n < cfg0.N := Nat.lt_of_succ_lt hlt
    have ih := acc_inv c h hh n (by omega) hlt' r cc b hb
    have e := accAt_step m c ⟨100 * h + (n + 1), hlt⟩ (by show ¬(100 * h + (n + 1)) % 100 = 0; omega)
    refine (congrFun e (ix2 r cc)).trans ?_
    refine (point_update m c ⟨100 * h + (n + 1), hlt⟩ _ r cc b (by show b.val = 128 * ((100 * h + (n + 1)) / 100) + r.val; omega)).trans ?_
    refine Eq.trans ?_ ((congrArg (part (xarr m c) (farr m c) (larr m c) b cc.val)
      (show 1000 * (n + 1 + 1) = 1000 * (n + 1) + 1000 by omega)).trans
      (part_add_tile (xarr m c) (farr m c) (larr m c) b cc.val (1000 * (n + 1)))).symm
    refine congrArg₂ (· + ·) ((congrFun (accAt_congr m c _ (100 * h + n) _ hlt'
      (by show 100 * h + (n + 1) - 1 = 100 * h + n; omega)) (ix2 r cc)).trans ih) (Finset.sum_congr rfl fun j _ => ?_)
    refine congrArg (term (xarr m c) (farr m c) (larr m c) b cc.val) ?_
    show 1000 * ((100 * h + (n + 1)) % 100) + j.val = 1000 * (n + 1) + j.val
    omega

/-! ## From the flushed blocks to the output array -/

/-- The array the output ends at: at query b and label column cc the specification's label sum. -/
def segFn (c : Dev nD) : S256x5120.Idx → EReal :=
  fun i => Cert.Spec.seg (xarr m c) (farr m c) (larr m c) ⟨(i 0).val, idx2_lt0 i⟩ (i 1).val

/-- The write-back moves the whole block: its cut of a block is the block. -/
theorem cut_apply (t : Fin cfg0.N) (X : Vec Ideal S128x5120 .f32) (r : Fin 128) (cc : Fin 5120) :
    (cfg0.win 3).cut (grid0.coords t) X (ix2 r cc) = X (ix2 r cc) :=
  congrArg X (funext fun a => Fin.ext (by
    match a with
    | ⟨0, _⟩ => rfl
    | ⟨1, _⟩ => rfl))

/-- The output block at point t, row r, column cc, is row 128·(t/100) + r of the output array. -/
theorem oblk_read (t : Fin cfg0.N) (Gf : S256x5120.Idx → EReal) (r : Fin 128) (cc : Fin 5120) (b : Fin 256)
    (hb : b.val = 128 * (t.val / 100) + r.val) :
    ((cfg0.win 3).blk t).view.read (Elt Ideal) Gf (ix2 r cc) = Gf (ix2 b cc) := by
  obtain ⟨-, -, -, -, -, -, h0, h1⟩ := idx_facts t
  rw [View.read_apply]
  show Gf _ = _
  refine congrArg Gf (funext fun a => Fin.ext ?_)
  match a with
  | ⟨0, _⟩ => show win0_3.index t 0 * 128 + 1 * r.val = b.val; rw [h0, hb]; omega
  | ⟨1, _⟩ => show win0_3.index t 1 * 5120 + 1 * cc.val = cc.val; rw [h1]; omega

/-- What a flushing point writes back is its block of that array: at the last tile of half h the accumulator's
    entry (r, cc) is the whole label sum of query row 128·h + r. -/
theorem flushed_eq (c : Dev nD) (t : Fin cfg0.N) (hf : (cfg0.win 3).flush t = true) :
    (dats (F := Ideal) m 0 c).flushed 3 t = ((cfg0.win 3).blk t).view.read (Elt Ideal) (segFn m c) := by
  have h99 : t.val % 100 = 99 := (flush0_3 t).mp hf
  have hN : cfg0.N = 200 := N_0
  have htl : t.val < 200 := hN ▸ t.isLt
  show (cfg0.win 3).cut (grid0.coords t) ((dats (F := Ideal) m 0 c).after 3 t) = _
  rw [after0_3]
  funext y
  obtain ⟨r, cc, rfl⟩ : ∃ (r : Fin 128) (cc : Fin 5120), y = ix2 r cc := ⟨y 0, y 1, eq_ix2 (n0 := 128) (n1 := 5120) y⟩
  have hb : 128 * (t.val / 100) + r.val < 256 := by have := r.isLt; omega
  have hlt : 100 * (t.val / 100) + 99 < cfg0.N := lt_of_lt_of_eq (show 100 * (t.val / 100) + 99 < 200 by omega) hN.symm
  refine (cut_apply t (accAt m c t.val t.isLt) r cc).trans ?_
  refine Eq.trans ?_ (oblk_read t (segFn m c) r cc ⟨128 * (t.val / 100) + r.val, hb⟩ rfl).symm
  refine (congrFun (accAt_congr m c t.val (100 * (t.val / 100) + 99) t.isLt hlt (by omega)) (ix2 r cc)).trans ?_
  refine (acc_inv m c (t.val / 100) (by omega) 99 (by omega) hlt r cc ⟨128 * (t.val / 100) + r.val, hb⟩ rfl).trans ?_
  exact part_full (xarr m c) (farr m c) (larr m c) _ _

/-- An index of the output array lies in point t's block exactly when each coordinate lies in the block's
    range on its axis. -/
theorem mem_blk (t : Fin cfg0.N) (i : S256x5120.Idx) :
    i ∈ ((cfg0.win 3).blk t).view.set ↔ ∀ a : Fin 2, win0_3.index t a * S128x5120.size a ≤ (i a).val ∧ (i a).val < win0_3.index t a * S128x5120.size a + S128x5120.size a := by
  show i ∈ ((View.whole main_v1).slice (win0_3.rect t)).set ↔ _
  rw [View.set_slice_whole, Rect.mem_set_unit]
  exact Iff.rfl

/-- Every index of the output array lies in the block of the last point of its query half. -/
theorem out_cover (i : S256x5120.Idx) :
    ∃ t : Fin cfg0.N, (cfg0.win 3).flush t = true ∧ i ∈ ((cfg0.win 3).blk t).view.set := by
  have hN : cfg0.N = 200 := N_0
  have hi0 : (i 0).val < 256 := idx2_lt0 i
  have hi1 : (i 1).val < 5120 := idx2_lt1 i
  have hlt : 100 * ((i 0).val / 128) + 99 < cfg0.N := by rw [hN]; omega
  refine ⟨⟨100 * ((i 0).val / 128) + 99, hlt⟩, (flush0_3 _).mpr (by show (100 * ((i 0).val / 128) + 99) % 100 = 99; omega), ?_⟩
  obtain ⟨-, -, -, -, -, -, h0, h1⟩ := idx_facts ⟨100 * ((i 0).val / 128) + 99, hlt⟩
  rw [mem_blk]
  intro a
  match a with
  | ⟨0, _⟩ =>
    show win0_3.index ⟨100 * ((i 0).val / 128) + 99, hlt⟩ 0 * 128 ≤ (i 0).val ∧ (i 0).val < win0_3.index ⟨100 * ((i 0).val / 128) + 99, hlt⟩ 0 * 128 + 128
    rw [h0]
    show (100 * ((i 0).val / 128) + 99) / 100 * 128 ≤ (i 0).val ∧ (i 0).val < (100 * ((i 0).val / 128) + 99) / 100 * 128 + 128
    omega
  | ⟨1, _⟩ =>
    show win0_3.index ⟨100 * ((i 0).val / 128) + 99, hlt⟩ 1 * 5120 ≤ (i 1).val ∧ (i 1).val < win0_3.index ⟨100 * ((i 0).val / 128) + 99, hlt⟩ 1 * 5120 + 5120
    rw [h1]
    omega

/-- The output array after the region. -/
theorem out_array (c : Dev nD) : (dats (F := Ideal) m 0 c).arrAt 3 cfg0.N = segFn m c :=
  (dats (F := Ideal) m 0 c).arrAt_eq_of_cover 3 (segFn m c) (fun t hf => flushed_eq m c t hf) out_cover

/-- After the region the output array holds, at query `b` and label column `cc`, the scaled similarities of
    query `b` summed over the bank rows labelled `cc`. -/
theorem region_value (c : Dev nD) (b : Fin 256) (cc : Fin 5120) :
    (dats (F := Ideal) m 0 c).arrAt 3 cfg0.N (ix2 b cc)
      = Spec.seg (m ((c.tc : Thread nD τ).loc main_arg0)) (m ((c.tc : Thread nD τ).loc main_arg2))
          (m ((c.tc : Thread nD τ).loc main_arg3)) b cc.val := by
  rw [out_array]
  rfl

end Cert.KernelIdeal.Region

end
-- ==== Proof.LibSegment.lean ====
/-
  General lemmas: a segment sum written as a scatter-add, and two index gathers, read at one element
  (at the extended reals).

  `jax.ops.segment_sum(v, ids, num_segments = C)` lowers to a `stablehlo.scatter` with an `add` body over the
  ids as an `[N, 1]` index array: update row `n` lands on segment `ids[n]` (read signed; an id outside
  `[0, C)` is dropped). At the extended reals the result at segment `c` is the operand there plus the sum of the
  updates whose id is `c` — for a vector of updates (`scatterAdd_seg1`) and for a matrix of updates scattered by
  rows (`scatterAdd_seg2`). `x[idx]` for a vector `x : [N]` and `idx : [R]` lowers to a gather over the indices as
  `[R, 1]`: element `r` is `x` at `idx[r]` read signed and clamped into `[0, N − 1]` (`gather_take1_apply`).
  `jnp.take_along_axis(x, idx[:, None], axis = 1)` for `x : [R, C]` lowers to a gather batched over the rows with
  indices `[R, 1, 1]`: element `(r, 0)` is `x[r, ·]` at `idx[r]` read signed and clamped into `[0, C − 1]`
  (`gather_along_apply`).
-/
import Idealize.ShloMosaic.PureOps.Ideal
import Idealize.ShloMosaic.Lib.ValueIdx

noncomputable section

namespace Cert.LibSegment

open Idealize.ShloMosaic Idealize.ShloMosaic.ValueIdx

/-! ## Index sets, and when an update lands on an element -/

/-- A rank-1 index set is its one coordinate range. -/
def idxEquiv1 {n : Nat} : (⟨1, ![n]⟩ : Shape).Idx ≃ Fin n where
  toFun i := i 0
  invFun := ix1
  left_inv i := (eq_ix1 i).symm
  right_inv _ := rfl

/-- An update index lands on operand index `i` exactly when, on every operand axis, the signed start plus the
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · rw [Option.some.injEq]
    constructor
    · intro e a
      rw [← e]
      have := h a
      simp only []
      omega
    · intro e
      funext a
      refine Fin.ext ?_
      have := e a
      simp only []
      omega
  · constructor
    · intro e; cases e
    · intro e
      refine absurd (fun a => ?_) h
      have := e a
      have := (i a).isLt
      omega

/-! ## Segment sums -/

/-- The scatter dimension numbers of a segment sum of a vector: operand `[C]`, ids `[N, 1]`, updates `[N]`. -/
abbrev segDims1 (N C : Nat) (wf : ScatterDims.WF ⟨1, ![C]⟩ ⟨2, ![N, 1]⟩ ⟨1, ![N]⟩ [] [0] [0] 1) :
    ScatterDims ⟨1, ![C]⟩ ⟨2, ![N, 1]⟩ ⟨1, ![N]⟩ where
  updateWindowDims := []
  insertedWindowDims := [0]
  scatterDimsToOperandDims := [0]
  indexVectorDim := 1
  wf := wf

/-- For a vector's segment sum the start of update `n` on the one operand axis is id `n` read signed. -/
theorem seg1_start {N C w : Nat} (wf : ScatterDims.WF ⟨1, ![C]⟩ ⟨2, ![N, 1]⟩ ⟨1, ![N]⟩ [] [0] [0] 1)
    (idx : IVec ⟨2, ![N, 1]⟩ w) (n : Fin N) :
    (segDims1 N C wf).start (ix1 n) idx 0 = (idx (ix2 n (0 : Fin 1))).toInt := by
  unfold ScatterDims.start
  rw [dif_pos (show (0 : Fin 1) ∈ (segDims1 N C wf).scatterDimsToOperandDims from List.mem_singleton.mpr rfl)]
  have hsi : (segDims1 N C wf).siIdx (ix1 n) ⟨List.idxOf (0 : Fin 1) (segDims1 N C wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- A vector's segment sum has no window axis: the window coordinate on the operand's axis is zero. -/
theorem seg1_window {N C : Nat} (wf : ScatterDims.WF ⟨1, ![C]⟩ ⟨2, ![N, 1]⟩ ⟨1, ![N]⟩ [] [0] [0] 1)
    (j : (⟨1, ![N]⟩ : Shape).Idx) : (segDims1 N C wf).window j 0 = 0 := by
  unfold ScatterDims.window
  rw [dif_neg]
  show (0 : Fin 1) ∉ (List.finRange 1).filter (· ∉ [(0 : Fin 1)])
  decide

/-- A segment sum of a vector, at segment `c`: the operand there plus the updates whose id is `c`. -/
theorem scatterAdd_seg1 {N C w : Nat} (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal) (c : Fin C) :
    Ideal.hostScatterAdd (segDims1 N C wf) x idx upd (ix1 c)
      = x (ix1 c) + ∑ n ∈ Finset.univ.filter (fun n : Fin N => (idx (ix2 n (0 : Fin 1))).toInt = (c.val : ℤ)), upd (ix1 n) := by
  unfold Ideal.hostScatterAdd
  congr 1
  refine (Finset.sum_equiv idxEquiv1.symm (fun n => ?_) (fun n _ => rfl)).symm
  rw [Finset.mem_filter, Finset.mem_filter, resultIdx?_eq_some_iff]
  simp only [Finset.mem_univ, true_and]
  show _ ↔ ∀ a, (segDims1 N C wf).start (ix1 n) idx a + ((segDims1 N C wf).window (ix1 n) a : ℤ) = (((ix1 c : (⟨1, ![C]⟩ : Shape).Idx) a).val : ℤ)
  rw [Fin.forall_fin_one, seg1_start, seg1_window]
  simp

/-- The scatter dimension numbers of a segment sum of a matrix by rows: operand `[C, B]`, ids `[N, 1]`, updates `[N, B]`. -/
abbrev segDims2 (N C B : Nat) (wf : ScatterDims.WF ⟨2, ![C, B]⟩ ⟨2, ![N, 1]⟩ ⟨2, ![N, B]⟩ [1] [0] [0] 1) :
    ScatterDims ⟨2, ![C, B]⟩ ⟨2, ![N, 1]⟩ ⟨2, ![N, B]⟩ where
  updateWindowDims := [1]
  insertedWindowDims := [0]
  scatterDimsToOperandDims := [0]
  indexVectorDim := 1
  wf := wf

section Seg2
variable {N C B w : Nat} (wf : ScatterDims.WF ⟨2, ![C, B]⟩ ⟨2, ![N, 1]⟩ ⟨2, ![N, B]⟩ [1] [0] [0] 1)
  (idx : IVec ⟨2, ![N, 1]⟩ w)

/-- For a matrix's segment sum by rows the start of update `(n, b')` on the segment axis is id `n` read signed. -/
theorem seg2_start0 (n : Fin N) (b' : Fin B) :
    (segDims2 N C B wf).start (ix2 n b') idx 0 = (idx (ix2 n (0 : Fin 1))).toInt := by
  unfold ScatterDims.start
  rw [dif_pos (show (0 : Fin 2) ∈ (segDims2 N C B wf).scatterDimsToOperandDims from List.mem_singleton.mpr rfl)]
  have hsi : (segDims2 N C B wf).siIdx (ix2 n b') ⟨List.idxOf (0 : Fin 2) (segDims2 N C B wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The column axis is not a scattered axis: its start is zero. -/
theorem seg2_start1 (j : (⟨2, ![N, B]⟩ : Shape).Idx) : (segDims2 N C B wf).start j idx 1 = 0 := by
  unfold ScatterDims.start
  rw [dif_neg]
  show (1 : Fin 2) ∉ [(0 : Fin 2)]
  decide

/-- The segment axis is an inserted axis: its window coordinate is zero. -/
theorem seg2_window0 (j : (⟨2, ![N, B]⟩ : Shape).Idx) : (segDims2 N C B wf).window j 0 = 0 := by
  unfold ScatterDims.window
  rw [dif_neg]
  show (0 : Fin 2) ∉ (List.finRange 2).filter (· ∉ [(0 : Fin 2)])
  decide

/-- The column axis is the one window axis: its window coordinate is the update's column. -/
theorem seg2_window1 (n : Fin N) (b' : Fin B) : (segDims2 N C B wf).window (ix2 n b') 1 = b'.val := by
  unfold ScatterDims.window
  have h1 : (1 : Fin 2) ∈ (segDims2 N C B wf).sKept := by
    show (1 : Fin 2) ∈ (List.finRange 2).filter (· ∉ [(0 : Fin 2)])
    decide
  rw [dif_pos h1]
  rfl

/-- Update `(n, b')` lands on `(c, b)` exactly when id `n` read signed is `c` and the columns agree. -/
theorem seg2_resultIdx?_iff (n : Fin N) (b' : Fin B) (c : Fin C) (b : Fin B) :
    (segDims2 N C B wf).resultIdx? (ix2 n b') idx = some (ix2 c b)
      ↔ (idx (ix2 n (0 : Fin 1))).toInt = (c.val : ℤ) ∧ b' = b := by
  rw [resultIdx?_eq_some_iff, Fin.forall_fin_two]
  show (segDims2 N C B wf).start (ix2 n b') idx 0 + ((segDims2 N C B wf).window (ix2 n b') 0 : ℤ) = (c.val : ℤ) ∧
     (segDims2 N C B wf).start (ix2 n b') idx 1 + ((segDims2 N C B wf).window (ix2 n b') 1 : ℤ) = (b.val : ℤ) ↔ _
  rw [seg2_start0, seg2_start1, seg2_window0, seg2_window1, Fin.ext_iff]
  omega

end Seg2

/-- A segment sum of a matrix by rows, at segment `c` and column `b`: the operand there plus column `b` of the update
    rows whose id is `c`. -/
theorem scatterAdd_seg2 {N C B w : Nat} (wf : ScatterDims.WF ⟨2, ![C, B]⟩ ⟨2, ![N, 1]⟩ ⟨2, ![N, B]⟩ [1] [0] [0] 1)
    (x : (⟨2, ![C, B]⟩ : Shape).Idx → EReal) (idx : IVec ⟨2, ![N, 1]⟩ w) (upd : (⟨2, ![N, B]⟩ : Shape).Idx → EReal)
    (c : Fin C) (b : Fin B) :
    Ideal.hostScatterAdd (segDims2 N C B wf) x idx upd (ix2 c b)
      = x (ix2 c b) + ∑ n ∈ Finset.univ.filter (fun n : Fin N => (idx (ix2 n (0 : Fin 1))).toInt = (c.val : ℤ)), upd (ix2 n b) := by
  unfold Ideal.hostScatterAdd
  congr 1
  have key : ∀ j : (⟨2, ![N, B]⟩ : Shape).Idx, (segDims2 N C B wf).resultIdx? j idx = some (ix2 c b) →
      (idx (ix2 (idxEquiv2 j).1 (0 : Fin 1))).toInt = (c.val : ℤ) ∧ j = ix2 (idxEquiv2 j).1 b := by
    intro j hj
    obtain ⟨n, b', rfl⟩ : ∃ n b', j = ix2 n b' := ⟨_, _, eq_ix2 j⟩
    obtain ⟨h1, rfl⟩ := (seg2_resultIdx?_iff wf idx n b' c b).mp hj
    exact ⟨h1, rfl⟩
  refine Finset.sum_nbij' (fun j => (idxEquiv2 j).1) (fun n => ix2 n b) ?_ ?_ ?_ ?_ ?_
  · intro j hj
    rw [Finset.mem_filter] at hj ⊢
    exact ⟨Finset.mem_univ _, (key j hj.2).1⟩
  · intro n hn
    rw [Finset.mem_filter] at hn ⊢
    exact ⟨Finset.mem_univ _, (seg2_resultIdx?_iff wf idx n b c b).mpr ⟨hn.2, rfl⟩⟩
  · intro j hj
    rw [Finset.mem_filter] at hj
    exact (key j hj.2).2.symm
  · intro n _
    rfl
  · intro j hj
    rw [Finset.mem_filter] at hj
    exact congrArg upd (key j hj.2).2

/-! ## Index gathers -/

section Gather
variable {α : Type}

/-- The gather dimension numbers of `x[idx]` for `x : [N]`, `idx : [R]` given as `[R, 1]`. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- `x[idx]` at element `r`: `x` at `idx[r]` read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (takeDims1 N R wf) x idx (ix1 r) = x (ix1 ⟨min (idx (ix2 r (0 : Fin 1))).toInt.toNat (N - 1), by omega⟩) := by
  unfold Host.gather
  congr 1
  funext a
  obtain rfl : a = 0 := Subsingleton.elim _ _
  refine Fin.ext ?_
  show (takeDims1 N R wf).start (ix1 r) idx 0 + (takeDims1 N R wf).batchCoord (ix1 r) 0
    + (takeDims1 N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 r) ⟨List.idxOf (0 : Fin 1) (takeDims1 N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The gather dimension numbers of `take_along_axis(x, idx, axis = 1)` for `x : [R, C]`, `idx : [R, 1]` given as `[R, 1, 1]`. -/
abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- `take_along_axis` at row `r`: row `r` of `x` at `idx[r]` read signed and clamped into `[0, C − 1]`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r ⟨min (idx (ix3 r (0 : Fin 1) (0 : Fin 1))).toInt.toNat (C - 1), by omega⟩) := by
  unfold Host.gather
  congr 1
  have h0 : (alongDims R C wf).start (ix2 r (0 : Fin 1)) idx 0 + (alongDims R C wf).batchCoord (ix2 r (0 : Fin 1)) 0
      + (alongDims R C wf).offCoord (ix2 r (0 : Fin 1)) 0 = r.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  have h1 : (alongDims R C wf).start (ix2 r (0 : Fin 1)) idx 1 + (alongDims R C wf).batchCoord (ix2 r (0 : Fin 1)) 1
      + (alongDims R C wf).offCoord (ix2 r (0 : Fin 1)) 1 = min (idx (ix3 r (0 : Fin 1) (0 : Fin 1))).toInt.toNat (C - 1) := by
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r (0 : Fin 1)) ⟨List.idxOf (1 : Fin 2) (alongDims R C wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  funext a
  refine Fin.ext ?_
  match a with
  | ⟨0, _⟩ => exact h0
  | ⟨1, _⟩ => exact h1

end Gather

end Cert.LibSegment

end
-- ==== Proof.KiTail.lean ====
/-
  The 70 host lines after the kernel's region, as one function of the region's output array, the labels and
  the indices; and that function is the loss over 5120 label columns.
-/
import proofs.«424461_j62062277427227_1_alg».proof.Proof.KiDefs
import proofs.«424461_j62062277427227_1_alg».proof.Proof.Spec
import proofs.«424461_j62062277427227_1_alg».proof.Proof.LibSegment
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Tail

open Cert.KernelIdeal Cert.KernelIdeal.Gen Cert.KernelIdeal.Fr
open Idealize.ShloMosaic Idealize.ShloMosaic.TcCoe Idealize.ShloMosaic.ValueIdx Idealize.SL.Sem Idealize.ShloMosaic.StableHlo

/-! ## The lines after the region, stage by stage (for any float values) -/

section Stages
variable {F : FTy → Type} [FloatOps F] [Named F]

/-- The count of each label: a one for every bank row, summed by label onto 5120 zero-filled columns. -/
def cntK (lab : (⟨S100000, .i32⟩ : BufTy).Contents (Elt F)) : (⟨S5120, .f32⟩ : BufTy).Contents (Elt F) :=
  Host.scatterAdd (F := F) (φ := .f32) scatter_S5120_S100000x1_S100000_n_0_0_1
    (broadcastInDim S5120 ![] bcast_S_S5120 (constant (F := F) S_ .f32 0x00000000#32))
    (broadcastInDim S100000x1 ![0] bcast_S100000_S100000x1_0 lab)
    (broadcastInDim S100000 ![] bcast_S_S100000 (constant (F := F) S_ .f32 0x3F800000#32))

/-- Whether a label occurs: its count compared with zero. -/
def maskK (lab : (⟨S100000, .i32⟩ : BufTy).Contents (Elt F)) : (⟨S5120, .i1⟩ : BufTy).Contents (Elt F) :=
  cmpf (F := F) (φ := .f32) .ogt (cntK lab) (broadcastInDim S5120 ![] bcast_S_S5120 (constant (F := F) S_ .f32 0x00000000#32))

/-- The divisor of a label's mean: its count where the label occurs, else one. -/
def denK (lab : (⟨S100000, .i32⟩ : BufTy).Contents (Elt F)) : (⟨S5120, .f32⟩ : BufTy).Contents (Elt F) :=
  select (maskK lab) (cntK lab) (broadcastInDim S5120 ![] bcast_S_S5120 (id (constant (F := F) S_ .f32 0x3F800000#32)))

/-- The mean similarity of each query to each label's rows. -/
def simK (arr : (⟨S256x5120, .f32⟩ : BufTy).Contents (Elt F)) (lab : (⟨S100000, .i32⟩ : BufTy).Contents (Elt F)) :
    (⟨S256x5120, .f32⟩ : BufTy).Contents (Elt F) :=
  Host.divf (F := F) (φ := .f32) arr
    (broadcastInDim S256x5120 ![0, 1] bcast_S1x5120_S256x5120_0_1 (broadcastInDim S1x5120 ![1] bcast_S5120_S1x5120_1 (denK lab)))

/-- Its exponential, masked to the labels that occur. -/
def exK (arr : (⟨S256x5120, .f32⟩ : BufTy).Contents (Elt F)) (lab : (⟨S100000, .i32⟩ : BufTy).Contents (Elt F)) :
    (⟨S256x5120, .f32⟩ : BufTy).Contents (Elt F) :=
  mulf (F := F) (φ := .f32) (Host.exp (F := F) (φ := .f32) (simK arr lab))
    (broadcastInDim S256x5120 ![0, 1] bcast_S1x5120_S256x5120_0_1
      (uitofp (F := F) .f32 (broadcastInDim S1x5120 ![1] bcast_S5120_S1x5120_1 (maskK lab))))

/-- Each query's masked exponentials summed over the 5120 columns, plus ε, as a column. -/
def sumK (arr : (⟨S256x5120, .f32⟩ : BufTy).Contents (Elt F)) (lab : (⟨S100000, .i32⟩ : BufTy).Contents (Elt F)) :
    (⟨S256x1, .f32⟩ : BufTy).Contents (Elt F) :=
  addf (F := F) (φ := .f32)
    (broadcastInDim S256x1 ![0] bcast_S256_S256x1_0
      (Host.reduceAdd (F := F) (φ := .f32) (exK arr lab) (constant (F := F) S_ .f32 0x00000000#32) reducesTo_S256x5120_S256_d1 h_S_))
    (broadcastInDim S256x1 ![] bcast_S_S256x1 (constant (F := F) S_ .f32 0x358637BD#32))

/-- The log-probability of each label for each query. -/
def logpK (arr : (⟨S256x5120, .f32⟩ : BufTy).Contents (Elt F)) (lab : (⟨S100000, .i32⟩ : BufTy).Contents (Elt F)) :
    (⟨S256x5120, .f32⟩ : BufTy).Contents (Elt F) :=
  Host.log (F := F) (φ := .f32) (addf (F := F) (φ := .f32)
    (Host.divf (F := F) (φ := .f32) (exK arr lab) (broadcastInDim S256x5120 ![0, 1] bcast_S256x1_S256x5120_0_1 (sumK arr lab)))
    (broadcastInDim S256x5120 ![] bcast_S_S256x5120 (constant (F := F) S_ .f32 0x358637BD#32)))

/-- Each query's index word, a negative one counted from the bank's end. -/
def wrapK (ix : (⟨S256, .i32⟩ : BufTy).Contents (Elt F)) : (⟨S256, .i32⟩ : BufTy).Contents (Elt F) :=
  select (cmpi .slt ix (broadcastInDim S256 ![] bcast_S_S256 (constantI S_ 32 0#32)))
    (addi ix (broadcastInDim S256 ![] bcast_S_S256 (constantI S_ 32 100000#32))) ix

/-- The label of the bank row each query picks, as a column. -/
def tgtK (lab : (⟨S100000, .i32⟩ : BufTy).Contents (Elt F)) (ix : (⟨S256, .i32⟩ : BufTy).Contents (Elt F)) :
    (⟨S256x1, .i32⟩ : BufTy).Contents (Elt F) :=
  broadcastInDim S256x1 ![0] bcast_S256_S256x1_0
    (Host.gather gather_S100000_S256x1_S256_n_0_n_n_0_1_1 lab (broadcastInDim S256x1 ![0] bcast_S256_S256x1_0 (wrapK ix)))

/-- The column each query reads: its picked label, a negative one counted from the last column. -/
def colK (lab : (⟨S100000, .i32⟩ : BufTy).Contents (Elt F)) (ix : (⟨S256, .i32⟩ : BufTy).Contents (Elt F)) :
    (⟨S256x1x1, .i32⟩ : BufTy).Contents (Elt F) :=
  shapeCast _ (select (cmpi .slt (tgtK lab ix) (broadcastInDim S256x1 ![] bcast_S_S256x1 (constantI S_ 32 0#32)))
    (addi (tgtK lab ix) (broadcastInDim S256x1 ![] bcast_S_S256x1 (constantI S_ 32 5120#32))) (tgtK lab ix)) shapeCasts_S256x1_S256x1x1

/-- Whether that column lies in [0, 5119]. -/
def inK (lab : (⟨S100000, .i32⟩ : BufTy).Contents (Elt F)) (ix : (⟨S256, .i32⟩ : BufTy).Contents (Elt F)) :
    (⟨S256x1, .i1⟩ : BufTy).Contents (Elt F) :=
  Host.reduce IntOp.andi
    (andi (cmpi .sge (colK lab ix) (broadcastInDim S256x1x1 ![] bcast_S_S256x1x1 (constantI S_ 32 0#32)))
      (cmpi .sle (colK lab ix) (broadcastInDim S256x1x1 ![0, 1, 2] bcast_S1x1x1_S256x1x1_0_1_2
        (broadcastInDim S1x1x1 ![2] bcast_S1_S1x1x1_2 (constantI S1 32 5119#32)))))
    (constantI S_ 1 1#1) reducesTo_S256x1x1_S256x1_d2 h_S_

/-- Each query's log-probability at its column (a fill word where the column is out of range). -/
def pickedK (arr : (⟨S256x5120, .f32⟩ : BufTy).Contents (Elt F)) (lab : (⟨S100000, .i32⟩ : BufTy).Contents (Elt F))
    (ix : (⟨S256, .i32⟩ : BufTy).Contents (Elt F)) : (⟨S256x1, .f32⟩ : BufTy).Contents (Elt F) :=
  select (inK lab ix) (Host.gather gather_S256x5120_S256x1x1_S256x1_n_1_0_0_1_2_11 (logpK arr lab) (colK lab ix))
    (broadcastInDim S256x1 ![] bcast_S_S256x1 (constant (F := F) S_ .f32 0x7FC00000#32))

/-- The loss: minus the mean over the queries of the picked log-probabilities. -/
def lossK (arr : (⟨S256x5120, .f32⟩ : BufTy).Contents (Elt F)) (lab : (⟨S100000, .i32⟩ : BufTy).Contents (Elt F))
    (ix : (⟨S256, .i32⟩ : BufTy).Contents (Elt F)) : (⟨S_, .f32⟩ : BufTy).Contents (Elt F) :=
  Host.negf (F := F) (φ := .f32) (Host.divf (F := F) (φ := .f32)
    (Host.reduceAdd (F := F) (φ := .f32) (pickedK arr lab ix) (constant (F := F) S_ .f32 0x00000000#32) reducesTo_S256x1_S_d0_1 h_S_)
    (constant (F := F) S_ .f32 0x43800000#32))

set_option maxHeartbeats 16000000 in
/-- Run from any contents `W`, the lines leave the result at `lossK` of `W`'s output array, labels and indices. -/
theorem lossK_after (W : Valuation τ sig (Elt F)) :
    StableHlo.after (tailOps (F := F)).flatten W (Proc.devRef .tc main_v37)
      = lossK (W (Proc.devRef .tc main_v1)) (W (Proc.devRef .tc main_arg3)) (W (Proc.devRef .tc main_arg1)) := by
  simp only [tailOps, hostOps1, hostOps1_1, hostOps1_2, hostOps1_3, hostOps1_4, List.flatten_cons, List.flatten_nil,
    List.append_nil, List.cons_append, List.nil_append]
  after_results_simp
  rfl

end Stages

/-- The lines after the region composed: the result as a function of the region's output array `arr`, the labels
    and the indices. -/
def tailK (arr : (⟨S256x5120, .f32⟩ : BufTy).Contents (Elt Ideal)) (lab : (⟨S100000, .i32⟩ : BufTy).Contents (Elt Ideal))
    (ix : (⟨S256, .i32⟩ : BufTy).Contents (Elt Ideal)) : (⟨S_, .f32⟩ : BufTy).Contents (Elt Ideal) :=
  lossK (F := Ideal) arr lab ix

/-- Run from any contents `W`, the lines leave the result at `tailK` of `W`'s output array, labels and indices. -/
theorem tail_after (W : Valuation τ sig (Elt Ideal)) :
    StableHlo.after (tailOps (F := Ideal)).flatten W (Proc.devRef .tc main_v37)
      = tailK (W (Proc.devRef .tc main_v1)) (W (Proc.devRef .tc main_arg3)) (W (Proc.devRef .tc main_arg1)) :=
  lossK_after (F := Ideal) W

/-! ## Layout operations read at an index -/

section Layout
variable {α : Type}

/-- A vector of 100000 as a column, at row `n`. -/
theorem bc_bank_col (y : S100000.Idx → α) (n : Fin 100000) :
    broadcastInDim S100000x1 ![0] bcast_S100000_S100000x1_0 y (ix2 n (0 : Fin 1)) = y (ix1 n) :=
  broadcastInDim_apply _ bcast_S100000_S100000x1_0 y (ix2 n (0 : Fin 1)) (ix1 n) (fun a => match a with
    | ⟨0, _⟩ => by show n.val = if (100000 : Nat) = 1 then 0 else n.val; rw [if_neg (by decide)])

/-- A vector of 5120 as a row, at column `c`. -/
theorem bc_label_row (y : S5120.Idx → α) (z : Fin 1) (c : Fin 5120) :
    broadcastInDim S1x5120 ![1] bcast_S5120_S1x5120_1 y (ix2 z c) = y (ix1 c) :=
  broadcastInDim_apply _ bcast_S5120_S1x5120_1 y (ix2 z c) (ix1 c) (fun a => match a with
    | ⟨0, _⟩ => by show c.val = if (5120 : Nat) = 1 then 0 else c.val; rw [if_neg (by decide)])

/-- A row of 5120 repeated over 256 rows, at `(b, c)`. -/
theorem bc_label_rows (y : S1x5120.Idx → α) (b : Fin 256) (c : Fin 5120) :
    broadcastInDim S256x5120 ![0, 1] bcast_S1x5120_S256x5120_0_1 y (ix2 b c) = y (ix2 (0 : Fin 1) c) :=
  broadcastInDim_apply _ bcast_S1x5120_S256x5120_0_1 y (ix2 b c) (ix2 (0 : Fin 1) c) (fun a => match a with
    | ⟨0, _⟩ => by show 0 = if (1 : Nat) = 1 then 0 else b.val; rw [if_pos rfl]
    | ⟨1, _⟩ => by show c.val = if (5120 : Nat) = 1 then 0 else c.val; rw [if_neg (by decide)])

/-- A vector of 256 as a column, at row `b`. -/
theorem bc_query_col (y : S256.Idx → α) (b : Fin 256) :
    broadcastInDim S256x1 ![0] bcast_S256_S256x1_0 y (ix2 b (0 : Fin 1)) = y (ix1 b) :=
  broadcastInDim_apply _ bcast_S256_S256x1_0 y (ix2 b (0 : Fin 1)) (ix1 b) (fun a => match a with
    | ⟨0, _⟩ => by show b.val = if (256 : Nat) = 1 then 0 else b.val; rw [if_neg (by decide)])

/-- A column of 256 repeated over 5120 columns, at `(b, c)`. -/
theorem bc_query_cols (y : S256x1.Idx → α) (b : Fin 256) (c : Fin 5120) :
    broadcastInDim S256x5120 ![0, 1] bcast_S256x1_S256x5120_0_1 y (ix2 b c) = y (ix2 b (0 : Fin 1)) :=
  broadcastInDim_apply _ bcast_S256x1_S256x5120_0_1 y (ix2 b c) (ix2 b (0 : Fin 1)) (fun a => match a with
    | ⟨0, _⟩ => by show b.val = if (256 : Nat) = 1 then 0 else b.val; rw [if_neg (by decide)]
    | ⟨1, _⟩ => by show 0 = if (1 : Nat) = 1 then 0 else c.val; rw [if_pos rfl])

/-- A column of 256 with one more unit axis, at row `b`. -/
theorem sc_query_col (y : S256x1.Idx → α) (b : Fin 256) :
    shapeCast S256x1x1 y shapeCasts_S256x1_S256x1x1 (ix3 b (0 : Fin 1) (0 : Fin 1)) = y (ix2 b (0 : Fin 1)) :=
  shapeCast_apply y shapeCasts_S256x1_S256x1x1 (ix3 b (0 : Fin 1) (0 : Fin 1)) (ix2 b (0 : Fin 1))
    (by rewrite [Shape.rowMajor_val_two, Shape.rowMajor_val_three]
        show b.val * 1 + 0 = (b.val * 1 + 0) * 1 + 0
        omega)

end Layout

/-! ## Sums and the range test read at an index -/

/-- A row sum over the 5120 columns from the zero word: the sum of the row. -/
theorem rowsum_apply (y : S256x5120.Idx → EReal) (b : Fin 256) :
    Host.reduceAdd (F := Ideal) (φ := .f32) y (constant (F := Ideal) S_ .f32 0x00000000#32) reducesTo_S256x5120_S256_d1 h_S_ (ix1 b)
      = ∑ c : Fin 5120, y (ix2 b c) := by
  simp only [Host.reduceAdd, Ideal.hostReduceAdd_def]
  rw [Ideal.hostReduceAdd_single reducesTo_S256x5120_S256_d1 (by decide)]
  refine (congrArg (· + _) Ideal.ofBits_zero_f32).trans ((zero_add _).trans ?_)
  refine Finset.sum_congr rfl fun k _ => ?_
  exact congrArg y (funext fun a => Fin.ext (by match a with | ⟨0, _⟩ => rfl | ⟨1, _⟩ => rfl))

/-- The sum of a column of 256 from the zero word: the sum over the rows. -/
theorem colsum_apply (y : S256x1.Idx → EReal) (i : S_.Idx) :
    Host.reduceAdd (F := Ideal) (φ := .f32) y (constant (F := Ideal) S_ .f32 0x00000000#32) reducesTo_S256x1_S_d0_1 h_S_ i
      = ∑ b : Fin 256, y (ix2 b (0 : Fin 1)) := by
  simp only [Host.reduceAdd, Ideal.hostReduceAdd_def]
  rw [Ideal.hostReduceAdd_total reducesTo_S256x1_S_d0_1 (fun b => b.elim0)]
  refine (congrArg (· + _) Ideal.ofBits_zero_f32).trans ((zero_add _).trans ?_)
  rw [sum_idx2]
  refine Finset.sum_congr rfl fun b _ => ?_
  rw [Finset.univ_unique, Finset.sum_singleton]
  rfl

/-- An and-reduction over a unit axis from the true bit: the one element there. -/
theorem and_unit_apply (y : S256x1x1.Idx → BitVec 1) (b : Fin 256) :
    Host.reduce IntOp.andi y (constantI S_ 1 1#1) reducesTo_S256x1x1_S256x1_d2 h_S_ (ix2 b (0 : Fin 1))
      = IntOp.andi (y (ix3 b (0 : Fin 1) (0 : Fin 1))) 1#1 := by
  refine (Host.reduce_eq_fold_single IntOp.andi y _ reducesTo_S256x1x1_S256x1_d2 (by decide) h_S_ (ix2 b (0 : Fin 1))).trans ?_
  show (Finset.univ : Finset (Fin 1)).fold IntOp.andi 1#1 _ = _
  rw [Finset.univ_unique]
  refine Finset.fold_singleton.trans ?_
  refine congrArg (fun v => IntOp.andi v 1#1) ?_
  exact congrArg y (funext fun a => Fin.ext (by match a with | ⟨0, _⟩ => rfl | ⟨1, _⟩ => rfl | ⟨2, _⟩ => rfl))

/-! ## Signed comparisons of a word in range -/

theorem slt_zero_of_nonneg (l : BitVec 32) (h : 0 ≤ l.toInt) : IntOp.cmpi .slt l 0#32 = 0#1 := by
  have hs : l.slt 0#32 = false := by
    rw [BitVec.slt_eq_decide, BitVec.toInt_zero]; exact decide_eq_false (by omega)
  show BitVec.ofBool (l.slt 0#32) = 0#1
  rw [hs]; rfl

theorem sge_zero_of_nonneg (l : BitVec 32) (h : 0 ≤ l.toInt) : IntOp.cmpi .sge l 0#32 = 1#1 := by
  have hs : (0#32 : BitVec 32).sle l = true := by
    rw [BitVec.sle_eq_decide, BitVec.toInt_zero]; exact decide_eq_true h
  show BitVec.ofBool ((0#32 : BitVec 32).sle l) = 1#1
  rw [hs]; rfl

theorem sle_last_of_lt (l : BitVec 32) (h : l.toInt < 5000) : IntOp.cmpi .sle l 5119#32 = 1#1 := by
  have h5 : (5119#32 : BitVec 32).toInt = 5119 := by decide
  have hs : l.sle 5119#32 = true := by
    rw [BitVec.sle_eq_decide, h5]; exact decide_eq_true (by omega)
  show BitVec.ofBool (l.sle 5119#32) = 1#1
  rw [hs]; rfl

/-! ## Pointwise host operations at the extended reals, read at an index -/

section Pointwise
variable {s : Shape}

theorem hdivf_apply (a b : FVec Ideal s .f32) (i : s.Idx) :
    Host.divf (F := Ideal) (φ := .f32) a b i = Ideal.div (a i) (b i) := rfl
theorem hexp_apply (a : FVec Ideal s .f32) (i : s.Idx) : Host.exp (F := Ideal) (φ := .f32) a i = Ideal.exp (a i) := rfl
theorem hlog_apply (a : FVec Ideal s .f32) (i : s.Idx) : Host.log (F := Ideal) (φ := .f32) a i = Ideal.log (a i) := rfl
theorem hnegf_apply (a : FVec Ideal s .f32) (i : s.Idx) : Host.negf (F := Ideal) (φ := .f32) a i = -(a i) := rfl
theorem uitofp_apply (a : IVec s 1) (i : s.Idx) :
    uitofp (F := Ideal) .f32 a i = FloatOps.uitofp (F := Ideal) .f32 (a i) := rfl

/-- A scalar float word broadcast to any shape is that word's value everywhere. -/
theorem bc_word {t : Shape} (h : S_.BroadcastsInDim t ![]) (w : BitVec 32) (j : t.Idx) :
    broadcastInDim t ![] h (constant (F := Ideal) S_ .f32 w) j = Ideal.ofBits .f32 w := rfl

end Pointwise

/-! ## The stages read at an index -/

/-- The count of label `c` is the number of rows labelled `c`. -/
theorem cntK_apply (lab : Spec.SL.Idx → BitVec 32) (c : Fin 5120) : cntK (F := Ideal) lab (ix1 c) = Spec.cnt lab c.val := by
  unfold cntK
  simp only [Host.scatterAdd, Ideal.hostScatterAdd_def]
  refine (LibSegment.scatterAdd_seg1 (N := 100000) (C := 5120) scatter_S5120_S100000x1_S100000_n_0_0_1_wf _ _ _ c).trans ?_
  refine (congrArg (· + _) Ideal.ofBits_zero_f32).trans ((zero_add _).trans ?_)
  unfold Spec.cnt Spec.rows Spec.labI
  refine Finset.sum_congr (Finset.filter_congr fun n _ => ?_) (fun n _ => rfl)
  rw [bc_bank_col]

/-- The occurrence bit of label `c`. -/
theorem maskK_apply (lab : Spec.SL.Idx → BitVec 32) (c : Fin 5120) : maskK (F := Ideal) lab (ix1 c) = Spec.mbit lab c.val := by
  show FloatOps.cmpf (F := Ideal) (φ := .f32) .ogt (cntK (F := Ideal) lab (ix1 c)) (Ideal.ofBits .f32 0x00000000#32) = _
  rw [cntK_apply]; rfl

/-- The divisor of label `c`. -/
theorem denK_apply (lab : Spec.SL.Idx → BitVec 32) (c : Fin 5120) : denK (F := Ideal) lab (ix1 c) = Spec.den lab c.val := by
  show Scalar.select (maskK (F := Ideal) lab (ix1 c)) (cntK (F := Ideal) lab (ix1 c)) (Ideal.ofBits .f32 0x3F800000#32) = _
  rw [maskK_apply, cntK_apply]; rfl

section Rows
variable (x : Spec.SX.Idx → EReal) (f : Spec.SF.Idx → EReal) (lab : Spec.SL.Idx → BitVec 32) (ix : Spec.SI.Idx → BitVec 32)
  (arr : (⟨S256x5120, .f32⟩ : BufTy).Contents (Elt Ideal))
  (harr : ∀ (b : Fin 256) (cc : Fin 5120), arr (ix2 b cc) = Spec.seg x f lab b cc.val)
include harr

/-- The mean similarity of query `b` to label `c`. -/
theorem simK_apply (b : Fin 256) (c : Fin 5120) : simK (F := Ideal) arr lab (ix2 b c) = Spec.sim x f lab b c.val := by
  unfold simK
  rw [hdivf_apply, bc_label_rows, bc_label_row, denK_apply, harr]
  rfl

/-- Its masked exponential. -/
theorem exK_apply (b : Fin 256) (c : Fin 5120) : exK (F := Ideal) arr lab (ix2 b c) = Spec.ex x f lab b c.val := by
  unfold exK
  rw [mulf_apply, hexp_apply, simK_apply x f lab arr harr, bc_label_rows, uitofp_apply, bc_label_row, maskK_apply]
  rfl

/-- Query `b`'s row sum plus ε. -/
theorem sumK_apply (b : Fin 256) : sumK (F := Ideal) arr lab (ix2 b (0 : Fin 1)) = Spec.rowSum x f lab 5120 b + Spec.eps := by
  unfold sumK
  rw [addf_apply, bc_query_col, rowsum_apply, bc_word]
  unfold Spec.rowSum
  simp only [exK_apply x f lab arr harr]
  rfl

/-- The log-probability of label `c` for query `b`. -/
theorem logpK_apply (b : Fin 256) (c : Fin 5120) : logpK (F := Ideal) arr lab (ix2 b c) = Spec.logp x f lab 5120 b c.val := by
  show Ideal.log (Ideal.div (exK (F := Ideal) arr lab (ix2 b c))
    ((broadcastInDim S256x5120 ![0, 1] bcast_S256x1_S256x5120_0_1 (sumK (F := Ideal) arr lab)) (ix2 b c)) + Ideal.ofBits .f32 0x358637BD#32) = _
  rw [bc_query_cols, sumK_apply x f lab arr harr, exK_apply x f lab arr harr]; rfl

end Rows

/-- Query `b`'s wrapped index word. -/
theorem wrapK_apply (ix : Spec.SI.Idx → BitVec 32) (b : Fin 256) : wrapK (F := Ideal) ix (ix1 b) = Spec.wrapIx ix b := rfl

/-- The label of the row query `b` picks. -/
theorem tgtK_apply (lab : Spec.SL.Idx → BitVec 32) (ix : Spec.SI.Idx → BitVec 32) (b : Fin 256) :
    tgtK (F := Ideal) lab ix (ix2 b (0 : Fin 1)) = lab (ix1 (Spec.pick ix b)) := by
  unfold tgtK
  rw [bc_query_col]
  refine (LibSegment.gather_take1_apply (N := 100000) (R := 256) (by decide) gather_S100000_S256x1_S256_n_0_n_n_0_1_1_wf lab _ b).trans ?_
  refine congrArg lab (congrArg ix1 (Fin.ext ?_))
  show min ((broadcastInDim S256x1 ![0] bcast_S256_S256x1_0 (wrapK (F := Ideal) ix)) (ix2 b (0 : Fin 1))).toInt.toNat (100000 - 1)
    = min (Spec.wrapIx ix b).toInt.toNat 99999
  rw [bc_query_col]; rfl

section Picked
variable (lab : Spec.SL.Idx → BitVec 32) (ix : Spec.SI.Idx → BitVec 32) (hlab : Spec.LabelsInRange lab)
include hlab

/-- A label in range is not negative, so the column query `b` reads is its picked label. -/
theorem colK_apply (b : Fin 256) : colK (F := Ideal) lab ix (ix3 b (0 : Fin 1) (0 : Fin 1)) = lab (ix1 (Spec.pick ix b)) := by
  have h0 : 0 ≤ (lab (ix1 (Spec.pick ix b))).toInt := (hlab (Spec.pick ix b)).1
  unfold colK
  rw [sc_query_col]
  show Scalar.select (IntOp.cmpi .slt (tgtK (F := Ideal) lab ix (ix2 b (0 : Fin 1))) 0#32)
    (IntOp.addi (tgtK (F := Ideal) lab ix (ix2 b (0 : Fin 1))) 5120#32) (tgtK (F := Ideal) lab ix (ix2 b (0 : Fin 1))) = _
  rw [tgtK_apply, slt_zero_of_nonneg _ h0, select_zero]

/-- A label in range is a column in range. -/
theorem inK_apply (b : Fin 256) : inK (F := Ideal) lab ix (ix2 b (0 : Fin 1)) = 1#1 := by
  have hl : 0 ≤ (lab (ix1 (Spec.pick ix b))).toInt ∧ (lab (ix1 (Spec.pick ix b))).toInt < 5000 := hlab (Spec.pick ix b)
  unfold inK
  rw [and_unit_apply]
  show IntOp.andi (IntOp.andi (IntOp.cmpi .sge (colK (F := Ideal) lab ix (ix3 b (0 : Fin 1) (0 : Fin 1))) 0#32)
    (IntOp.cmpi .sle (colK (F := Ideal) lab ix (ix3 b (0 : Fin 1) (0 : Fin 1))) 5119#32)) 1#1 = 1#1
  rw [colK_apply lab ix hlab, sge_zero_of_nonneg _ hl.1, sle_last_of_lt _ hl.2]; rfl

end Picked

/-- Query `b`'s log-probability at its picked label. -/
theorem pickedK_apply (x : Spec.SX.Idx → EReal) (f : Spec.SF.Idx → EReal) (lab : Spec.SL.Idx → BitVec 32) (ix : Spec.SI.Idx → BitVec 32)
    (hlab : Spec.LabelsInRange lab) (arr : (⟨S256x5120, .f32⟩ : BufTy).Contents (Elt Ideal))
    (harr : ∀ (b : Fin 256) (cc : Fin 5120), arr (ix2 b cc) = Spec.seg x f lab b cc.val) (b : Fin 256) :
    pickedK (F := Ideal) arr lab ix (ix2 b (0 : Fin 1)) = Spec.logp x f lab 5120 b (Spec.tgt lab ix b) := by
  have hl : 0 ≤ (lab (ix1 (Spec.pick ix b))).toInt ∧ (lab (ix1 (Spec.pick ix b))).toInt < 5000 := hlab (Spec.pick ix b)
  show Scalar.select (inK (F := Ideal) lab ix (ix2 b (0 : Fin 1)))
    (Host.gather gather_S256x5120_S256x1x1_S256x1_n_1_0_0_1_2_11 (logpK (F := Ideal) arr lab) (colK (F := Ideal) lab ix) (ix2 b (0 : Fin 1))) _ = _
  rw [inK_apply lab ix hlab, select_one]
  refine (LibSegment.gather_along_apply (R := 256) (C := 5120) (by decide) gather_S256x5120_S256x1x1_S256x1_n_1_0_0_1_2_11_wf
    (logpK (F := Ideal) arr lab) (colK (F := Ideal) lab ix) b).trans ?_
  rw [logpK_apply x f lab arr harr]
  refine congrArg (Spec.logp x f lab 5120 b) ?_
  show min (colK (F := Ideal) lab ix (ix3 b (0 : Fin 1) (0 : Fin 1))).toInt.toNat (5120 - 1) = (lab (ix1 (Spec.pick ix b))).toInt.toNat
  rw [colK_apply lab ix hlab]
  omega

/-- With the output array at the similarities summed by label, and every label in range, the lines compute the loss
    over 5120 label columns. -/
theorem tailK_loss (x : Spec.SX.Idx → EReal) (f : Spec.SF.Idx → EReal) (lab : Spec.SL.Idx → BitVec 32) (ix : Spec.SI.Idx → BitVec 32)
    (hlab : Spec.LabelsInRange lab) (arr : (⟨S256x5120, .f32⟩ : BufTy).Contents (Elt Ideal))
    (harr : ∀ (b : Fin 256) (cc : Fin 5120), arr (ix2 b cc) = Spec.seg x f lab b cc.val) :
    tailK arr lab ix = fun _ => Spec.loss x f lab ix 5120 := by
  funext i
  unfold tailK lossK
  rw [hnegf_apply, hdivf_apply, colsum_apply, constant_apply]
  unfold Spec.loss Spec.n256
  simp only [pickedK_apply x f lab ix hlab arr harr]

end Cert.KernelIdeal.Tail

end
-- ==== Proof.RefValue.lean ====
/-
  The reference's result, read one operation at a time: the loss over 5000 label columns.

  Stage by stage, at the extended reals: the similarities divided by the temperature word are the inner products
  times the temperature scale; their sum by label and the count of each label are segment sums; the occurrence bit,
  the divisor, the mean, its masked exponential, the row sums and the log-probabilities follow the specification
  term by term; a query's target is the label of the bank row it picks; with every label inside [0, 5000) the gather
  along the label axis reads the log-probability at the target itself; the result is minus the mean over the queries.
-/
import proofs.«424461_j62062277427227_1_alg».proof.Proof.RefRead
import proofs.«424461_j62062277427227_1_alg».proof.Proof.Spec
import proofs.«424461_j62062277427227_1_alg».proof.Proof.LibSegment
import Idealize.ShloMosaic.Lib.Affine

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-! ## The temperature -/

/-- The f32 word of 0.05 denotes the rational 13421773 / 268435456. -/
theorem ofBits_temp : Ideal.ofBits .f32 0x3D4CCCCD#32 = ((13421773 / 268435456 : ℝ) : EReal) := by
  simp [Ideal.ofBits, Ideal.ieee, -EReal.coe_mul]; norm_num

/-- Dividing by that word is multiplying by the temperature scale, on every extended real. -/
theorem div_temp (v : EReal) : Ideal.div v (Ideal.ofBits .f32 0x3D4CCCCD#32) = v * Spec.κ := by
  rw [ofBits_temp, Ideal.div_coe (by norm_num)]
  unfold Spec.κ
  exact congrArg (fun r : ℝ => v * (r : EReal)) (by norm_num)

section
variable (x0 : (⟨S256x256, .f32⟩ : BufTy).Contents (Elt Ideal)) (x1 : (⟨S256, .i32⟩ : BufTy).Contents (Elt Ideal))
  (x2 : (⟨S100000x256, .f32⟩ : BufTy).Contents (Elt Ideal)) (x3 : (⟨S100000, .i32⟩ : BufTy).Contents (Elt Ideal))

/-! ## Similarities, summed by label -/

/-- The scaled similarity of bank row `n` and query `b` (the reference keeps them as [n, b]). -/
theorem sims_apply (n : Fin 100000) (b : Fin 256) :
    val_main_v4 (F := Ideal) x0 x2 (ix2 n b) = Spec.dot x0 x2 b n * Spec.κ := by
  have e4 : idx_main_v4 (ix2 n b) = ix2 b n :=
    funext fun a => Fin.ext (by match a with | ⟨0, _⟩ => rfl | ⟨1, _⟩ => rfl)
  rw [val_main_v4_apply, e4, val_main_v3_apply, val_main_v1_apply, val_main_v2_apply, val_main_cst_apply]
  simp only [Ideal.hostDivf_def, Ideal.ofBits_def]
  rw [div_temp]
  unfold Spec.dot
  refine congrArg (· * Spec.κ) (Finset.sum_congr rfl fun k _ => ?_)
  rw [val_main_v0_apply]
  have el : lidx_main_v1 (ix2 b n) k = ix2 b k :=
    funext fun a => Fin.ext (by match a with | ⟨0, _⟩ => rfl | ⟨1, _⟩ => rfl)
  have er : idx_main_v0 (ridx_main_v1 (ix2 b n) k) = ix2 n k :=
    funext fun a => Fin.ext (by match a with | ⟨0, _⟩ => rfl | ⟨1, _⟩ => rfl)
  rw [el, er]

/-- The label column read as an [N, 1] index array. -/
theorem ids6_apply (n : Fin 100000) : val_main_v6 (F := Ideal) x3 (ix2 n (0 : Fin 1)) = x3 (ix1 n) := by
  rw [val_main_v6_apply]
  exact congrArg x3 (funext fun a => Fin.ext (by match a with | ⟨0, _⟩ => rfl))

theorem ids10_apply (n : Fin 100000) : val_main_v10 (F := Ideal) x3 (ix2 n (0 : Fin 1)) = x3 (ix1 n) := by
  rw [val_main_v10_apply]
  exact congrArg x3 (funext fun a => Fin.ext (by match a with | ⟨0, _⟩ => rfl))

/-- The segment sum of the similarity rows: at label `c` and query `b`, the scaled similarities of the rows labelled `c`. -/
theorem seg_apply (c : Fin 5000) (b : Fin 256) :
    val_main_v7 (F := Ideal) x0 x2 x3 (ix2 c b) = Spec.seg x0 x2 x3 b c.val := by
  unfold val_main_v7
  simp only [Host.scatterAdd, Ideal.hostScatterAdd_def]
  refine (Cert.LibSegment.scatterAdd_seg2 (N := 100000) (C := 5000) (B := 256)
    scatter_S5000x256_S100000x1_S100000x256_1_0_0_1.wf _ _ _ c b).trans ?_
  rw [val_main_v5_apply, val_main_cst_0_apply]
  simp only [Ideal.ofBits_def, Ideal.ofBits_zero_f32, zero_add]
  unfold Spec.seg Spec.rows Spec.labI
  refine Finset.sum_congr (Finset.filter_congr fun n _ => by rw [ids6_apply]) fun n _ => ?_
  exact sims_apply x0 x2 n b

/-- The segment sum of ones: how many rows carry label `c`. -/
theorem cnt_apply (c : Fin 5000) : val_main_v11 (F := Ideal) x3 (ix1 c) = Spec.cnt x3 c.val := by
  unfold val_main_v11
  simp only [Host.scatterAdd, Ideal.hostScatterAdd_def]
  refine (Cert.LibSegment.scatterAdd_seg1 (N := 100000) (C := 5000)
    scatter_S5000_S100000x1_S100000_n_0_0_1.wf _ _ _ c).trans ?_
  rw [val_main_v9_apply, val_main_cst_2_apply]
  simp only [Ideal.ofBits_def, Ideal.ofBits_zero_f32, zero_add]
  unfold Spec.cnt Spec.rows Spec.labI
  refine Finset.sum_congr (Finset.filter_congr fun n _ => by rw [ids10_apply]) fun n _ => ?_
  rw [val_main_v8_apply, val_main_cst_1_apply]
  rfl

/-! ## The masked mean and its exponential -/

theorem mbit_apply (c : Fin 5000) : val_main_v13 (F := Ideal) x3 (ix1 c) = Spec.mbit x3 c.val := by
  rw [val_main_v13_apply, cnt_apply, val_main_v12_apply, val_main_cst_3_apply]
  rfl

theorem den_apply (c : Fin 5000) : val_main_v14 (F := Ideal) x3 (ix1 c) = Spec.den x3 c.val := by
  rw [val_main_v14_apply, mbit_apply, cnt_apply, val_main_call0_v1_apply, val_main_call0_v0_apply, val_main_cst_4_apply]
  rfl

theorem sim_apply (b : Fin 256) (c : Fin 5000) :
    val_main_v18 (F := Ideal) x0 x2 x3 (ix2 b c) = Spec.sim x0 x2 x3 b c.val := by
  have e18 : idx_main_v18 (ix2 b c) = ix2 c b :=
    funext fun a => Fin.ext (by match a with | ⟨0, _⟩ => rfl | ⟨1, _⟩ => rfl)
  have e16 : idx_main_v16 (ix2 c b) = ix2 c (0 : Fin 1) :=
    funext fun a => Fin.ext (by match a with | ⟨0, _⟩ => rfl | ⟨1, _⟩ => rfl)
  have e15 : idx_main_v15 (ix2 c (0 : Fin 1)) = ix1 c :=
    funext fun a => Fin.ext (by match a with | ⟨0, _⟩ => rfl)
  rw [val_main_v18_apply, e18, val_main_v17_apply, seg_apply, val_main_v16_apply, e16, val_main_v15_apply, e15, den_apply]
  rfl

theorem ex_apply (b : Fin 256) (c : Fin 5000) :
    val_main_v23 (F := Ideal) x0 x2 x3 (ix2 b c) = Spec.ex x0 x2 x3 b c.val := by
  have e22 : idx_main_v22 (ix2 b c) = ix2 (0 : Fin 1) c :=
    funext fun a => Fin.ext (by match a with | ⟨0, _⟩ => rfl | ⟨1, _⟩ => rfl)
  have e20 : idx_main_v20 (ix2 (0 : Fin 1) c) = ix1 c :=
    funext fun a => Fin.ext (by match a with | ⟨0, _⟩ => rfl)
  rw [val_main_v23_apply, val_main_v19_apply, sim_apply, val_main_v22_apply, e22, val_main_v21_apply, val_main_v20_apply, e20,
    mbit_apply]
  unfold Spec.ex Spec.maskf
  simp only [Ideal.mulf_def, Ideal.hostUnary_exp_def]

theorem rowSum_apply (b : Fin 256) :
    val_main_v24 (F := Ideal) x0 x2 x3 (ix1 b) = Spec.rowSum x0 x2 x3 5000 b := by
  rw [val_main_v24_apply, val_main_cst_5_apply]
  simp only [Ideal.ofBits_def, Ideal.ofBits_zero_f32, zero_add]
  unfold Spec.rowSum
  refine Finset.sum_congr rfl fun k _ => ?_
  have e24 : idx_main_v24 (ix1 b) k = ix2 b k :=
    funext fun a => Fin.ext (by match a with | ⟨0, _⟩ => rfl | ⟨1, _⟩ => rfl)
  rw [e24, ex_apply]

theorem logp_apply (b : Fin 256) (c : Fin 5000) :
    val_main_v39 (F := Ideal) x0 x2 x3 (ix2 b c) = Spec.logp x0 x2 x3 5000 b c.val := by
  have e28 : idx_main_v28 (ix2 b c) = ix2 b (0 : Fin 1) :=
    funext fun a => Fin.ext (by match a with | ⟨0, _⟩ => rfl | ⟨1, _⟩ => rfl)
  have e25 : idx_main_v25 (ix2 b (0 : Fin 1)) = ix1 b :=
    funext fun a => Fin.ext (by match a with | ⟨0, _⟩ => rfl)
  rw [val_main_v39_apply, val_main_v38_apply, val_main_v29_apply, ex_apply, val_main_v28_apply, e28, val_main_v27_apply,
    val_main_v25_apply, e25, rowSum_apply, val_main_v26_apply, val_main_cst_6_apply, val_main_v37_apply, val_main_cst_8_apply]
  unfold Spec.logp Spec.eps
  simp only [Ideal.hostUnary_log_def, Ideal.addf_def, Ideal.hostDivf_def, Ideal.ofBits_def]

end

/-! ## Integer word facts -/

/-- A word that reads as a non-negative integer is not below zero. -/
theorem cmpi_slt_zero_of_nonneg {v : BitVec 32} (h : 0 ≤ v.toInt) : IntOp.cmpi .slt v 0#32 = 0#1 :=
  eq_zero_of_ne_one fun e => absurd (IntOp.cmpi_slt.1 e) (by rw [BitVec.toInt_zero]; omega)

theorem cmpi_sge_zero_of_nonneg {v : BitVec 32} (h : 0 ≤ v.toInt) : IntOp.cmpi .sge v 0#32 = 1#1 :=
  IntOp.cmpi_sge.2 (by rw [BitVec.toInt_zero]; exact h)

theorem cmpi_sle_4999_of_lt {v : BitVec 32} (h : v.toInt < 5000) : IntOp.cmpi .sle v 4999#32 = 1#1 :=
  IntOp.cmpi_sle.2 (by
    have h4999 : (4999#32 : BitVec 32).toInt = 4999 := by decide
    rw [h4999]; omega)

/-- A fold over a one-element range is one application. -/
theorem fold_fin_one {α : Type} (op : α → α → α) [Std.Commutative op] [Std.Associative op] (init : α) (g : Fin 1 → α) :
    (Finset.univ : Finset (Fin 1)).fold op init g = op (g 0) init := by
  rw [Finset.univ_unique, Finset.fold_singleton]
  rfl

section
variable (x0 : (⟨S256x256, .f32⟩ : BufTy).Contents (Elt Ideal)) (x1 : (⟨S256, .i32⟩ : BufTy).Contents (Elt Ideal))
  (x2 : (⟨S100000x256, .f32⟩ : BufTy).Contents (Elt Ideal)) (x3 : (⟨S100000, .i32⟩ : BufTy).Contents (Elt Ideal))

/-! ## The targets: each query's picked label -/

/-- A query's index with a negative one counted from the bank's end. -/
theorem wrap_apply (b : Fin 256) : val_main_v35 (F := Ideal) x1 (ix2 b (0 : Fin 1)) = Spec.wrapIx x1 b := by
  have e35 : idx_main_v35 (ix2 b (0 : Fin 1)) = ix1 b :=
    funext fun a => Fin.ext (by match a with | ⟨0, _⟩ => rfl)
  rw [val_main_v35_apply, e35, val_main_v34_apply, val_main_v31_apply, val_main_v30_apply, val_main_c_apply,
    val_main_v33_apply, val_main_v32_apply, val_main_c_7_apply]
  rfl

/-- The label of the bank row a query picks. -/
theorem target_apply (b : Fin 256) : val_main_v36 (F := Ideal) x1 x3 (ix1 b) = x3 (ix1 (Spec.pick x1 b)) := by
  unfold val_main_v36
  refine (Cert.LibSegment.gather_take1_apply (N := 100000) (R := 256) (by norm_num)
    gather_S100000_S256x1_S256_n_0_n_n_0_1_1.wf x3 _ b).trans ?_
  refine congrArg (fun k : Fin 100000 => x3 (ix1 k)) (Fin.ext ?_)
  show min (val_main_v35 (F := Ideal) x1 (ix2 b (0 : Fin 1))).toInt.toNat (100000 - 1) = min (Spec.wrapIx x1 b).toInt.toNat 99999
  rw [wrap_apply]

theorem target_col_apply (b : Fin 256) :
    val_main_v40 (F := Ideal) x1 x3 (ix2 b (0 : Fin 1)) = x3 (ix1 (Spec.pick x1 b)) := by
  have e40 : idx_main_v40 (ix2 b (0 : Fin 1)) = ix1 b :=
    funext fun a => Fin.ext (by match a with | ⟨0, _⟩ => rfl)
  rw [val_main_v40_apply, e40, target_apply]

/-! ## Each query's entry at its target -/

/-- A label in range needs no wrap: the column index is the label itself. -/
theorem along_idx_apply (hlab : Spec.LabelsInRange x3) (b : Fin 256) :
    val_main_call1_v5 (F := Ideal) x1 x3 (ix3 b (0 : Fin 1) (0 : Fin 1)) = x3 (ix1 (Spec.pick x1 b)) := by
  have e5 : idx_main_call1_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  rw [val_main_call1_v5_apply, e5, val_main_call1_v4_apply, val_main_call1_v1_apply, target_col_apply,
    val_main_call1_v0_apply, val_main_call1_c_apply, cmpi_slt_zero_of_nonneg (hlab (Spec.pick x1 b)).1, select_zero]

/-- A label in range passes the range test. -/
theorem along_inrange_apply (hlab : Spec.LabelsInRange x3) (b : Fin 256) :
    val_main_call1_v12 (F := Ideal) x1 x3 (ix2 b (0 : Fin 1)) = 1#1 := by
  have hR : S256x1x1.Reduces [2] S256x1 := by decide
  have hl : hR.lift (ix2 b (0 : Fin 1)) (0 : Fin 1) = ix3 b (0 : Fin 1) (0 : Fin 1) :=
    funext fun a => Fin.ext (by match a with | ⟨0, _⟩ => rfl | ⟨1, _⟩ => rfl | ⟨2, _⟩ => rfl)
  unfold val_main_call1_v12
  refine (Host.reduce_eq_fold_single IntOp.andi _ _ reducesTo_S256x1x1_S256x1_d2 hR h_S_ (ix2 b (0 : Fin 1))).trans ?_
  refine (fold_fin_one IntOp.andi _ _).trans ?_
  show IntOp.andi (val_main_call1_v11 (F := Ideal) x1 x3 (hR.lift (ix2 b (0 : Fin 1)) (0 : Fin 1))) (1#1) = 1#1
  have e9 : ∀ j : S256x1x1.Idx, val_main_call1_v9 (F := Ideal) j = 4999#32 := fun j => by
    rw [val_main_call1_v9_apply, val_main_call1_v8_apply, val_main_call1_c_1_apply]
  rw [hl, val_main_call1_v11_apply, val_main_call1_v7_apply, val_main_call1_v10_apply, along_idx_apply x1 x3 hlab b,
    val_main_call1_v6_apply, val_main_call1_c_2_apply, e9, cmpi_sge_zero_of_nonneg (hlab (Spec.pick x1 b)).1,
    cmpi_sle_4999_of_lt (hlab (Spec.pick x1 b)).2]
  decide

/-- The target's column is inside the 5000 label columns. -/
theorem tgt_lt (hlab : Spec.LabelsInRange x3) (b : Fin 256) : Spec.tgt x3 x1 b < 5000 := by
  have h := hlab (Spec.pick x1 b)
  unfold Spec.tgt
  omega

/-- The entry gathered for query `b`: its log-probability at its target. -/
theorem picked_apply (hlab : Spec.LabelsInRange x3) (b : Fin 256) :
    val_main_v41 (F := Ideal) x0 x1 x2 x3 (ix2 b (0 : Fin 1)) = Spec.logp x0 x2 x3 5000 b (Spec.tgt x3 x1 b) := by
  rw [val_main_v41_apply, along_inrange_apply x1 x3 hlab b, select_one]
  unfold val_main_call1_v13
  refine (Cert.LibSegment.gather_along_apply (R := 256) (C := 5000) (by norm_num)
    gather_S256x5000_S256x1x1_S256x1_n_1_0_0_1_2_11.wf _ _ b).trans ?_
  refine (congrArg (fun k : Fin 5000 => val_main_v39 (F := Ideal) x0 x2 x3 (ix2 b k))
    (Fin.ext ?_ : _ = (⟨Spec.tgt x3 x1 b, tgt_lt x1 x3 hlab b⟩ : Fin 5000))).trans
    (logp_apply x0 x2 x3 b ⟨Spec.tgt x3 x1 b, tgt_lt x1 x3 hlab b⟩)
  show min (val_main_call1_v5 (F := Ideal) x1 x3 (ix3 b (0 : Fin 1) (0 : Fin 1))).toInt.toNat (5000 - 1) = Spec.tgt x3 x1 b
  rw [along_idx_apply x1 x3 hlab b]
  have h := hlab (Spec.pick x1 b)
  unfold Spec.tgt
  unfold Spec.labI at h ⊢
  omega

end

/-! ## The loss -/

/-- With every label in range, the reference computes the loss over 5000 label columns. -/
theorem ref_loss (m : (ℓ : Loc nD τ sig) → Buf (Elt Ideal) ℓ) (c : Dev nD)
    (hlab : Spec.LabelsInRange (m ((c.tc : Thread nD τ).loc main_arg3))) :
    Cert.ReferenceIdeal.Value.res_main_v44 (F := Ideal) m c
      = fun _ => Spec.loss (m ((c.tc : Thread nD τ).loc main_arg0)) (m ((c.tc : Thread nD τ).loc main_arg2))
          (m ((c.tc : Thread nD τ).loc main_arg3)) (m ((c.tc : Thread nD τ).loc main_arg1)) 5000 := by
  rw [val_main_v44_eq]
  funext i
  rw [val_main_v44_apply, val_main_v43_apply, val_main_v42_apply, val_main_cst_9_apply, val_main_cst_10_apply]
  simp only [Ideal.hostNegf_def, Ideal.negf_def, Ideal.hostDivf_def, Ideal.ofBits_def, Ideal.ofBits_zero_f32, zero_add]
  rw [sum_idx2]
  unfold Spec.loss
  refine congrArg (fun s => -(Ideal.div s Spec.n256)) (Finset.sum_congr rfl fun b _ => ?_)
  rw [Fin.sum_univ_one]
  exact picked_apply _ _ _ _ hlab b

end Cert.ReferenceIdeal.RefValue

end
-- ==== Proof.Bridge.lean ====
/-
  Padding the label columns from 5000 to 5120 does not change the loss when every label lies in [0, 5000):
  a column no bank row is labelled with has count 0, so its masked exponential is 0.
-/
import proofs.«424461_j62062277427227_1_alg».proof.Proof.Spec
import Idealize.ShloMosaic.PureOps.Ideal.Laws
import Mathlib.Data.Fintype.BigOperators
import Mathlib.Algebra.BigOperators.Group.Finset.Basic

noncomputable section

namespace Cert.Spec

open Idealize.ShloMosaic Idealize.ShloMosaic.ValueIdx

section
variable (x : SX.Idx → EReal) (f : SF.Idx → EReal) (lab : SL.Idx → BitVec 32)

/-- With every label below 5000, no bank row is labelled with a column from 5000 on. -/
theorem rows_eq_empty (hlab : LabelsInRange lab) {c : ℕ} (hc : 5000 ≤ c) : rows lab c = ∅ := by
  unfold rows
  rw [Finset.filter_eq_empty_iff]
  intro n _ hn
  have h2 := (hlab n).2
  omega

/-- Such a column's count is the empty sum. -/
theorem cnt_eq_zero (hlab : LabelsInRange lab) {c : ℕ} (hc : 5000 ≤ c) : cnt lab c = 0 := by
  unfold cnt
  rw [rows_eq_empty lab hlab hc, Finset.sum_empty]

/-- Its occurrence bit is clear: 0 > 0 fails. -/
theorem mbit_eq_zero (hlab : LabelsInRange lab) {c : ℕ} (hc : 5000 ≤ c) : mbit lab c = 0#1 := by
  unfold mbit
  rw [cnt_eq_zero lab hlab hc]
  show Ideal.cmp .ogt 0 zero = 0#1
  unfold zero
  rw [Ideal.ofBits_zero_f32]
  simp [Ideal.cmp]

/-- The bit as a float is 0. -/
theorem maskf_eq_zero (hlab : LabelsInRange lab) {c : ℕ} (hc : 5000 ≤ c) : maskf lab c = 0 := by
  unfold maskf
  rw [mbit_eq_zero lab hlab hc]
  show (((0#1 : BitVec 1).toNat : ℝ) : EReal) = 0
  simp

/-- So the masked exponential of such a column vanishes. -/
theorem ex_eq_zero (hlab : LabelsInRange lab) (b : Fin 256) {c : ℕ} (hc : 5000 ≤ c) : ex x f lab b c = 0 := by
  unfold ex
  rw [maskf_eq_zero lab hlab hc, mul_zero]

/-- A query's sum over 5120 columns is its sum over the first 5000: the last 120 terms are 0. -/
theorem rowSum_pad (hlab : LabelsInRange lab) (b : Fin 256) : rowSum x f lab 5120 b = rowSum x f lab 5000 b := by
  unfold rowSum
  rw [Fin.sum_univ_eq_sum_range (fun c => ex x f lab b c) 5120, Fin.sum_univ_eq_sum_range (fun c => ex x f lab b c) 5000,
    show Finset.range 5120 = Finset.range (5000 + 120) from rfl, Finset.sum_range_add,
    Finset.sum_eq_zero (fun i _ => ex_eq_zero x f lab hlab b (Nat.le_add_right 5000 i)), add_zero]

end

theorem loss_pad (x : SX.Idx → EReal) (f : SF.Idx → EReal) (lab : SL.Idx → BitVec 32) (ix : SI.Idx → BitVec 32)
    (hlab : LabelsInRange lab) : loss x f lab ix 5120 = loss x f lab ix 5000 := by
  unfold loss logp
  simp only [rowSum_pad x f lab hlab]

end Cert.Spec

end
-- ==== Proof.PreDecode.lean ====
/-
  Reading the precondition: every label word, read signed, lies in [0, 5000).
-/
import proofs.«424461_j62062277427227_1_alg».proof.Pre_finite_inputs
import proofs.«424461_j62062277427227_1_alg».proof.Proof.Gen.Pre_finite_inputs
import proofs.«424461_j62062277427227_1_alg».proof.Proof.Spec
import Idealize.ShloMosaic.Lib.Affine
import Idealize.ShloMosaic.Lib.ReduceAll
import Idealize.ShloMosaic.Lib.StableHlo.Predicate

noncomputable section

namespace Cert.PreDecode

open Idealize.ShloMosaic Idealize.ShloMosaic.ValueIdx

/-- If the printed precondition is all ones on the argument arrays, every label lies in the label range.

    The precondition is the conjunction of four tests, the last two being "every label ≥ 0" and "every label < 5000",
    each a conjunction over all 100000 label words of a signed comparison against a constant. A conjunction that holds
    has every conjunct holding, so at each row n both comparisons hold of that row's label word; read as integers they
    are 0 ≤ label n and label n < 5000. -/
theorem labels_in_range {F : FTy → Type} [FloatOps F] [hP : Cert.Pre_finite_inputs.Facts]
    (a0 : FVec F Cert.Pre_finite_inputs.S256x256 .f32) (a1 : IVec Cert.Pre_finite_inputs.S256 32)
    (a2 : FVec F Cert.Pre_finite_inputs.S100000x256 .f32) (a3 : IVec Cert.Pre_finite_inputs.S100000 32)
    (h : Cert.Pre_finite_inputs.fn (F := F) a0 a1 a2 a3 = (fun _ => 1#1)) :
    Spec.LabelsInRange a3 := by
  -- the result has a single index
  haveI : Subsingleton Cert.Pre_finite_inputs.S_.Idx := ⟨fun a b => funext fun d => d.elim0⟩
  -- the precondition at that index: ((finite x ∧ finite f) ∧ all (label ≥ 0)) ∧ all (label < 5000)
  have h0 := congrFun h ValueIdx.ix0
  dsimp only [Cert.Pre_finite_inputs.fn, Cert.Pre_finite_inputs.fn_part1, Idealize.ShloMosaic.andi] at h0
  obtain ⟨h12, h15⟩ := IntOp.andi_eq_one.1 h0
  obtain ⟨-, h11⟩ := IntOp.andi_eq_one.1 h12
  intro n
  -- each conjunction over the rows holds at row n
  have hge := Host.reduce_andi_all _ _ _ _ _ h11 (ix1 n)
  have hlt := Host.reduce_andi_all _ _ _ _ _ h15 (ix1 n)
  -- at row n the comparisons are of the label word against the constants 0 and 5000
  dsimp only [Idealize.ShloMosaic.cmpi, broadcastInDim, constantI] at hge hlt
  rw [IntOp.cmpi_sge, show (0#32 : BitVec 32).toInt = 0 from by decide] at hge
  rw [IntOp.cmpi_slt, show (5000#32 : BitVec 32).toInt = 5000 from by decide] at hlt
  show 0 ≤ (a3 (ix1 n)).toInt ∧ (a3 (ix1 n)).toInt < 5000
  exact ⟨hge, hlt⟩

end Cert.PreDecode

end
-- ==== Proof.lean ====
/-
  The certificate of the memory-bank loss kernel against its jnp reference, over the extended reals.

  Both programs compute, for queries x (256 × 256), a memory bank f (100000 × 256), a label per bank row and an
  index per query, the loss of Proof/Spec.lean: similarities scaled by the temperature, averaged over the bank
  rows of each label, a masked softmax over the labels, and the mean negative log-probability of the label of the
  row each query picks. The kernel computes the label sums in one pipelined region — a 2 × 100 grid over halves
  of the queries and tiles of the bank, a one-hot matrix product accumulated in a scratch buffer across the
  tiles — over 5120 label columns (5000 padded to a multiple of 128), and multiplies by the temperature's
  reciprocal; the reference scatter-adds into 5000 columns and divides by the temperature. The claim holds where
  every label lies in [0, 5000) — outside it the reference's own indexing leaves its arrays — and with the
  kernel's scale read as the exact reciprocal of the reference's temperature word.

  The frames: Proof/KFrame.lean (the program as printed) and Proof/KiFrame.lean (its idealization), one text at two
  float families; the reference's frame is its run with the result dropped. The values: Proof/KiRegion.lean (what
  the region leaves: the similarities summed by label), Proof/KiTail.lean (the lines after the region are the loss
  over 5120 columns), Proof/RefValue.lean (the reference is the loss over 5000 columns), Proof/Bridge.lean (the
  padding adds nothing), Proof/PreDecode.lean (the precondition bounds the labels).
-/
import proofs.«424461_j62062277427227_1_alg».proof.Defs
import proofs.«424461_j62062277427227_1_alg».proof.Proof.Gen.Kernel
import proofs.«424461_j62062277427227_1_alg».proof.Proof.Gen.KernelIdeal
import proofs.«424461_j62062277427227_1_alg».proof.Proof.Gen.ReferenceIdeal
import proofs.«424461_j62062277427227_1_alg».proof.Proof.Gen.Pre_finite_inputs
import proofs.«424461_j62062277427227_1_alg».proof.Proof.KFrame
import proofs.«424461_j62062277427227_1_alg».proof.Proof.KiFrame
import proofs.«424461_j62062277427227_1_alg».proof.Proof.KiRegion
import proofs.«424461_j62062277427227_1_alg».proof.Proof.KiTail
import proofs.«424461_j62062277427227_1_alg».proof.Proof.RefRun
import proofs.«424461_j62062277427227_1_alg».proof.Proof.RefRead
import proofs.«424461_j62062277427227_1_alg».proof.Proof.RefValue
import proofs.«424461_j62062277427227_1_alg».proof.Proof.Bridge
import proofs.«424461_j62062277427227_1_alg».proof.Proof.PreDecode
import Idealize.ShloMosaic.Adequacy
import Idealize.ShloMosaic.Init

noncomputable section

namespace Cert.Proof

open Idealize.ShloMosaic Idealize.ShloMosaic.TcCoe Idealize.SL.Sem

/-- The program as printed runs to the end, faults nowhere, and leaves its four arguments unchanged. -/
theorem frame_k : Cert.frame_Kernel (hKernel := Cert.Kernel.Gen.facts) (hPre_finite_inputs := Cert.Pre_finite_inputs.Gen.facts) :=
  fun m ρ _ => Cert.Kernel.Fr.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite of the idealization: the kernel's scale 20.0 is named, and the name denotes the reciprocal of the
    reference's temperature word, 268435456 / 13421773. -/
theorem preserves : Cert.preserves_Kernel_KernelIdeal :=
  IdealRules.named_const.statement Cert.KernelIdeal.κ "fold_c_268435456_13421773" .f32 0x41A00000#32 ((268435456 / 13421773 : ℝ) : EReal) rfl

/-- From memories agreeing on the arguments, with every label in range, both idealized programs end at the loss over
    5000 label columns: the kernel at the loss over its 5120 padded columns, which is the same number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hlab : ∀ c : Dev Cert.KernelIdeal.nD, Spec.LabelsInRange
      (m ((c.tc : Thread Cert.KernelIdeal.nD Cert.KernelIdeal.τ).loc Cert.KernelIdeal.main_arg3)) :=
    fun c => Cert.PreDecode.labels_in_range _ _ _ _ (hpre c)
  refine ⟨fun c => fun _ => Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1)) 5000, ?_, ?_⟩
  · refine (θ_run Cert.KernelIdeal.defs _ _).mono (fun r h c => ?_) (Cert.KernelIdeal.Fr.run_main (F := Ideal) m ρ)
    obtain ⟨W, hr, hW1, hWi, hWl⟩ := Cert.KernelIdeal.Fr.post_result m r h c
    refine ⟨?_, Cert.KernelIdeal.Fr.post_args m r h c⟩
    rw [hr, Cert.KernelIdeal.Tail.tail_after, hW1, hWl, hWi,
      Cert.KernelIdeal.Tail.tailK_loss _ _ _ _ (hlab c) _ (Cert.KernelIdeal.Region.region_value m c),
      Spec.loss_pad _ _ _ _ (hlab c)]
    rfl
  · refine (θ_run Cert.ReferenceIdeal.defs _ _).mono (fun r h c => ⟨(h c).1.trans ?_, (h c).2⟩)
      (Cert.ReferenceIdeal.Value.run (F := Ideal) m' ρ')
    rw [Cert.ReferenceIdeal.RefValue.ref_loss m' c (by rw [(hagree c).2.2.2]; exact hlab c),
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
